-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S10000x10000 .f32) (main_arg1 : FVec F S10000x128 .f32) (main_arg2 : FVec F S128x128 .f32) (main_arg3 : FVec F S128 .f32) (main_arg4 : FVec F S128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 8
  | .vmem => 10
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S1x128, .f32⟩
  | .hbm, ⟨6, _⟩ => ⟨S1x128, .f32⟩
  | .hbm, ⟨7, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S1x128, .f32⟩
  | .local _ .vmem, ⟨6, _⟩ => ⟨S10000x128, .f32⟩
  | .local _ .vmem, ⟨7, _⟩ => ⟨S10000x128, .f32⟩
  | .local _ .vmem, ⟨8, _⟩ => ⟨S1x128, .f32⟩
  | .local _ .vmem, ⟨9, _⟩ => ⟨S1x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v6 : BitVec 32 := Scalar.muli arg0 c400_i32
  let v7 : Index := Scalar.indexCast v6
  let c0_4 : Index := 0#32
  ![v7.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10000x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S400x10000_S400x10000_0_0 : ∀ a, (![0, 0] : Fin 2 → Nat) a + S400x10000.size a ≤ S400x10000.size a
  h_S400x10000 : 0 < S400x10000.numel
  h_S400x128 : 0 < S400x128.numel
  reduces_S400x128_S128 : S400x128.Reduces [0] S128
  broadcasts_S1x128_S10000x128 : S1x128.Broadcasts S10000x128
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S10000x128.size a
  hwx0_5 : ∀ i : grid0.Coords, EltTy.bits .f32 = 32 ∨ (Rect.block (s := S10000x128) S10000x128.size (cc0_transform_5 i) (hinb0_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S10000x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S_ : Shape := ⟨0, ![]⟩
abbrev S1x128 : Shape := ⟨2, ![1, 128]⟩

abbrev nBuf : Space → Nat
  | .hbm => 40
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S10000x128, .f32⟩
  | .hbm, ⟨6, _⟩ => ⟨S10000x128, .f32⟩
  | .hbm, ⟨7, _⟩ => ⟨S_, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S1x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S_, .f32⟩
  | .hbm, ⟨17, _⟩ => ⟨S128, .f32⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S1x128, .f32⟩
  | .hbm, ⟨22, _⟩ => ⟨S10000x128, .f32⟩
  | .hbm, ⟨23, _⟩ => ⟨S10000x128, .f32⟩
  | .hbm, ⟨24, _⟩ => ⟨S_, .f32⟩
  | .hbm, ⟨25, _⟩ => ⟨S128, .f32⟩
  | .hbm, ⟨26, _⟩ => ⟨S128, .f32⟩
  | .hbm, ⟨27, _⟩ => ⟨S128, .f32⟩
  | .hbm, ⟨28, _⟩ => ⟨S1x128, .f32⟩
  | .hbm, ⟨29, _⟩ => ⟨S10000x128, .f32⟩
  | .hbm, ⟨30, _⟩ => ⟨S10000x128, .f32⟩
  | .hbm, ⟨31, _⟩ => ⟨S1x128, .f32⟩
  | .hbm, ⟨32, _⟩ => ⟨S10000x128, .f32⟩
  | .hbm, ⟨33, _⟩ => ⟨S10000x128, .f32⟩
  | .hbm, ⟨34, _⟩ => ⟨S1x128, .f32⟩
  | .hbm, ⟨35, _⟩ => ⟨S10000x128, .f32⟩
  | .hbm, ⟨36, _⟩ => ⟨S10000x128, .f32⟩
  | .hbm, ⟨37, _⟩ => ⟨S_, .f32⟩
  | .hbm, ⟨38, _⟩ => ⟨S10000x128, .f32⟩
  | .hbm, ⟨39, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_cst : Ref sig .tc := ⟨.hbm, 37, rfl⟩
abbrev main_call0_v0 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  reducesTo_S10000x128_S128_d0 : S10000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BFun.lean ====
/-
  What the kernel computes, as pure functions of its input blocks (at any float semantics).

  The body's arithmetic is the seven payload terms of the kernel's skeleton: z (the product x·W), the zero rows,
  a block of y (an adjacency block times z), the running column sum and column sum of squares after one more
  block, and the final normalisation of the whole output. Here they are composed over the 25 grid points: the
  running sums by recursion on the point, all of y as one array (row r comes from block r / 400, row r % 400
  within it), and the result as the final payload applied to the sums after the last point and to all of y.
-/
import proofs.«129174_g85255100825815_cont_sun_c4_478_8_alg».proof.Proof.Gen.Kernel.Skeleton
import Idealize.ShloMosaic.Lib.ValueIdx

noncomputable section

namespace Cert.Kernel.Hand

open Idealize.ShloMosaic Idealize.ShloMosaic.ValueIdx Cert.Kernel Cert.Kernel.Gen

variable {F : FTy → Type} [FloatOps F]

/-- The column sums after point n: from zero at the first point, one block's column sums added per point. -/
def sAt (A : ℕ → Vec F S400x10000 .f32) (z : Vec F S10000x128 .f32) : ℕ → Vec F S1x128 .f32
  | 0 => k0_pay5 (A 0) z (k0_pay2 (F := F))
  | n + 1 => k0_pay5 (A (n + 1)) z (sAt A z n)

/-- The column sums of squares after point n. -/
def ssAt (A : ℕ → Vec F S400x10000 .f32) (z : Vec F S10000x128 .f32) : ℕ → Vec F S1x128 .f32
  | 0 => k0_pay6 (A 0) z (k0_pay3 (F := F))
  | n + 1 => k0_pay6 (A (n + 1)) z (ssAt A z n)

/-- All of y: row r is row r % 400 of the block computed at point r / 400. -/
def yAll (A : ℕ → Vec F S400x10000 .f32) (z : Vec F S10000x128 .f32) : Vec F S10000x128 .f32 :=
  fun i => k0_pay4 (A ((i 0).val / 400)) z (ix2 ⟨(i 0).val % 400, Nat.mod_lt _ (by decide)⟩ (i 1))

/-- The output array the kernel leaves: the final payload of the sums after the last point, γ, β and all of y. -/
def finalOut (A : ℕ → Vec F S400x10000 .f32) (x : Vec F S10000x128 .f32) (w : Vec F S128x128 .f32)
    (g b : Vec F S1x128 .f32) : Vec F S10000x128 .f32 :=
  k0_pay7 (sAt A (k0_pay1 x w) 24) (ssAt A (k0_pay1 x w) 24) g b (yAll A (k0_pay1 x w))

end Cert.Kernel.Hand

end
-- ==== Proof.BShared.lean ====
/-
  The grid's two branch conditions in closed form, the staging memrefs as the pipeline passes them at a point,
  the three scratch buffers as memrefs, and the region's class invariant spelt over them.
-/
import proofs.«129174_g85255100825815_cont_sun_c4_478_8_alg».proof.Proof.Gen.Kernel.Frame
import proofs.«129174_g85255100825815_cont_sun_c4_478_8_alg».proof.Proof.BFun

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

/-- The first branch of the body is taken: the grid coordinate is 0. -/
abbrev isFirst (i : grid0.Coords) : Prop :=
  (Scalar.cmpi .ne (Scalar.extui (Scalar.cmpi .eq (BitVec.ofNat 32 (i 0).val) 0#32)) 0#32) = 1#1
/-- That is the first of the 25 points. -/
theorem isFirst_iff : ∀ t : Fin cfg0.N, isFirst (grid0.coords t) ↔ t.val % 25 = 0 :=
  (by decide +kernel : ∀ t : Fin grid0.N, isFirst (grid0.coords t) ↔ t.val % 25 = 0)

/-- The last branch of the body is taken: the grid coordinate is 24. -/
abbrev isLast (i : grid0.Coords) : Prop :=
  (Scalar.cmpi .ne (Scalar.extui (Scalar.cmpi .eq (BitVec.ofNat 32 (i 0).val) 24#32)) 0#32) = 1#1
/-- That is the last of the 25 points. -/
theorem isLast_iff : ∀ t : Fin cfg0.N, isLast (grid0.coords t) ↔ t.val % 25 = 24 :=
  (by decide +kernel : ∀ t : Fin grid0.N, isLast (grid0.coords t) ↔ t.val % 25 = 24)

/-- The rows a point stores its block of y into start at 400 times the point. -/
theorem off_eq : ∀ t : Fin cfg0.N, k0_off1 (grid0.coords t) = ![400 * t.val, 0] :=
  (by decide +kernel : ∀ t : Fin grid0.N, k0_off1 (grid0.coords t) = ![400 * t.val, 0])

/-- Each window's current staging memref at point t, as the pipeline passes it to the body, and its wholeness. -/
abbrev ms0 (t : Fin cfg0.N) : Memref sig .tc .vmem S400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S10000x128 .f32 := win0_5.stage (cfg0.slots t 5)
abbrev hs5 (t : Fin cfg0.N) : (ms5 t).IsWhole := hstage0_5 ((cfg0.slots t 5).cast nbuf0_5)

/-- The scratch operands: z, the column sums, the column sums of squares. -/
abbrev scZ : Memref sig .tc .vmem S10000x128 .f32 := Memref.whole cc0_scratch0
abbrev scS : Memref sig .tc .vmem S1x128 .f32 := Memref.whole cc0_scratch1
abbrev scQ : Memref sig .tc .vmem S1x128 .f32 := Memref.whole cc0_scratch2

/-- The region's class invariant: each scratch buffer owned at some contents, and the generator register at some state. -/
theorem PhiA_eq (c : Dev nD) :
    (Pipeline.ΦA spec0 c : sProp 𝕄)
      = iprop(iprop((∃ d, owns (c : Thread nD τ) scZ fullShare d) ∗ (∃ d, owns (c : Thread nD τ) scS fullShare d) ∗ (∃ d, owns (c : Thread nD τ) scQ fullShare d)) ∗ (∃ r, prngReg c r)) := by
  unfold Pipeline.ΦA; rw [scopedRest0_eq]; simp only [scZ, scS, scQ, owns_whole]; try rfl

end Cert.Kernel.Hand

end
-- ==== Proof.BData.lean ====
/-
  The arrays the proof speaks of, as the region finds them, and what the kernel makes of them point by point.

  Each input window's block at a point is named at its literal vector type. From the blocks: z (computed once, at
  the first point, from x and W), the block of y a point computes, the column sums and column sums of squares
  after each point, and the array the last point leaves in the output buffer.
-/
import proofs.«129174_g85255100825815_cont_sun_c4_478_8_alg».proof.Proof.BShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The adjacency block (400 rows, all 10000 columns) of point t. -/
abbrev adjB (c : Dev nD) (t : Fin cfg0.N) : Vec F S400x10000 .f32 := iblk m c 0 t
/-- x, W, γ and β as the body finds them at point t (their index maps are constant: the same arrays at every point). -/
abbrev xB (c : Dev nD) (t : Fin cfg0.N) : Vec F S10000x128 .f32 := iblk m c 1 t
abbrev wB (c : Dev nD) (t : Fin cfg0.N) : Vec F S128x128 .f32 := iblk m c 2 t
abbrev gB (c : Dev nD) (t : Fin cfg0.N) : Vec F S1x128 .f32 := iblk m c 3 t
abbrev bB (c : Dev nD) (t : Fin cfg0.N) : Vec F S1x128 .f32 := iblk m c 4 t

/-- The first and the last point. -/
abbrev t0 : Fin cfg0.N := ⟨0, by decide⟩
abbrev tL : Fin cfg0.N := ⟨24, by decide⟩

/-- The adjacency blocks by point number. -/
def adjAt (c : Dev nD) (n : ℕ) : Vec F S400x10000 .f32 := if h : n < cfg0.N then adjB m c ⟨n, h⟩ else adjB m c t0
/-- z = x·W, as the first point computes it. -/
def zArr (c : Dev nD) : Vec F S10000x128 .f32 := k0_pay1 (xB m c t0) (wB m c t0)
/-- The block of y point t computes: its adjacency block times z. -/
def yBlk (c : Dev nD) (t : Fin cfg0.N) : Vec F S400x128 .f32 := k0_pay4 (adjB m c t) (zArr m c)
/-- The column sums and the column sums of squares after point n. -/
def sArr (c : Dev nD) (n : ℕ) : Vec F S1x128 .f32 := sAt (adjAt m c) (zArr m c) n
def qArr (c : Dev nD) (n : ℕ) : Vec F S1x128 .f32 := ssAt (adjAt m c) (zArr m c) n
/-- What the last point leaves in the output buffer. -/
def outArr (c : Dev nD) : Vec F S10000x128 .f32 :=
  k0_pay7 (sArr m c 24) (qArr m c 24) (gB m c tL) (bB m c tL) (yAll (adjAt m c) (zArr m c))

/-- It is the kernel's value function of the blocks. -/
theorem outArr_eq (c : Dev nD) :
    outArr m c = finalOut (adjAt m c) (xB m c t0) (wB m c t0) (gB m c tL) (bB m c tL) := rfl

theorem adjAt_of_lt (c : Dev nD) (t : Fin cfg0.N) : adjAt m c t.val = adjB m c t := by
  unfold adjAt; rw [dif_pos t.isLt]

theorem sArr_zero (c : Dev nD) : sArr m c 0 = k0_pay5 (adjB m c t0) (zArr m c) (k0_pay2 (F := F)) := by
  unfold sArr; rw [sAt, ← adjAt_of_lt m c t0]
theorem sArr_succ (c : Dev nD) (n : ℕ) (h : n + 1 < cfg0.N) :
    sArr m c (n + 1) = k0_pay5 (adjB m c ⟨n + 1, h⟩) (zArr m c) (sArr m c n) := by
  unfold sArr; rw [sAt, ← adjAt_of_lt m c ⟨n + 1, h⟩]
theorem qArr_zero (c : Dev nD) : qArr m c 0 = k0_pay6 (adjB m c t0) (zArr m c) (k0_pay3 (F := F)) := by
  unfold qArr; rw [ssAt, ← adjAt_of_lt m c t0]
theorem qArr_succ (c : Dev nD) (n : ℕ) (h : n + 1 < cfg0.N) :
    qArr m c (n + 1) = k0_pay6 (adjB m c ⟨n + 1, h⟩) (zArr m c) (qArr m c n) := by
  unfold qArr; rw [ssAt, ← adjAt_of_lt m c ⟨n + 1, h⟩]

end Cert.Kernel.Hand

end
-- ==== Proof.BProofData.lean ====
/-
  The pipeline's proof data.

  The five input windows are named exactly (each holds its block at every point). The output window's staging
  buffer is carried across the 25 points without a write-back until the last, and each point overwrites only its own
  400 rows, so what it holds is CONSTRAINED, not named: if the rows of the points before hold their blocks of y, then
  after the point so do the rows up to and including its own; and after the last point the buffer holds the final
  array. The three scratch buffers are tracked by the region invariant: after point n they hold z and the sums after n.
-/
import proofs.«129174_g85255100825815_cont_sun_c4_478_8_alg».proof.Proof.BData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-! ## The scratch buffers, point by point -/

/-- The region invariant before point n: at the first point the class's (every scratch at anything); afterwards z and
    the two sums after the point before, and the generator register at some state. -/
def PhiS (c : Dev nD) : (n : ℕ) → n ≤ cfg0.N → sProp 𝕄
  | 0, _ => Pipeline.ΦA spec0 c
  | n + 1, _ => iprop(iprop(owns (c : Thread nD τ) scZ fullShare (zArr m c) ∗ owns (c : Thread nD τ) scS fullShare (sArr m c n) ∗ owns (c : Thread nD τ) scQ fullShare (qArr m c n)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n + 1 ≤ cfg0.N) :
    PhiS m c (n + 1) hn = iprop(iprop(owns (c : Thread nD τ) scZ fullShare (zArr m c) ∗ owns (c : Thread nD τ) scS fullShare (sArr m c n) ∗ owns (c : Thread nD τ) scQ fullShare (qArr m c n)) ∗ (∃ r, prngReg c r)) := rfl

theorem PhiS_pos (c : Dev nD) (n : ℕ) (h : n ≤ cfg0.N) (hz : n ≠ 0) :
    PhiS m c n h = iprop(iprop(owns (c : Thread nD τ) scZ fullShare (zArr m c) ∗ owns (c : Thread nD τ) scS fullShare (sArr m c (n - 1)) ∗ owns (c : Thread nD τ) scQ fullShare (qArr m c (n - 1))) ∗ (∃ r, prngReg c r)) := by
  cases n with
  | zero => exact absurd rfl hz
  | succ n => rfl

/-! ## The output buffer, point by point -/

/-- The rows of the points below n hold their blocks of y. -/
def RowsDone (c : Dev nD) (n : ℕ) (X : Vec F S10000x128 .f32) : Prop :=
  ∀ t : Fin cfg0.N, t.val < n → ∀ (j : S10000x128.Idx) (p : Fin 400) (q : Fin 128),
    (j 0).val = 400 * t.val + p.val → (j 1).val = q.val → X j = yBlk m c t (ix2 p q)

/-- What point t makes of the output buffer: handed a buffer whose rows below its own are done, it leaves one whose
    rows up to and including its own are done — and the last point leaves the final array. -/
def R5 (c : Dev nD) (t : Fin cfg0.N) (Y X : Vec F S10000x128 .f32) : Prop :=
  RowsDone m c t.val Y → if t.val = 24 then X = outArr m c else RowsDone m c (t.val + 1) X

/-! ## The data -/

/-- Exact data for the inputs (each window's buffer holds its block after the body as before it); the output's entry
    here is a placeholder the relation below replaces. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ t := PhiS m c t.val (Nat.le_of_lt_succ t.isLt)
  q _ := fullShare
  owed _ := 0

/-- The output window's relation; the inputs keep the exact data's. -/
def ovr (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => none
  | ⟨3, _⟩ => none
  | ⟨4, _⟩ => none
  | ⟨5, _⟩ => some (R5 m c)

/-- The relational data: the exact data read relationally, the output window constrained by `R5`. -/
def rdat (c : Dev nD) : RDat τ (Elt F) Unit ℕ (UR sig nD τ) ℕ cfg0 c := (dat m c).toR.override (ovr m c)

theorem A_eq (c : Dev nD) (w : Fin cfg0.W) : (rdat m c).A w = V m c (Pipeline.arrRef spec0 w) := by
  show (dat m c).A w = _; dsimp only [dat]

theorem datA_eq (c : Dev nD) (w : Fin cfg0.W) : (dat m c).A w = V m c (Pipeline.arrRef spec0 w) := by
  dsimp only [dat]

theorem Phi_castSucc (c : Dev nD) (t : Fin cfg0.N) :
    (rdat m c).Φ t.castSucc = PhiS m c t.val (Nat.le_of_lt t.isLt) := by
  show (dat m c).Φ t.castSucc = _; dsimp only [dat]; simp only [Fin.coe_castSucc]

theorem Phi_succ (c : Dev nD) (t : Fin cfg0.N) :
    (rdat m c).Φ t.succ = PhiS m c (t.val + 1) t.isLt := rfl

theorem after0 (c : Dev nD) (t : Fin cfg0.N) : (dat m c).after 0 t = iblk m c 0 t := by dsimp only [dat]
theorem after1 (c : Dev nD) (t : Fin cfg0.N) : (dat m c).after 1 t = iblk m c 1 t := by dsimp only [dat]
theorem after2 (c : Dev nD) (t : Fin cfg0.N) : (dat m c).after 2 t = iblk m c 2 t := by dsimp only [dat]
theorem after3 (c : Dev nD) (t : Fin cfg0.N) : (dat m c).after 3 t = iblk m c 3 t := by dsimp only [dat]
theorem after4 (c : Dev nD) (t : Fin cfg0.N) : (dat m c).after 4 t = iblk m c 4 t := by dsimp only [dat]

/-- Each input's current staging buffer holds its block at every point, fetched there or not. -/
theorem before0 (c : Dev nD) (t : Fin cfg0.N) (d) : (dat m c).before 0 t d = iblk m c 0 t :=
  before0_0_of m (dat m c) (datA_eq m c 0) (after0 m c) t d
theorem before1 (c : Dev nD) (t : Fin cfg0.N) (d) : (dat m c).before 1 t d = iblk m c 1 t :=
  before0_1_of m (dat m c) (datA_eq m c 1) (after1 m c) t d
theorem before2 (c : Dev nD) (t : Fin cfg0.N) (d) : (dat m c).before 2 t d = iblk m c 2 t :=
  before0_2_of m (dat m c) (datA_eq m c 2) (after2 m c) t d
theorem before3 (c : Dev nD) (t : Fin cfg0.N) (d) : (dat m c).before 3 t d = iblk m c 3 t :=
  before0_3_of m (dat m c) (datA_eq m c 3) (after3 m c) t d
theorem before4 (c : Dev nD) (t : Fin cfg0.N) (d) : (dat m c).before 4 t d = iblk m c 4 t :=
  before0_4_of m (dat m c) (datA_eq m c 4) (after4 m c) t d

/-! ## What the body finds and must leave, window by window -/

/-- An input window's buffer, as the body finds it: its block. -/
theorem finds_in (c : Dev nD) (w : Fin cfg0.W) (hw : ovr (F := F) m c w = none) (t : Fin cfg0.N) (Y) (h : (rdat m c).Finds w t Y) :
    ∃ d, Y = (dat m c).before w t d :=
  (dat m c).toR_finds w t Y (((dat m c).toR.override_finds hw t Y).mp h)

/-- What the relation asks of an input window's buffer after the body: that it hold its block. -/
theorem after_in (c : Dev nD) (w : Fin cfg0.W) (hw : ovr (F := F) m c w = none) (t : Fin cfg0.N) (Y X) (h : X = (dat m c).after w t) :
    (rdat m c).after w t Y X := by
  show ((dat m c).toR.override (ovr m c)).after w t Y X
  rw [(dat m c).toR.override_after_of_eq_none hw]
  show (dat m c).Leaves w t X
  exact (Dat.Leaves.live_iff (dat m c) (.inl rfl)).mpr h

/-- The output window's relation is `R5`. -/
theorem after_out (c : Dev nD) : (rdat m c).after 5 = R5 m c :=
  (dat m c).toR.override_after_of_eq_some rfl

/-- The output window is never fetched, -/
theorem fetch5 : ∀ t : Fin cfg0.N, (cfg0.win 5).fetch t = false :=
  (by decide +kernel : ∀ t : Fin grid0.N, win0_5.fetch t = false)

/-- and the body finds, at point t, a buffer whose rows below the point's own are done. -/
theorem finds_out (c : Dev nD) : ∀ (n : ℕ) (t : Fin cfg0.N), t.val = n → ∀ Y, (rdat m c).Finds 5 t Y → RowsDone m c t.val Y := by
  intro n
  induction n with
  | zero =>
    intro t ht Y _ t' ht'
    omega
  | succ n ih =>
    intro t ht Y hY
    have hN : t.val < 25 := lt_of_lt_of_eq t.isLt (show cfg0.N = 25 from N_0)
    rcases ((rdat m c).finds_of_pos (fetch5 t) (by omega) Y).mp hY with hfl | ⟨Y', hY', hR⟩
    · exfalso
      have := (flush0_5 ⟨t.val - 1, Nat.lt_of_le_of_lt (Nat.sub_le _ _) t.isLt⟩).mp hfl
      simp only at this; omega
    · have hprev := ih ⟨t.val - 1, Nat.lt_of_le_of_lt (Nat.sub_le _ _) t.isLt⟩ (by simp only; omega) Y' hY'
      rw [after_out] at hR
      have h1 := hR hprev
      simp only at h1
      rw [if_neg (by omega)] at h1
      have e : t.val - 1 + 1 = t.val := by omega
      rw [e] at h1
      exact h1

/-- After the last point the buffer holds the final array. -/
theorem leaves_out (c : Dev nD) (X) (h : (rdat m c).Leaves 5 tL X) : X = outArr m c := by
  obtain ⟨Y, hY, hR⟩ := h
  rw [after_out] at hR
  have h1 := hR (finds_out m c 24 tL rfl Y hY)
  rw [if_pos rfl] at h1
  exact h1

end Cert.Kernel.Hand

end
-- ==== Proof.BSteps.lean ====
/-
  The pure steps behind the output buffer's relation: storing a point's block of y into its rows extends the rows that
  are done by that point's; and a buffer all of whose rows are done is all of y.
-/
import proofs.«129174_g85255100825815_cont_sun_c4_478_8_alg».proof.Proof.BProofData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- A buffer that holds point t's block of y in the point's rows and agrees elsewhere with one whose rows below are done
    has its rows done up to and including the point's. -/
theorem rows_step (c : Dev nD) (t : Fin cfg0.N) (y5 X : Vec F S10000x128 .f32) (h5 : RowsDone m c t.val y5)
    (hin : ∀ (j : S10000x128.Idx) (p : Fin 400) (q : Fin 128), (j 0).val = 400 * t.val + p.val → (j 1).val = q.val →
      X j = k0_pay4 (adjB m c t) (zArr m c) (ix2 p q))
    (hoff : ∀ j : S10000x128.Idx, ((j 0).val < 400 * t.val ∨ 400 * t.val + 400 ≤ (j 0).val) → X j = y5 j) :
    RowsDone m c (t.val + 1) X := by
  intro t' ht' j p q hj0 hj1
  by_cases h : t'.val = t.val
  · obtain rfl : t' = t := Fin.ext h
    exact hin j p q hj0 hj1
  · have hlt : t'.val < t.val := by omega
    rw [hoff j (Or.inl (by have := p.isLt; omega))]
    exact h5 t' hlt j p q hj0 hj1

/-- All of y, in the rows of point t: that point's block. -/
theorem yAll_in (c : Dev nD) (t : Fin cfg0.N) (j : S10000x128.Idx) (p : Fin 400) (q : Fin 128)
    (hj0 : (j 0).val = 400 * t.val + p.val) (hj1 : (j 1).val = q.val) :
    yAll (adjAt m c) (zArr m c) j = k0_pay4 (adjB m c t) (zArr m c) (ix2 p q) := by
  have hp := p.isLt
  have hd : (j 0).val / 400 = t.val := by omega
  have hm : (j 0).val % 400 = p.val := by omega
  unfold yAll
  have e1 : adjAt m c ((j 0).val / 400) = adjB m c t := by rw [hd]; exact adjAt_of_lt m c t
  have e2 : ix2 (⟨(j 0).val % 400, Nat.mod_lt _ (by decide)⟩ : Fin 400) (j 1) = ix2 p q :=
    congrArg₂ ix2 (Fin.ext hm) (Fin.ext hj1)
  rw [e1]
  exact congrArg (k0_pay4 (adjB m c t) (zArr m c)) e2

/-- All of y, outside the rows of the last point, agrees with any buffer whose rows below that point are done. -/
theorem yAll_off (c : Dev nD) (t : Fin cfg0.N) (ht : t.val = 24) (y5 : Vec F S10000x128 .f32) (h5 : RowsDone m c t.val y5)
    (j : S10000x128.Idx) (hj : (j 0).val < 400 * t.val ∨ 400 * t.val + 400 ≤ (j 0).val) :
    yAll (adjAt m c) (zArr m c) j = y5 j := by
  have hj0 : (j 0).val < 10000 := (j 0).isLt
  have hlt : (j 0).val < 400 * t.val := by omega
  have hN : (j 0).val / 400 < cfg0.N := by
    have : cfg0.N = 25 := N_0
    omega
  have hm := Nat.mod_lt (j 0).val (show 0 < 400 by decide)
  rw [h5 ⟨(j 0).val / 400, hN⟩ (by simp only; omega) j ⟨(j 0).val % 400, hm⟩ ⟨(j 1).val, (j 1).isLt⟩
    (by simp only; omega) rfl]
  unfold yAll yBlk
  have e1 : adjAt m c ((j 0).val / 400) = adjB m c ⟨(j 0).val / 400, hN⟩ := adjAt_of_lt m c ⟨(j 0).val / 400, hN⟩
  rw [e1]
  rfl

/-- The sums after the last point, from the sums after the point before it. -/
theorem sArr_last (c : Dev nD) : sArr m c 24 = k0_pay5 (adjB m c tL) (zArr m c) (sArr m c 23) :=
  sArr_succ m c 23 (by decide)
theorem qArr_last (c : Dev nD) : qArr m c 24 = k0_pay6 (adjB m c tL) (zArr m c) (qArr m c 23) :=
  qArr_succ m c 23 (by decide)

/-- The final array, spelt over the sums after the point before the last. -/
theorem outArr_last (c : Dev nD) :
    outArr m c = k0_pay7 (k0_pay5 (adjB m c tL) (zArr m c) (sArr m c 23)) (k0_pay6 (adjB m c tL) (zArr m c) (qArr m c 23))
      (gB m c tL) (bB m c tL) (yAll (adjAt m c) (zArr m c)) := by
  unfold outArr; rw [sArr_last, qArr_last]

/-- The same at a point known to be the last only through its number. -/
theorem outArr_at (c : Dev nD) (t : Fin cfg0.N) (n : ℕ) (hn : t.val = n + 1) (h24 : n + 1 = 24) :
    outArr m c = k0_pay7 (k0_pay5 (adjB m c t) (zArr m c) (sArr m c n)) (k0_pay6 (adjB m c t) (zArr m c) (qArr m c n))
      (gB m c t) (bB m c t) (yAll (adjAt m c) (zArr m c)) := by
  obtain rfl : n = 23 := by omega
  have e : t = tL := Fin.ext (by rw [hn])
  subst e
  exact outArr_last m c

end Cert.Kernel.Hand

end
-- ==== Proof.BRunA.lean ====
/-
  The body at the first grid point, run on whole staging memrefs.

  At point 0 both the initialising branch and the main part run: z = x·W is stored over all of the z scratch,
  the two running sums are zeroed, the point's block of y is stored into its 400 rows of the output buffer, and
  the sums take the block's column sums. The output buffer keeps whatever it held outside those rows.
-/
import proofs.«129174_g85255100825815_cont_sun_c4_478_8_alg».proof.Proof.BShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

set_option maxHeartbeats 1000000 in
/-- The first point's run: the inputs come back as they were; the output buffer, handed over at contents y5, comes
    back with the listed pieces written over them; each scratch buffer, handed over at anything, comes back with
    the listed pieces written. The pieces are found by the run. -/
noncomputable def runA (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (hc0 : isFirst i) (hc1 : ¬isLast i)
    (x0 : Vec F S400x10000 .f32) (x1 : Vec F S10000x128 .f32) (x2 : Vec F S128x128 .f32) (x3 : Vec F S1x128 .f32) (x4 : Vec F S1x128 .f32) (y5 : Vec F S10000x128 .f32) :
    Σ' (L5 : List (View.Piece (Elt F) S10000x128 .f32)), Σ' (LS0 : List (View.Piece (Elt F) S10000x128 .f32)), Σ' (LS1 : List (View.Piece (Elt F) S1x128 .f32)), { LS2 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg6.view.loc (c : Thread nD τ) ↦[arg6.view.set]{fullShare} arg6.view.writes (Elt F) (harg6.unread y5) L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexact H5
    isplitl [HS0]; · iexists _; iexact HS0
    isplitl [HS1]; · iexists _; iexact HS1
    iexists _; iexact HS2

end Cert.Kernel.Hand

end
-- ==== Proof.BPiecesA.lean ====
/-
  What the first point's run leaves, read back: the z scratch holds x·W; the two sums hold the block's column sums
  added to zero; the output buffer holds the point's block of y in its 400 rows and what it held elsewhere.
-/
import proofs.«129174_g85255100825815_cont_sun_c4_478_8_alg».proof.Proof.BRunA
import Idealize.ShloMosaic.Lib.WritesUnit
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

/-- The zero offsets of a rank-2 rectangle. -/
theorem hz2 : (![0, 0] : Fin 2 → ℕ) = fun _ => 0 := by funext a; fin_cases a <;> rfl

/-- A list of writes whose newest piece is a store over the whole shape reads back that piece's payload. -/
theorem read_whole_cons {Val : EltTy → Type} [∀ e, Nonempty (Val e)] {sig' : RefSig} {κ : Kind} {sp : Space} {S : Shape} {e : EltTy}
    (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

section A
variable (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (hc0 : isFirst i) (hc1 : ¬isLast i)
    (x0 : Vec F S400x10000 .f32) (x1 : Vec F S10000x128 .f32) (x2 : Vec F S128x128 .f32) (x3 : Vec F S1x128 .f32) (x4 : Vec F S1x128 .f32) (y5 : Vec F S10000x128 .f32)

/-- The z scratch after the first point: x·W. -/
theorem runA_z (f : arg7.view.ty.Contents (Elt F)) :
    arg7.view.read (Elt F) (arg7.view.writes (Elt F) f (runA c i arg1 harg1 arg2 harg2 arg3 harg3 arg4 harg4 arg5 harg5 arg6 harg6 arg7 harg7 arg8 harg8 arg9 harg9 hc0 hc1 x0 x1 x2 x3 x4 y5).2.1) = k0_pay1 x1 x2 := by
  unfold runA; dsimp only; sl_unfold_run_names
  rw [read_whole_cons _ _ hz2]
  simp only [View.readAt_eq_ld, harg2.read_unread, harg3.read_unread, View.ld_unit_zero (S := S10000x128) hz2, View.ld_unit_zero (S := S128x128) hz2]

/-- The column sums after the first point. -/
theorem runA_s (f : arg8.view.ty.Contents (Elt F)) :
    arg8.view.read (Elt F) (arg8.view.writes (Elt F) f (runA c i arg1 harg1 arg2 harg2 arg3 harg3 arg4 harg4 arg5 harg5 arg6 harg6 arg7 harg7 arg8 harg8 arg9 harg9 hc0 hc1 x0 x1 x2 x3 x4 y5).2.2.1) = k0_pay5 x0 (k0_pay1 x1 x2) (k0_pay2 (F := F)) := by
  unfold runA; dsimp only; sl_unfold_run_names
  rw [read_whole_cons _ _ hz2]
  simp only [View.readAt_eq_ld, harg1.read_unread, harg2.read_unread, harg3.read_unread, View.ld_unit_zero (S := S400x10000) hz2, View.ld_unit_zero (S := S10000x128) hz2, View.ld_unit_zero (S := S128x128) hz2,
    View.readCov_unit_zero (S := S10000x128) _ hz2, View.readCov_unit_zero (S := S1x128) _ hz2]

/-- The column sums of squares after the first point. -/
theorem runA_q (f : arg9.view.ty.Contents (Elt F)) :
    arg9.view.read (Elt F) (arg9.view.writes (Elt F) f (runA c i arg1 harg1 arg2 harg2 arg3 harg3 arg4 harg4 arg5 harg5 arg6 harg6 arg7 harg7 arg8 harg8 arg9 harg9 hc0 hc1 x0 x1 x2 x3 x4 y5).2.2.2.1) = k0_pay6 x0 (k0_pay1 x1 x2) (k0_pay3 (F := F)) := by
  unfold runA; dsimp only; sl_unfold_run_names
  rw [read_whole_cons _ _ hz2]
  simp only [View.readAt_eq_ld, harg1.read_unread, harg2.read_unread, harg3.read_unread, View.ld_unit_zero (S := S400x10000) hz2, View.ld_unit_zero (S := S10000x128) hz2, View.ld_unit_zero (S := S128x128) hz2,
    View.readCov_unit_zero (S := S10000x128) _ hz2, View.readCov_unit_zero (S := S1x128) _ hz2]

/-- The output buffer after the first point, inside the point's rows: the block of y. -/
theorem runA_out_in {o : ℕ} (ho : k0_off1 i = ![o, 0]) (j : S10000x128.Idx) (p : Fin 400) (q : Fin 128)
    (hj0 : (j 0).val = o + p.val) (hj1 : (j 1).val = q.val) :
    arg6.view.read (Elt F) (arg6.view.writes (Elt F) (harg6.unread y5) (runA c i arg1 harg1 arg2 harg2 arg3 harg3 arg4 harg4 arg5 harg5 arg6 harg6 arg7 harg7 arg8 harg8 arg9 harg9 hc0 hc1 x0 x1 x2 x3 x4 y5).1) j
      = k0_pay4 x0 (k0_pay1 x1 x2) (ValueIdx.ix2 p q) := by
  unfold runA; dsimp only; sl_unfold_run_names
  refine (View.read_writes_cons_rows_of_mem arg6.view (harg6.unread y5) (k0_off1_inb i) _ [] j (ValueIdx.ix2 p q) ho hj0 hj1).trans ?_
  simp only [View.readAt_eq_ld, harg1.read_unread, harg2.read_unread, harg3.read_unread, View.ld_unit_zero (S := S400x10000) hz2, View.ld_unit_zero (S := S10000x128) hz2, View.ld_unit_zero (S := S128x128) hz2,
    View.readCov_unit_zero (S := S10000x128) _ hz2]

/-- and outside them: what it held. -/
theorem runA_out_off {o : ℕ} (ho : k0_off1 i = ![o, 0]) (j : S10000x128.Idx)
    (hj : (j 0).val < o ∨ o + 400 ≤ (j 0).val) :
    arg6.view.read (Elt F) (arg6.view.writes (Elt F) (harg6.unread y5) (runA c i arg1 harg1 arg2 harg2 arg3 harg3 arg4 harg4 arg5 harg5 arg6 harg6 arg7 harg7 arg8 harg8 arg9 harg9 hc0 hc1 x0 x1 x2 x3 x4 y5).1) j
      = y5 j := by
  unfold runA; dsimp only; sl_unfold_run_names
  refine (View.read_writes_cons_rows_of_not_mem arg6.view (harg6.unread y5) (k0_off1_inb i) _ [] j ho rfl hj).trans ?_
  exact congrFun (harg6.read_unread y5) j

end A

end Cert.Kernel.Hand

end
-- ==== Proof.BRunB.lean ====
/-
  The body at a middle grid point (neither the first nor the last), run on whole staging memrefs.

  Only the main part runs: the point's block of y = (adjacency block)·z is stored into its 400 rows of the output
  buffer, and the two running sums take the block's column sums and column sums of squares. The z scratch is read
  and left as it was.
-/
import proofs.«129174_g85255100825815_cont_sun_c4_478_8_alg».proof.Proof.BShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

set_option maxHeartbeats 1000000 in
/-- A middle point's run: the inputs and the z scratch come back as they were; the output buffer, handed over at
    contents y5, comes back with the listed pieces written over them; the two sums' buffers come back with the listed
    pieces written. The pieces are found by the run. -/
noncomputable def runB (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (hc0 : ¬isFirst i) (hc1 : ¬isLast i)
    (x0 : Vec F S400x10000 .f32) (x1 : Vec F S10000x128 .f32) (x2 : Vec F S128x128 .f32) (x3 : Vec F S1x128 .f32) (x4 : Vec F S1x128 .f32) (y5 : Vec F S10000x128 .f32)
    (xs0 : Vec F S10000x128 .f32) (xs1 : Vec F S1x128 .f32) (xs2 : Vec F S1x128 .f32) :
    Σ' (L5 : List (View.Piece (Elt F) S10000x128 .f32)), Σ' (LS1 : List (View.Piece (Elt F) S1x128 .f32)), { LS2 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ owns (c : Thread nD τ) arg7 fullShare xs0 ∗ owns (c : Thread nD τ) arg8 fullShare xs1 ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg6.view.loc (c : Thread nD τ) ↦[arg6.view.set]{fullShare} arg6.view.writes (Elt F) (harg6.unread y5) L5) ∗ owns (c : Thread nD τ) arg7 fullShare xs0 ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexact H5
    isplitl [HS0]
    · iexists _; isplitr; · ipureintro; exact harg7.read_unread _
      iexact HS0
    isplitl [HS1]; · iexists _; iexact HS1
    iexists _; iexact HS2

end Cert.Kernel.Hand

end
-- ==== Proof.BPiecesB.lean ====
/-
  What a middle point's run leaves, read back: the two sums hold the block's column sums added to what they held;
  the output buffer holds the point's block of y in its 400 rows and what it held elsewhere.
-/
import proofs.«129174_g85255100825815_cont_sun_c4_478_8_alg».proof.Proof.BRunB
import proofs.«129174_g85255100825815_cont_sun_c4_478_8_alg».proof.Proof.BPiecesA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

section B
variable (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (hc0 : ¬isFirst i) (hc1 : ¬isLast i)
    (x0 : Vec F S400x10000 .f32) (x1 : Vec F S10000x128 .f32) (x2 : Vec F S128x128 .f32) (x3 : Vec F S1x128 .f32) (x4 : Vec F S1x128 .f32) (y5 : Vec F S10000x128 .f32)
    (xs0 : Vec F S10000x128 .f32) (xs1 : Vec F S1x128 .f32) (xs2 : Vec F S1x128 .f32)

/-- The column sums after a middle point. -/
theorem runB_s (f : arg8.view.ty.Contents (Elt F)) :
    arg8.view.read (Elt F) (arg8.view.writes (Elt F) f (runB c i arg1 harg1 arg2 harg2 arg3 harg3 arg4 harg4 arg5 harg5 arg6 harg6 arg7 harg7 arg8 harg8 arg9 harg9 hc0 hc1 x0 x1 x2 x3 x4 y5 xs0 xs1 xs2).2.1) = k0_pay5 x0 xs0 xs1 := by
  unfold runB; dsimp only; sl_unfold_run_names
  rw [read_whole_cons _ _ hz2]
  simp only [View.readAt_eq_ld, harg1.read_unread, harg7.read_unread, harg8.read_unread, View.ld_unit_zero (S := S400x10000) hz2, View.ld_unit_zero (S := S10000x128) hz2, View.ld_unit_zero (S := S1x128) hz2]

/-- The column sums of squares after a middle point. -/
theorem runB_q (f : arg9.view.ty.Contents (Elt F)) :
    arg9.view.read (Elt F) (arg9.view.writes (Elt F) f (runB c i arg1 harg1 arg2 harg2 arg3 harg3 arg4 harg4 arg5 harg5 arg6 harg6 arg7 harg7 arg8 harg8 arg9 harg9 hc0 hc1 x0 x1 x2 x3 x4 y5 xs0 xs1 xs2).2.2.1) = k0_pay6 x0 xs0 xs2 := by
  unfold runB; dsimp only; sl_unfold_run_names
  rw [read_whole_cons _ _ hz2]
  simp only [View.readAt_eq_ld, harg1.read_unread, harg7.read_unread, harg9.read_unread, View.ld_unit_zero (S := S400x10000) hz2, View.ld_unit_zero (S := S10000x128) hz2, View.ld_unit_zero (S := S1x128) hz2]

/-- The output buffer after a middle point, inside the point's rows: the block of y. -/
theorem runB_out_in {o : ℕ} (ho : k0_off1 i = ![o, 0]) (j : S10000x128.Idx) (p : Fin 400) (q : Fin 128)
    (hj0 : (j 0).val = o + p.val) (hj1 : (j 1).val = q.val) :
    arg6.view.read (Elt F) (arg6.view.writes (Elt F) (harg6.unread y5) (runB c i arg1 harg1 arg2 harg2 arg3 harg3 arg4 harg4 arg5 harg5 arg6 harg6 arg7 harg7 arg8 harg8 arg9 harg9 hc0 hc1 x0 x1 x2 x3 x4 y5 xs0 xs1 xs2).1) j
      = k0_pay4 x0 xs0 (ValueIdx.ix2 p q) := by
  unfold runB; dsimp only; sl_unfold_run_names
  refine (View.read_writes_cons_rows_of_mem arg6.view (harg6.unread y5) (k0_off1_inb i) _ [] j (ValueIdx.ix2 p q) ho hj0 hj1).trans ?_
  simp only [View.readAt_eq_ld, harg1.read_unread, harg7.read_unread, View.ld_unit_zero (S := S400x10000) hz2, View.ld_unit_zero (S := S10000x128) hz2]

/-- and outside them: what it held. -/
theorem runB_out_off {o : ℕ} (ho : k0_off1 i = ![o, 0]) (j : S10000x128.Idx)
    (hj : (j 0).val < o ∨ o + 400 ≤ (j 0).val) :
    arg6.view.read (Elt F) (arg6.view.writes (Elt F) (harg6.unread y5) (runB c i arg1 harg1 arg2 harg2 arg3 harg3 arg4 harg4 arg5 harg5 arg6 harg6 arg7 harg7 arg8 harg8 arg9 harg9 hc0 hc1 x0 x1 x2 x3 x4 y5 xs0 xs1 xs2).1) j = y5 j := by
  unfold runB; dsimp only; sl_unfold_run_names
  refine (View.read_writes_cons_rows_of_not_mem arg6.view (harg6.unread y5) (k0_off1_inb i) _ [] j ho rfl hj).trans ?_
  exact congrFun (harg6.read_unread y5) j

end B

end Cert.Kernel.Hand

end
-- ==== Proof.BRunC.lean ====
/-
  The body at the last grid point, run on whole staging memrefs.

  The main part runs as at a middle point, then the finishing branch: from the completed sums it forms mean,
  variance, scale and shift, and overwrites the whole output buffer, which by now holds all of y, with
  max(y·scale + shift, 0).
-/
import proofs.«129174_g85255100825815_cont_sun_c4_478_8_alg».proof.Proof.BShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

set_option maxHeartbeats 1000000 in
/-- The last point's run: the inputs and the z scratch come back as they were; the output buffer, handed over at
    contents y5, comes back with the listed pieces written over them (the point's rows, then the whole buffer); the two
    sums' buffers come back with the listed pieces written. The pieces are found by the run. -/
noncomputable def runC (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (hc0 : ¬isFirst i) (hc1 : isLast i)
    (x0 : Vec F S400x10000 .f32) (x1 : Vec F S10000x128 .f32) (x2 : Vec F S128x128 .f32) (x3 : Vec F S1x128 .f32) (x4 : Vec F S1x128 .f32) (y5 : Vec F S10000x128 .f32)
    (xs0 : Vec F S10000x128 .f32) (xs1 : Vec F S1x128 .f32) (xs2 : Vec F S1x128 .f32) :
    Σ' (L5 : List (View.Piece (Elt F) S10000x128 .f32)), Σ' (LS1 : List (View.Piece (Elt F) S1x128 .f32)), { LS2 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ owns (c : Thread nD τ) arg7 fullShare xs0 ∗ owns (c : Thread nD τ) arg8 fullShare xs1 ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg6.view.loc (c : Thread nD τ) ↦[arg6.view.set]{fullShare} arg6.view.writes (Elt F) (harg6.unread y5) L5) ∗ owns (c : Thread nD τ) arg7 fullShare xs0 ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexact H5
    isplitl [HS0]
    · iexists _; isplitr; · ipureintro; exact harg7.read_unread _
      iexact HS0
    isplitl [HS1]; · iexists _; iexact HS1
    iexists _; iexact HS2

end Cert.Kernel.Hand

end
-- ==== Proof.BPiecesC.lean ====
/-
  What the last point's run leaves, read back: the two sums hold the block's column sums added to what they held;
  the output buffer holds the final payload of those sums, γ, β and the buffer as it stood once the point's block of y
  had been stored into its 400 rows.
-/
import proofs.«129174_g85255100825815_cont_sun_c4_478_8_alg».proof.Proof.BRunC
import proofs.«129174_g85255100825815_cont_sun_c4_478_8_alg».proof.Proof.BPiecesA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

section C
variable (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (hc0 : ¬isFirst i) (hc1 : isLast i)
    (x0 : Vec F S400x10000 .f32) (x1 : Vec F S10000x128 .f32) (x2 : Vec F S128x128 .f32) (x3 : Vec F S1x128 .f32) (x4 : Vec F S1x128 .f32) (y5 : Vec F S10000x128 .f32)
    (xs0 : Vec F S10000x128 .f32) (xs1 : Vec F S1x128 .f32) (xs2 : Vec F S1x128 .f32)

/-- The column sums after the last point. -/
theorem runC_s (f : arg8.view.ty.Contents (Elt F)) :
    arg8.view.read (Elt F) (arg8.view.writes (Elt F) f (runC c i arg1 harg1 arg2 harg2 arg3 harg3 arg4 harg4 arg5 harg5 arg6 harg6 arg7 harg7 arg8 harg8 arg9 harg9 hc0 hc1 x0 x1 x2 x3 x4 y5 xs0 xs1 xs2).2.1) = k0_pay5 x0 xs0 xs1 := by
  unfold runC; dsimp only; sl_unfold_run_names
  rw [read_whole_cons _ _ hz2]
  simp only [View.readAt_eq_ld, harg1.read_unread, harg7.read_unread, harg8.read_unread, View.ld_unit_zero (S := S400x10000) hz2, View.ld_unit_zero (S := S10000x128) hz2, View.ld_unit_zero (S := S1x128) hz2]

/-- The column sums of squares after the last point. -/
theorem runC_q (f : arg9.view.ty.Contents (Elt F)) :
    arg9.view.read (Elt F) (arg9.view.writes (Elt F) f (runC c i arg1 harg1 arg2 harg2 arg3 harg3 arg4 harg4 arg5 harg5 arg6 harg6 arg7 harg7 arg8 harg8 arg9 harg9 hc0 hc1 x0 x1 x2 x3 x4 y5 xs0 xs1 xs2).2.2.1) = k0_pay6 x0 xs0 xs2 := by
  unfold runC; dsimp only; sl_unfold_run_names
  rw [read_whole_cons _ _ hz2]
  simp only [View.readAt_eq_ld, harg1.read_unread, harg7.read_unread, harg9.read_unread, View.ld_unit_zero (S := S400x10000) hz2, View.ld_unit_zero (S := S10000x128) hz2, View.ld_unit_zero (S := S1x128) hz2]

/-- The output buffer after the last point: the final payload applied to the completed sums, γ, β and the buffer
    Ymid that agrees with the point's block of y inside the point's rows and with what the buffer held outside them. -/
theorem runC_out {o : ℕ} (ho : k0_off1 i = ![o, 0]) (Ymid : Vec F S10000x128 .f32)
    (hin : ∀ (j : S10000x128.Idx) (p : Fin 400) (q : Fin 128), (j 0).val = o + p.val → (j 1).val = q.val →
      Ymid j = k0_pay4 x0 xs0 (ValueIdx.ix2 p q))
    (hoff : ∀ j : S10000x128.Idx, ((j 0).val < o ∨ o + 400 ≤ (j 0).val) → Ymid j = y5 j) :
    arg6.view.read (Elt F) (arg6.view.writes (Elt F) (harg6.unread y5) (runC c i arg1 harg1 arg2 harg2 arg3 harg3 arg4 harg4 arg5 harg5 arg6 harg6 arg7 harg7 arg8 harg8 arg9 harg9 hc0 hc1 x0 x1 x2 x3 x4 y5 xs0 xs1 xs2).1)
      = k0_pay7 (k0_pay5 x0 xs0 xs1) (k0_pay6 x0 xs0 xs2) x3 x4 Ymid := by
  unfold runC; dsimp only; sl_unfold_run_names
  rw [read_whole_cons _ _ hz2]
  simp only [View.readAt_eq_ld, harg1.read_unread, harg4.read_unread, harg5.read_unread, harg7.read_unread, harg8.read_unread, harg9.read_unread,
    View.ld_unit_zero (S := S400x10000) hz2, View.ld_unit_zero (S := S10000x128) hz2, View.ld_unit_zero (S := S1x128) hz2,
    View.readCov_unit_zero (S := S1x128) _ hz2]
  refine congrArg (k0_pay7 (k0_pay5 x0 xs0 xs1) (k0_pay6 x0 xs0 xs2) x3 x4) (funext fun j => ?_)
  by_cases hj : (j 0).val < o ∨ o + 400 ≤ (j 0).val
  · -- a row outside the point's block keeps what the buffer held
    rw [hoff j hj]
    refine (View.read_writes_cons_rows_of_not_mem arg6.view (harg6.unread y5) (k0_off1_inb i) _ [] j ho rfl hj).trans ?_
    exact congrFun (harg6.read_unread y5) j
  · -- a row inside it reads the block of y at its place in the block
    have hlo : o ≤ (j 0).val := by omega
    have hhi : (j 0).val - o < 400 := by omega
    rw [hin j ⟨(j 0).val - o, hhi⟩ ⟨(j 1).val, (j 1).isLt⟩ (by show (j 0).val = o + ((j 0).val - o); omega) rfl]
    exact View.read_writes_cons_rows_of_mem arg6.view (harg6.unread y5) (k0_off1_inb i) _ [] j
      (ValueIdx.ix2 (⟨(j 0).val - o, hhi⟩ : Fin 400) (⟨(j 1).val, (j 1).isLt⟩ : Fin 128)) ho
      (by show (j 0).val = o + ((j 0).val - o); omega) rfl

end C

end Cert.Kernel.Hand

end
-- ==== Proof.BBody.lean ====
/-
  The body obligation: at every grid point the kernel's body, handed the region invariant and the six windows' staging
  buffers as the pipeline may hand them, runs to the invariant of the next point and buffers in the windows' relations.

  The point decides which of the three runs applies (first, middle, last). The inputs come back as they were. The
  scratch buffers go from the sums after the point before to the sums after this one (from anything, at the first point).
  The output buffer goes from "rows below done" to "rows up to here done", and at the last point to the final array.
-/
import proofs.«129174_g85255100825815_cont_sun_c4_478_8_alg».proof.Proof.BSteps
import proofs.«129174_g85255100825815_cont_sun_c4_478_8_alg».proof.Proof.BPiecesA
import proofs.«129174_g85255100825815_cont_sun_c4_478_8_alg».proof.Proof.BPiecesB
import proofs.«129174_g85255100825815_cont_sun_c4_478_8_alg».proof.Proof.BPiecesC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- What the body is called with at point t, the windows one by one: the inputs at their blocks, the output buffer at
    contents y5. -/
def bodyPre (c : Dev nD) (t : Fin cfg0.N) (y5 : Vec F S10000x128 .f32) : sProp 𝕄 :=
  iprop((rdat m c).Φ t.castSucc ∗ (rdat m c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ owns (c : Thread nD τ) (ms5 t) fullShare y5)

/-- and what it returns: each buffer at some contents in its window's relation to what was handed over. -/
def bodyPost (c : Dev nD) (t : Fin cfg0.N) (y5 : Vec F S10000x128 .f32) : sProp 𝕄 :=
  iprop((rdat m c).Φ t.succ ∗ (rdat m c).owesAt () t.succ
    ∗ (∃ X, ⌜(rdat m c).after 0 t (iblk m c 0 t) X⌝ ∗ owns (c : Thread nD τ) (ms0 t) fullShare X)
    ∗ (∃ X, ⌜(rdat m c).after 1 t (iblk m c 1 t) X⌝ ∗ owns (c : Thread nD τ) (ms1 t) fullShare X)
    ∗ (∃ X, ⌜(rdat m c).after 2 t (iblk m c 2 t) X⌝ ∗ owns (c : Thread nD τ) (ms2 t) fullShare X)
    ∗ (∃ X, ⌜(rdat m c).after 3 t (iblk m c 3 t) X⌝ ∗ owns (c : Thread nD τ) (ms3 t) fullShare X)
    ∗ (∃ X, ⌜(rdat m c).after 4 t (iblk m c 4 t) X⌝ ∗ owns (c : Thread nD τ) (ms4 t) fullShare X)
    ∗ (∃ X, ⌜(rdat m c).after 5 t y5 X⌝ ∗ owns (c : Thread nD τ) (ms5 t) fullShare X))

/-- The invariant before a point after the first: z and the sums after the point before. -/
theorem Phi_castSucc_succ (c : Dev nD) (n : ℕ) (htv : n + 1 < cfg0.N) :
    (rdat m c).Φ (⟨n + 1, htv⟩ : Fin cfg0.N).castSucc
      = iprop(iprop(owns (c : Thread nD τ) scZ fullShare (zArr m c) ∗ owns (c : Thread nD τ) scS fullShare (sArr m c n) ∗ owns (c : Thread nD τ) scQ fullShare (qArr m c n)) ∗ (∃ r, prngReg c r)) := rfl
set_option maxHeartbeats 4000000 in
/-- The first point. -/
theorem sound_first (c : Dev nD) (htv : 0 < cfg0.N) (y5 : Vec F S10000x128 .f32) :
    bodyPre m c ⟨0, htv⟩ y5 ⊢ wp frame (wpE (defs₀ (F := F)) Variants.none c none) Set.univ (bodyAt0 ⟨0, htv⟩) (fun _ => bodyPost m c ⟨0, htv⟩ y5) := by
  unfold bodyPre bodyPost bodyAt0
  rw [show (rdat m c).owesAt () (⟨0, htv⟩ : Fin cfg0.N).succ = (rdat m c).owesAt () (⟨0, htv⟩ : Fin cfg0.N).castSucc from rfl]
  rw [Phi_succ, PhiS_succ, Phi_castSucc, PhiS_zero m c _ _ rfl, PhiA_eq]
  have hc0 : isFirst (grid0.coords (⟨0, htv⟩ : Fin cfg0.N)) := (isFirst_iff ⟨0, htv⟩).mpr rfl
  have hc1 : ¬isLast (grid0.coords (⟨0, htv⟩ : Fin cfg0.N)) := fun h => absurd ((isLast_iff ⟨0, htv⟩).mp h) (by show ¬ (0 % 25 = 24); omega)
  iintro ⟨⟨⟨HS0, HS1, HS2⟩, Hg⟩, Ho, H0, H1, H2, H3, H4, H5⟩
  iapply ((runA c (grid0.coords ⟨0, htv⟩) (ms0 ⟨0, htv⟩) (hs0 ⟨0, htv⟩) (ms1 ⟨0, htv⟩) (hs1 ⟨0, htv⟩) (ms2 ⟨0, htv⟩) (hs2 ⟨0, htv⟩) (ms3 ⟨0, htv⟩) (hs3 ⟨0, htv⟩) (ms4 ⟨0, htv⟩) (hs4 ⟨0, htv⟩) (ms5 ⟨0, htv⟩) (hs5 ⟨0, htv⟩) scZ (Memref.isWhole_whole _) scS (Memref.isWhole_whole _) scQ (Memref.isWhole_whole _) hc0 hc1 (iblk m c 0 ⟨0, htv⟩) (iblk m c 1 ⟨0, htv⟩) (iblk m c 2 ⟨0, htv⟩) (iblk m c 3 ⟨0, htv⟩) (iblk m c 4 ⟨0, htv⟩) y5).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, ⟨%es0, HS0⟩, ⟨%es1, HS1⟩, ⟨%es2, HS2⟩⟩
  isplitl [HS0 HS1 HS2 Hg]
  · isplitl [HS0 HS1 HS2]
    · isplitl [HS0]
      · unfold owns; iexists _; isplitr; swap; · iexact HS0
        ipureintro; exact runA_z c _ (ms0 ⟨0, htv⟩) (hs0 ⟨0, htv⟩) (ms1 ⟨0, htv⟩) (hs1 ⟨0, htv⟩) (ms2 ⟨0, htv⟩) (hs2 ⟨0, htv⟩) (ms3 ⟨0, htv⟩) (hs3 ⟨0, htv⟩) (ms4 ⟨0, htv⟩) (hs4 ⟨0, htv⟩) (ms5 ⟨0, htv⟩) (hs5 ⟨0, htv⟩) scZ (Memref.isWhole_whole _) scS (Memref.isWhole_whole _) scQ (Memref.isWhole_whole _) hc0 hc1 _ _ _ _ _ _ es0
      isplitl [HS1]
      · unfold owns; iexists _; isplitr; swap; · iexact HS1
        ipureintro; exact (runA_s c _ (ms0 ⟨0, htv⟩) (hs0 ⟨0, htv⟩) (ms1 ⟨0, htv⟩) (hs1 ⟨0, htv⟩) (ms2 ⟨0, htv⟩) (hs2 ⟨0, htv⟩) (ms3 ⟨0, htv⟩) (hs3 ⟨0, htv⟩) (ms4 ⟨0, htv⟩) (hs4 ⟨0, htv⟩) (ms5 ⟨0, htv⟩) (hs5 ⟨0, htv⟩) scZ (Memref.isWhole_whole _) scS (Memref.isWhole_whole _) scQ (Memref.isWhole_whole _) hc0 hc1 _ _ _ _ _ _ es1).trans (sArr_zero m c).symm
      unfold owns; iexists _; isplitr; swap; · iexact HS2
      ipureintro; exact (runA_q c _ (ms0 ⟨0, htv⟩) (hs0 ⟨0, htv⟩) (ms1 ⟨0, htv⟩) (hs1 ⟨0, htv⟩) (ms2 ⟨0, htv⟩) (hs2 ⟨0, htv⟩) (ms3 ⟨0, htv⟩) (hs3 ⟨0, htv⟩) (ms4 ⟨0, htv⟩) (hs4 ⟨0, htv⟩) (ms5 ⟨0, htv⟩) (hs5 ⟨0, htv⟩) scZ (Memref.isWhole_whole _) scS (Memref.isWhole_whole _) scQ (Memref.isWhole_whole _) hc0 hc1 _ _ _ _ _ _ es2).trans (qArr_zero m c).symm
    iexact Hg
  isplitl [Ho]; · iexact Ho
  isplitl [H0]
  · iexists _; isplitr; swap; · iexact H0
    ipureintro; exact after_in m c 0 rfl ⟨0, htv⟩ _ _ (after0 m c ⟨0, htv⟩).symm
  isplitl [H1]
  · iexists _; isplitr; swap; · iexact H1
    ipureintro; exact after_in m c 1 rfl ⟨0, htv⟩ _ _ (after1 m c ⟨0, htv⟩).symm
  isplitl [H2]
  · iexists _; isplitr; swap; · iexact H2
    ipureintro; exact after_in m c 2 rfl ⟨0, htv⟩ _ _ (after2 m c ⟨0, htv⟩).symm
  isplitl [H3]
  · iexists _; isplitr; swap; · iexact H3
    ipureintro; exact after_in m c 3 rfl ⟨0, htv⟩ _ _ (after3 m c ⟨0, htv⟩).symm
  isplitl [H4]
  · iexists _; isplitr; swap; · iexact H4
    ipureintro; exact after_in m c 4 rfl ⟨0, htv⟩ _ _ (after4 m c ⟨0, htv⟩).symm
  iexists _; isplitr; swap
  · unfold owns; iexists _; isplitr; swap; · iexact H5
    ipureintro; rfl
  ipureintro
  rw [after_out]
  intro h5
  rw [if_neg (by show ¬ (0 = 24); omega)]
  refine rows_step m c ⟨0, htv⟩ y5 _ h5 (fun j p q hj0 hj1 => ?_) (fun j hj => ?_)
  · exact runA_out_in c _ (ms0 ⟨0, htv⟩) (hs0 ⟨0, htv⟩) (ms1 ⟨0, htv⟩) (hs1 ⟨0, htv⟩) (ms2 ⟨0, htv⟩) (hs2 ⟨0, htv⟩) (ms3 ⟨0, htv⟩) (hs3 ⟨0, htv⟩) (ms4 ⟨0, htv⟩) (hs4 ⟨0, htv⟩) (ms5 ⟨0, htv⟩) (hs5 ⟨0, htv⟩) scZ (Memref.isWhole_whole _) scS (Memref.isWhole_whole _) scQ (Memref.isWhole_whole _) hc0 hc1 _ _ _ _ _ _ (off_eq ⟨0, htv⟩) j p q hj0 hj1
  · exact runA_out_off c _ (ms0 ⟨0, htv⟩) (hs0 ⟨0, htv⟩) (ms1 ⟨0, htv⟩) (hs1 ⟨0, htv⟩) (ms2 ⟨0, htv⟩) (hs2 ⟨0, htv⟩) (ms3 ⟨0, htv⟩) (hs3 ⟨0, htv⟩) (ms4 ⟨0, htv⟩) (hs4 ⟨0, htv⟩) (ms5 ⟨0, htv⟩) (hs5 ⟨0, htv⟩) scZ (Memref.isWhole_whole _) scS (Memref.isWhole_whole _) scQ (Memref.isWhole_whole _) hc0 hc1 _ _ _ _ _ _ (off_eq ⟨0, htv⟩) j hj

set_option maxHeartbeats 4000000 in
/-- A middle point. -/
theorem sound_middle (c : Dev nD) (n : ℕ) (htv : n + 1 < cfg0.N) (hne : n + 1 ≠ 24) (y5 : Vec F S10000x128 .f32) :
    bodyPre m c ⟨n + 1, htv⟩ y5 ⊢ wp frame (wpE (defs₀ (F := F)) Variants.none c none) Set.univ (bodyAt0 ⟨n + 1, htv⟩) (fun _ => bodyPost m c ⟨n + 1, htv⟩ y5) := by
  unfold bodyPre bodyPost bodyAt0
  rw [show (rdat m c).owesAt () (⟨n + 1, htv⟩ : Fin cfg0.N).succ = (rdat m c).owesAt () (⟨n + 1, htv⟩ : Fin cfg0.N).castSucc from rfl]
  rw [Phi_succ, PhiS_succ, Phi_castSucc_succ]
  have hN : n + 1 < 25 := lt_of_lt_of_eq htv (show cfg0.N = 25 from N_0)
  have hc0 : ¬isFirst (grid0.coords (⟨n + 1, htv⟩ : Fin cfg0.N)) := fun h => absurd ((isFirst_iff ⟨n + 1, htv⟩).mp h) (by simp only; omega)
  have hc1 : ¬isLast (grid0.coords (⟨n + 1, htv⟩ : Fin cfg0.N)) := fun h => absurd ((isLast_iff ⟨n + 1, htv⟩).mp h) (by simp only; omega)
  iintro ⟨⟨⟨HS0, HS1, HS2⟩, Hg⟩, Ho, H0, H1, H2, H3, H4, H5⟩
  iapply ((runB c (grid0.coords ⟨n + 1, htv⟩) (ms0 ⟨n + 1, htv⟩) (hs0 ⟨n + 1, htv⟩) (ms1 ⟨n + 1, htv⟩) (hs1 ⟨n + 1, htv⟩) (ms2 ⟨n + 1, htv⟩) (hs2 ⟨n + 1, htv⟩) (ms3 ⟨n + 1, htv⟩) (hs3 ⟨n + 1, htv⟩) (ms4 ⟨n + 1, htv⟩) (hs4 ⟨n + 1, htv⟩) (ms5 ⟨n + 1, htv⟩) (hs5 ⟨n + 1, htv⟩) scZ (Memref.isWhole_whole _) scS (Memref.isWhole_whole _) scQ (Memref.isWhole_whole _) hc0 hc1 (iblk m c 0 ⟨n + 1, htv⟩) (iblk m c 1 ⟨n + 1, htv⟩) (iblk m c 2 ⟨n + 1, htv⟩) (iblk m c 3 ⟨n + 1, htv⟩) (iblk m c 4 ⟨n + 1, htv⟩) y5 (zArr m c) (sArr m c n) (qArr m c n)).2.2.2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, ⟨%es1, HS1⟩, ⟨%es2, HS2⟩⟩
  isplitl [HS0 HS1 HS2 Hg]
  · isplitl [HS0 HS1 HS2]
    · isplitl [HS0]; · iexact HS0
      isplitl [HS1]
      · unfold owns; iexists _; isplitr; swap; · iexact HS1
        ipureintro; exact (runB_s c _ (ms0 ⟨n + 1, htv⟩) (hs0 ⟨n + 1, htv⟩) (ms1 ⟨n + 1, htv⟩) (hs1 ⟨n + 1, htv⟩) (ms2 ⟨n + 1, htv⟩) (hs2 ⟨n + 1, htv⟩) (ms3 ⟨n + 1, htv⟩) (hs3 ⟨n + 1, htv⟩) (ms4 ⟨n + 1, htv⟩) (hs4 ⟨n + 1, htv⟩) (ms5 ⟨n + 1, htv⟩) (hs5 ⟨n + 1, htv⟩) scZ (Memref.isWhole_whole _) scS (Memref.isWhole_whole _) scQ (Memref.isWhole_whole _) hc0 hc1 _ _ _ _ _ _ _ _ _ es1).trans (sArr_succ m c n htv).symm
      unfold owns; iexists _; isplitr; swap; · iexact HS2
      ipureintro; exact (runB_q c _ (ms0 ⟨n + 1, htv⟩) (hs0 ⟨n + 1, htv⟩) (ms1 ⟨n + 1, htv⟩) (hs1 ⟨n + 1, htv⟩) (ms2 ⟨n + 1, htv⟩) (hs2 ⟨n + 1, htv⟩) (ms3 ⟨n + 1, htv⟩) (hs3 ⟨n + 1, htv⟩) (ms4 ⟨n + 1, htv⟩) (hs4 ⟨n + 1, htv⟩) (ms5 ⟨n + 1, htv⟩) (hs5 ⟨n + 1, htv⟩) scZ (Memref.isWhole_whole _) scS (Memref.isWhole_whole _) scQ (Memref.isWhole_whole _) hc0 hc1 _ _ _ _ _ _ _ _ _ es2).trans (qArr_succ m c n htv).symm
    iexact Hg
  isplitl [Ho]; · iexact Ho
  isplitl [H0]
  · iexists _; isplitr; swap; · iexact H0
    ipureintro; exact after_in m c 0 rfl ⟨n + 1, htv⟩ _ _ (after0 m c ⟨n + 1, htv⟩).symm
  isplitl [H1]
  · iexists _; isplitr; swap; · iexact H1
    ipureintro; exact after_in m c 1 rfl ⟨n + 1, htv⟩ _ _ (after1 m c ⟨n + 1, htv⟩).symm
  isplitl [H2]
  · iexists _; isplitr; swap; · iexact H2
    ipureintro; exact after_in m c 2 rfl ⟨n + 1, htv⟩ _ _ (after2 m c ⟨n + 1, htv⟩).symm
  isplitl [H3]
  · iexists _; isplitr; swap; · iexact H3
    ipureintro; exact after_in m c 3 rfl ⟨n + 1, htv⟩ _ _ (after3 m c ⟨n + 1, htv⟩).symm
  isplitl [H4]
  · iexists _; isplitr; swap; · iexact H4
    ipureintro; exact after_in m c 4 rfl ⟨n + 1, htv⟩ _ _ (after4 m c ⟨n + 1, htv⟩).symm
  iexists _; isplitr; swap
  · unfold owns; iexists _; isplitr; swap; · iexact H5
    ipureintro; rfl
  ipureintro
  rw [after_out]
  intro h5
  rw [if_neg hne]
  refine rows_step m c ⟨n + 1, htv⟩ y5 _ h5 (fun j p q hj0 hj1 => ?_) (fun j hj => ?_)
  · exact runB_out_in c _ (ms0 ⟨n + 1, htv⟩) (hs0 ⟨n + 1, htv⟩) (ms1 ⟨n + 1, htv⟩) (hs1 ⟨n + 1, htv⟩) (ms2 ⟨n + 1, htv⟩) (hs2 ⟨n + 1, htv⟩) (ms3 ⟨n + 1, htv⟩) (hs3 ⟨n + 1, htv⟩) (ms4 ⟨n + 1, htv⟩) (hs4 ⟨n + 1, htv⟩) (ms5 ⟨n + 1, htv⟩) (hs5 ⟨n + 1, htv⟩) scZ (Memref.isWhole_whole _) scS (Memref.isWhole_whole _) scQ (Memref.isWhole_whole _) hc0 hc1 _ _ _ _ _ _ _ _ _ (off_eq ⟨n + 1, htv⟩) j p q hj0 hj1
  · exact runB_out_off c _ (ms0 ⟨n + 1, htv⟩) (hs0 ⟨n + 1, htv⟩) (ms1 ⟨n + 1, htv⟩) (hs1 ⟨n + 1, htv⟩) (ms2 ⟨n + 1, htv⟩) (hs2 ⟨n + 1, htv⟩) (ms3 ⟨n + 1, htv⟩) (hs3 ⟨n + 1, htv⟩) (ms4 ⟨n + 1, htv⟩) (hs4 ⟨n + 1, htv⟩) (ms5 ⟨n + 1, htv⟩) (hs5 ⟨n + 1, htv⟩) scZ (Memref.isWhole_whole _) scS (Memref.isWhole_whole _) scQ (Memref.isWhole_whole _) hc0 hc1 _ _ _ _ _ _ _ _ _ (off_eq ⟨n + 1, htv⟩) j hj

set_option maxHeartbeats 4000000 in
/-- The last point, given through its number: the point n + 1 with n + 1 = 24. -/
theorem sound_last (c : Dev nD) (n : ℕ) (htv : n + 1 < cfg0.N) (h24 : n + 1 = 24) (y5 : Vec F S10000x128 .f32) :
    bodyPre m c ⟨n + 1, htv⟩ y5 ⊢ wp frame (wpE (defs₀ (F := F)) Variants.none c none) Set.univ (bodyAt0 ⟨n + 1, htv⟩) (fun _ => bodyPost m c ⟨n + 1, htv⟩ y5) := by
  unfold bodyPre bodyPost bodyAt0
  rw [show (rdat m c).owesAt () (⟨n + 1, htv⟩ : Fin cfg0.N).succ = (rdat m c).owesAt () (⟨n + 1, htv⟩ : Fin cfg0.N).castSucc from rfl]
  rw [Phi_succ, PhiS_succ, Phi_castSucc_succ]
  have hN : n + 1 < 25 := lt_of_lt_of_eq htv (show cfg0.N = 25 from N_0)
  have hc0 : ¬isFirst (grid0.coords (⟨n + 1, htv⟩ : Fin cfg0.N)) := fun h => absurd ((isFirst_iff ⟨n + 1, htv⟩).mp h) (by simp only; omega)
  have hc1 : isLast (grid0.coords (⟨n + 1, htv⟩ : Fin cfg0.N)) := (isLast_iff ⟨n + 1, htv⟩).mpr (show (n + 1) % 25 = 24 by omega)
  iintro ⟨⟨⟨HS0, HS1, HS2⟩, Hg⟩, Ho, H0, H1, H2, H3, H4, H5⟩
  iapply ((runC c (grid0.coords ⟨n + 1, htv⟩) (ms0 ⟨n + 1, htv⟩) (hs0 ⟨n + 1, htv⟩) (ms1 ⟨n + 1, htv⟩) (hs1 ⟨n + 1, htv⟩) (ms2 ⟨n + 1, htv⟩) (hs2 ⟨n + 1, htv⟩) (ms3 ⟨n + 1, htv⟩) (hs3 ⟨n + 1, htv⟩) (ms4 ⟨n + 1, htv⟩) (hs4 ⟨n + 1, htv⟩) (ms5 ⟨n + 1, htv⟩) (hs5 ⟨n + 1, htv⟩) scZ (Memref.isWhole_whole _) scS (Memref.isWhole_whole _) scQ (Memref.isWhole_whole _) hc0 hc1 (iblk m c 0 ⟨n + 1, htv⟩) (iblk m c 1 ⟨n + 1, htv⟩) (iblk m c 2 ⟨n + 1, htv⟩) (iblk m c 3 ⟨n + 1, htv⟩) (iblk m c 4 ⟨n + 1, htv⟩) y5 (zArr m c) (sArr m c n) (qArr m c n)).2.2.2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, ⟨%es1, HS1⟩, ⟨%es2, HS2⟩⟩
  isplitl [HS0 HS1 HS2 Hg]
  · isplitl [HS0 HS1 HS2]
    · isplitl [HS0]; · iexact HS0
      isplitl [HS1]
      · unfold owns; iexists _; isplitr; swap; · iexact HS1
        ipureintro; exact (runC_s c _ (ms0 ⟨n + 1, htv⟩) (hs0 ⟨n + 1, htv⟩) (ms1 ⟨n + 1, htv⟩) (hs1 ⟨n + 1, htv⟩) (ms2 ⟨n + 1, htv⟩) (hs2 ⟨n + 1, htv⟩) (ms3 ⟨n + 1, htv⟩) (hs3 ⟨n + 1, htv⟩) (ms4 ⟨n + 1, htv⟩) (hs4 ⟨n + 1, htv⟩) (ms5 ⟨n + 1, htv⟩) (hs5 ⟨n + 1, htv⟩) scZ (Memref.isWhole_whole _) scS (Memref.isWhole_whole _) scQ (Memref.isWhole_whole _) hc0 hc1 _ _ _ _ _ _ _ _ _ es1).trans (sArr_succ m c n htv).symm
      unfold owns; iexists _; isplitr; swap; · iexact HS2
      ipureintro; exact (runC_q c _ (ms0 ⟨n + 1, htv⟩) (hs0 ⟨n + 1, htv⟩) (ms1 ⟨n + 1, htv⟩) (hs1 ⟨n + 1, htv⟩) (ms2 ⟨n + 1, htv⟩) (hs2 ⟨n + 1, htv⟩) (ms3 ⟨n + 1, htv⟩) (hs3 ⟨n + 1, htv⟩) (ms4 ⟨n + 1, htv⟩) (hs4 ⟨n + 1, htv⟩) (ms5 ⟨n + 1, htv⟩) (hs5 ⟨n + 1, htv⟩) scZ (Memref.isWhole_whole _) scS (Memref.isWhole_whole _) scQ (Memref.isWhole_whole _) hc0 hc1 _ _ _ _ _ _ _ _ _ es2).trans (qArr_succ m c n htv).symm
    iexact Hg
  isplitl [Ho]; · iexact Ho
  isplitl [H0]
  · iexists _; isplitr; swap; · iexact H0
    ipureintro; exact after_in m c 0 rfl ⟨n + 1, htv⟩ _ _ (after0 m c ⟨n + 1, htv⟩).symm
  isplitl [H1]
  · iexists _; isplitr; swap; · iexact H1
    ipureintro; exact after_in m c 1 rfl ⟨n + 1, htv⟩ _ _ (after1 m c ⟨n + 1, htv⟩).symm
  isplitl [H2]
  · iexists _; isplitr; swap; · iexact H2
    ipureintro; exact after_in m c 2 rfl ⟨n + 1, htv⟩ _ _ (after2 m c ⟨n + 1, htv⟩).symm
  isplitl [H3]
  · iexists _; isplitr; swap; · iexact H3
    ipureintro; exact after_in m c 3 rfl ⟨n + 1, htv⟩ _ _ (after3 m c ⟨n + 1, htv⟩).symm
  isplitl [H4]
  · iexists _; isplitr; swap; · iexact H4
    ipureintro; exact after_in m c 4 rfl ⟨n + 1, htv⟩ _ _ (after4 m c ⟨n + 1, htv⟩).symm
  iexists _; isplitr; swap
  · unfold owns; iexists _; isplitr; swap; · iexact H5
    ipureintro; rfl
  ipureintro
  rw [after_out]
  intro h5
  rw [if_pos (show (⟨n + 1, htv⟩ : Fin cfg0.N).val = 24 from h24)]
  exact (runC_out c _ (ms0 ⟨n + 1, htv⟩) (hs0 ⟨n + 1, htv⟩) (ms1 ⟨n + 1, htv⟩) (hs1 ⟨n + 1, htv⟩) (ms2 ⟨n + 1, htv⟩) (hs2 ⟨n + 1, htv⟩) (ms3 ⟨n + 1, htv⟩) (hs3 ⟨n + 1, htv⟩) (ms4 ⟨n + 1, htv⟩) (hs4 ⟨n + 1, htv⟩) (ms5 ⟨n + 1, htv⟩) (hs5 ⟨n + 1, htv⟩) scZ (Memref.isWhole_whole _) scS (Memref.isWhole_whole _) scQ (Memref.isWhole_whole _) hc0 hc1 _ _ _ _ _ _ _ _ _ (off_eq ⟨n + 1, htv⟩) (yAll (adjAt m c) (zArr m c))
    (fun j p q hj0 hj1 => yAll_in m c ⟨n + 1, htv⟩ j p q hj0 hj1) (fun j hj => yAll_off m c ⟨n + 1, htv⟩ h24 y5 h5 j hj)).trans
    (outArr_at m c ⟨n + 1, htv⟩ n rfl h24).symm

/-- The body at any point. -/
theorem sound_body (c : Dev nD) (t : Fin cfg0.N) (y5 : Vec F S10000x128 .f32) :
    bodyPre m c t y5 ⊢ wp frame (wpE (defs₀ (F := F)) Variants.none c none) Set.univ (bodyAt0 t) (fun _ => bodyPost m c t y5) := by
  obtain ⟨tv, htv⟩ := t
  have hN : tv < 25 := lt_of_lt_of_eq htv (show cfg0.N = 25 from N_0)
  cases tv with
  | zero => exact sound_first m c htv y5
  | succ n =>
    by_cases h : n + 1 = 24
    · exact sound_last m c n htv h y5
    · exact sound_middle m c n htv h y5

/-- The library's body obligation, at every point: the inputs are found at their blocks, and the windows are conjoined
    one by one. -/
theorem body_obligation (c : Dev nD) : (rdat m c).BodyObligation (defs₀ (F := F)) Variants.none () Set.univ := fun t Y hY => by
  rw [bigSep_W0, bigSep_W0]
  obtain ⟨d0, e0⟩ := finds_in m c 0 rfl t (Y 0) (hY 0)
  obtain ⟨d1, e1⟩ := finds_in m c 1 rfl t (Y 1) (hY 1)
  obtain ⟨d2, e2⟩ := finds_in m c 2 rfl t (Y 2) (hY 2)
  obtain ⟨d3, e3⟩ := finds_in m c 3 rfl t (Y 3) (hY 3)
  obtain ⟨d4, e4⟩ := finds_in m c 4 rfl t (Y 4) (hY 4)
  rw [before0] at e0; rw [before1] at e1; rw [before2] at e2; rw [before3] at e3; rw [before4] at e4
  rw [e0, e1, e2, e3, e4]
  exact sound_body m c t (Y 5)

end Cert.Kernel.Hand

end
-- ==== Proof.BFinal.lean ====
/-
  The write-back of the output window at the last point covers the whole result array: afterwards the array holds,
  index by index, what the body left in the staging buffer.
-/
import proofs.«129174_g85255100825815_cont_sun_c4_478_8_alg».proof.Proof.BData
import Idealize.ShloMosaic.Lib.Pipeline.Value
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

open Idealize.ShloMosaic.ValueIdx

/-- The result array after the last point's write-back, read at an index: the staging buffer's contents there,
    whatever the array held before. -/
theorem writeback_apply (c : Dev nD) (G₀ : Buf (Elt F) ((cfg0.win 5).arr.view.loc (c.tc : Thread nD τ)))
    (X : (cfg0.win 5).block.Idx → Elt F (cfg0.win 5).elt) (j : S10000x128.Idx) :
    ((((cfg0.win 5).blk tL).view.write (Elt F) G₀ ((cfg0.win 5).cut (cfg0.grid.coords tL) X) Finset.univ
        : Buf (Elt F) ((cfg0.win 5).arr.view.loc (c.tc : Thread nD τ))) : Vec F S10000x128 .f32) j
      = (X : Vec F S10000x128 .f32) j := by
  -- the block is the whole array at offset zero: an array index is its own block coordinate
  have hi0 : win0_5.index tL (0 : Fin 2) = 0 := rfl
  have hi1 : win0_5.index tL (1 : Fin 2) = 0 := rfl
  have hemb : ((cfg0.win 5).blk tL).view.emb (j : ((cfg0.win 5).xblock (cfg0.grid.coords tL)).Idx) = j := by
    funext a
    apply Fin.ext
    match a with
    | ⟨0, _⟩ =>
      show win0_5.index tL (0 : Fin 2) * 10000 + 1 * (j 0).val = (j 0).val
      rw [hi0]; omega
    | ⟨1, _⟩ =>
      show win0_5.index tL (1 : Fin 2) * 128 + 1 * (j 1).val = (j 1).val
      rw [hi1]; omega
  have h := View.write_emb_of_mem (v := ((cfg0.win 5).blk tL).view) (Val := Elt F) G₀
    ((cfg0.win 5).cut (cfg0.grid.coords tL) X) (Finset.mem_univ (j : ((cfg0.win 5).xblock (cfg0.grid.coords tL)).Idx))
  rw [hemb] at h
  exact h.trans (cast_eq _ _)

/-- The output window's array is the result buffer. -/
theorem arr5_loc (c : Dev nD) : (cfg0.win 5).arr.view.loc (c.tc : Thread nD τ) = (c.tc : Thread nD τ).loc main_v0 := rfl

end Cert.Kernel.Hand

end
-- ==== Proof.BLaunch.lean ====
/-
  The launch: from the body obligation, every weakly fair execution of @main terminates; the argument arrays end
  unchanged, and the result array ends at the kernel's value function of the input blocks.

  The output window is written back once, at the last point: until then the result array holds its entry contents,
  and the one write-back overwrites all of it with what the last point left in the staging buffer.
-/
import proofs.«129174_g85255100825815_cont_sun_c4_478_8_alg».proof.Proof.BBody
import proofs.«129174_g85255100825815_cont_sun_c4_478_8_alg».proof.Proof.BFinal

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- What the launch hands the region (every scratch at anything) is the invariant before the first point. -/
theorem hin (c : Dev nD) : Pipeline.ΦA spec0 c ⊢ (rdat m c).Φ 0 := by
  rw [show (rdat m c).Φ 0 = PhiS m c 0 (Nat.zero_le _) from rfl, PhiS_zero m c 0 _ rfl]

/-- After the last point the invariant gives it back: the scratch buffers' named contents are forgotten. -/
theorem hout (c : Dev nD) : (rdat m c).Φ (Fin.last cfg0.N) ⊢ Pipeline.ΦA spec0 c := by
  rw [show (rdat m c).Φ (Fin.last cfg0.N) = PhiS m c (Fin.last cfg0.N).val (Nat.le_of_lt_succ (Fin.last cfg0.N).isLt) from rfl,
    PhiS_pos m c _ _ (by rw [Fin.val_last]; have : cfg0.N = 25 := N_0; omega), PhiA_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

set_option backward.isDefEq.respectTransparency.types false in
/-- Every weakly fair execution of @main terminates, each windowed array at some contents the relations allow after
    every write-back, every other unscoped buffer as the region found it. -/
theorem run_main : θ_run defs (onTc (τ := τ) (main (F := F))) (s₀ m ρ) (Pipeline.RDat.FramePost (cfgs 0) (fun c => rdat m c) (V m)) :=
  Pipeline.RDat.θ_run_frame_track cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := A_eq m) (hin := hin m) (hout := hout m)

/-- No write-back touches the result array before the last point. -/
theorem arrAt5 (c : Dev nD) : ∀ n : ℕ, n ≤ 24 → (rdat m c).ArrAt 5 n = fun G => G = (rdat m c).A 5
  | 0, _ => rfl
  | n + 1, h => by
    have hn : n < cfg0.N := by have : cfg0.N = 25 := N_0; omega
    have e := (rdat m c).ArrAt_succ 5 ⟨n, hn⟩
    rw [if_neg (fun hf => by have := (flush0_5 ⟨n, hn⟩).mp hf; simp only at this; omega)] at e
    exact e.trans (arrAt5 c n (by omega))

/-- After the run the result array holds, index by index, the final array. -/
theorem out_of_post (c : Dev nD) (G : Buf (Elt F) ((cfg0.win 5).arr.view.loc (c.tc : Thread nD τ)))
    (h : (rdat m c).ArrAt 5 cfg0.N G) (j : S10000x128.Idx) : (G : Vec F S10000x128 .f32) j = outArr m c j := by
  have h25 : (rdat m c).ArrAt 5 (tL.val + 1) G := h
  rw [(rdat m c).ArrAt_succ 5 tL, if_pos ((flush0_5 tL).mpr rfl), arrAt5 m c 24 le_rfl] at h25
  obtain ⟨G₀, X, -, hX, rfl⟩ := h25
  rw [writeback_apply c G₀ X j, leaves_out m c X hX]

/-- THE RUN: every weakly fair execution of @main terminates with the result array at the final array, index by
    index, and the five arguments unchanged. -/
theorem run_value : θ_run defs (onTc (τ := τ) (main (F := F))) ⟨m, fun _ => 0, ρ⟩ (fun r => ∀ c : Dev nD,
      (∀ j : S10000x128.Idx, (r.2.mem ((c.tc : Thread nD τ).loc main_v0) : Vec F S10000x128 .f32) j = outArr m c j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨fun j => out_of_post m c _ ((h c).1 5) j,
      (Pipeline.RDat.FramePost.arr_in h c 0 rfl).trans ((A_eq m c 0).trans (V_main_arg0 m c)),
      (Pipeline.RDat.FramePost.arr_in h c 1 rfl).trans ((A_eq m c 1).trans (V_main_arg1 m c)),
      (Pipeline.RDat.FramePost.arr_in h c 2 rfl).trans ((A_eq m c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

/-- THE FRAME: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_value m ρ)

end Cert.Kernel.Hand

end
-- ==== Proof.KFun.lean ====
/-
  What the kernel computes, as pure functions of its input blocks (at any float semantics).

  The body's arithmetic is the seven payload terms of the kernel's skeleton: z (the product x·W), the zero rows,
  a block of y (an adjacency block times z), the running column sum and column sum of squares after one more
  block, and the final normalisation of the whole output. Here they are composed over the 25 grid points: the
  running sums by recursion on the point, all of y as one array (row r comes from block r / 400, row r % 400
  within it), and the result as the final payload applied to the sums after the last point and to all of y.
-/
import proofs.«129174_g85255100825815_cont_sun_c4_478_8_alg».proof.Proof.Gen.KernelIdeal.Skeleton
import Idealize.ShloMosaic.Lib.ValueIdx

noncomputable section

namespace Cert.KernelIdeal.Hand

open Idealize.ShloMosaic Idealize.ShloMosaic.ValueIdx Cert.KernelIdeal Cert.KernelIdeal.Gen

variable {F : FTy → Type} [FloatOps F]

/-- The column sums after point n: from zero at the first point, one block's column sums added per point. -/
def sAt (A : ℕ → Vec F S400x10000 .f32) (z : Vec F S10000x128 .f32) : ℕ → Vec F S1x128 .f32
  | 0 => k0_pay5 (A 0) z (k0_pay2 (F := F))
  | n + 1 => k0_pay5 (A (n + 1)) z (sAt A z n)

/-- The column sums of squares after point n. -/
def ssAt (A : ℕ → Vec F S400x10000 .f32) (z : Vec F S10000x128 .f32) : ℕ → Vec F S1x128 .f32
  | 0 => k0_pay6 (A 0) z (k0_pay3 (F := F))
  | n + 1 => k0_pay6 (A (n + 1)) z (ssAt A z n)

/-- All of y: row r is row r % 400 of the block computed at point r / 400. -/
def yAll (A : ℕ → Vec F S400x10000 .f32) (z : Vec F S10000x128 .f32) : Vec F S10000x128 .f32 :=
  fun i => k0_pay4 (A ((i 0).val / 400)) z (ix2 ⟨(i 0).val % 400, Nat.mod_lt _ (by decide)⟩ (i 1))

/-- The output array the kernel leaves: the final payload of the sums after the last point, γ, β and all of y. -/
def finalOut (A : ℕ → Vec F S400x10000 .f32) (x : Vec F S10000x128 .f32) (w : Vec F S128x128 .f32)
    (g b : Vec F S1x128 .f32) : Vec F S10000x128 .f32 :=
  k0_pay7 (sAt A (k0_pay1 x w) 24) (ssAt A (k0_pay1 x w) 24) g b (yAll A (k0_pay1 x w))

end Cert.KernelIdeal.Hand

end
-- ==== Proof.KShared.lean ====
/-
  The grid's two branch conditions in closed form, the staging memrefs as the pipeline passes them at a point,
  the three scratch buffers as memrefs, and the region's class invariant spelt over them.
-/
import proofs.«129174_g85255100825815_cont_sun_c4_478_8_alg».proof.Proof.Gen.KernelIdeal.Frame
import proofs.«129174_g85255100825815_cont_sun_c4_478_8_alg».proof.Proof.KFun

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

/-- The first branch of the body is taken: the grid coordinate is 0. -/
abbrev isFirst (i : grid0.Coords) : Prop :=
  (Scalar.cmpi .ne (Scalar.extui (Scalar.cmpi .eq (BitVec.ofNat 32 (i 0).val) 0#32)) 0#32) = 1#1
/-- That is the first of the 25 points. -/
theorem isFirst_iff : ∀ t : Fin cfg0.N, isFirst (grid0.coords t) ↔ t.val % 25 = 0 :=
  (by decide +kernel : ∀ t : Fin grid0.N, isFirst (grid0.coords t) ↔ t.val % 25 = 0)

/-- The last branch of the body is taken: the grid coordinate is 24. -/
abbrev isLast (i : grid0.Coords) : Prop :=
  (Scalar.cmpi .ne (Scalar.extui (Scalar.cmpi .eq (BitVec.ofNat 32 (i 0).val) 24#32)) 0#32) = 1#1
/-- That is the last of the 25 points. -/
theorem isLast_iff : ∀ t : Fin cfg0.N, isLast (grid0.coords t) ↔ t.val % 25 = 24 :=
  (by decide +kernel : ∀ t : Fin grid0.N, isLast (grid0.coords t) ↔ t.val % 25 = 24)

/-- The rows a point stores its block of y into start at 400 times the point. -/
theorem off_eq : ∀ t : Fin cfg0.N, k0_off1 (grid0.coords t) = ![400 * t.val, 0] :=
  (by decide +kernel : ∀ t : Fin grid0.N, k0_off1 (grid0.coords t) = ![400 * t.val, 0])

/-- Each window's current staging memref at point t, as the pipeline passes it to the body, and its wholeness. -/
abbrev ms0 (t : Fin cfg0.N) : Memref sig .tc .vmem S400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S10000x128 .f32 := win0_5.stage (cfg0.slots t 5)
abbrev hs5 (t : Fin cfg0.N) : (ms5 t).IsWhole := hstage0_5 ((cfg0.slots t 5).cast nbuf0_5)

/-- The scratch operands: z, the column sums, the column sums of squares. -/
abbrev scZ : Memref sig .tc .vmem S10000x128 .f32 := Memref.whole cc0_scratch0
abbrev scS : Memref sig .tc .vmem S1x128 .f32 := Memref.whole cc0_scratch1
abbrev scQ : Memref sig .tc .vmem S1x128 .f32 := Memref.whole cc0_scratch2

/-- The region's class invariant: each scratch buffer owned at some contents, and the generator register at some state. -/
theorem PhiA_eq (c : Dev nD) :
    (Pipeline.ΦA spec0 c : sProp 𝕄)
      = iprop(iprop((∃ d, owns (c : Thread nD τ) scZ fullShare d) ∗ (∃ d, owns (c : Thread nD τ) scS fullShare d) ∗ (∃ d, owns (c : Thread nD τ) scQ fullShare d)) ∗ (∃ r, prngReg c r)) := by
  unfold Pipeline.ΦA; rw [scopedRest0_eq]; simp only [scZ, scS, scQ, owns_whole]; try rfl

end Cert.KernelIdeal.Hand

end
-- ==== Proof.KData.lean ====
/-
  The arrays the proof speaks of, as the region finds them, and what the kernel makes of them point by point.

  Each input window's block at a point is named at its literal vector type. From the blocks: z (computed once, at
  the first point, from x and W), the block of y a point computes, the column sums and column sums of squares
  after each point, and the array the last point leaves in the output buffer.
-/
import proofs.«129174_g85255100825815_cont_sun_c4_478_8_alg».proof.Proof.KShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The adjacency block (400 rows, all 10000 columns) of point t. -/
abbrev adjB (c : Dev nD) (t : Fin cfg0.N) : Vec F S400x10000 .f32 := iblk m c 0 t
/-- x, W, γ and β as the body finds them at point t (their index maps are constant: the same arrays at every point). -/
abbrev xB (c : Dev nD) (t : Fin cfg0.N) : Vec F S10000x128 .f32 := iblk m c 1 t
abbrev wB (c : Dev nD) (t : Fin cfg0.N) : Vec F S128x128 .f32 := iblk m c 2 t
abbrev gB (c : Dev nD) (t : Fin cfg0.N) : Vec F S1x128 .f32 := iblk m c 3 t
abbrev bB (c : Dev nD) (t : Fin cfg0.N) : Vec F S1x128 .f32 := iblk m c 4 t

/-- The first and the last point. -/
abbrev t0 : Fin cfg0.N := ⟨0, by decide⟩
abbrev tL : Fin cfg0.N := ⟨24, by decide⟩

/-- The adjacency blocks by point number. -/
def adjAt (c : Dev nD) (n : ℕ) : Vec F S400x10000 .f32 := if h : n < cfg0.N then adjB m c ⟨n, h⟩ else adjB m c t0
/-- z = x·W, as the first point computes it. -/
def zArr (c : Dev nD) : Vec F S10000x128 .f32 := k0_pay1 (xB m c t0) (wB m c t0)
/-- The block of y point t computes: its adjacency block times z. -/
def yBlk (c : Dev nD) (t : Fin cfg0.N) : Vec F S400x128 .f32 := k0_pay4 (adjB m c t) (zArr m c)
/-- The column sums and the column sums of squares after point n. -/
def sArr (c : Dev nD) (n : ℕ) : Vec F S1x128 .f32 := sAt (adjAt m c) (zArr m c) n
def qArr (c : Dev nD) (n : ℕ) : Vec F S1x128 .f32 := ssAt (adjAt m c) (zArr m c) n
/-- What the last point leaves in the output buffer. -/
def outArr (c : Dev nD) : Vec F S10000x128 .f32 :=
  k0_pay7 (sArr m c 24) (qArr m c 24) (gB m c tL) (bB m c tL) (yAll (adjAt m c) (zArr m c))

/-- It is the kernel's value function of the blocks. -/
theorem outArr_eq (c : Dev nD) :
    outArr m c = finalOut (adjAt m c) (xB m c t0) (wB m c t0) (gB m c tL) (bB m c tL) := rfl

theorem adjAt_of_lt (c : Dev nD) (t : Fin cfg0.N) : adjAt m c t.val = adjB m c t := by
  unfold adjAt; rw [dif_pos t.isLt]

theorem sArr_zero (c : Dev nD) : sArr m c 0 = k0_pay5 (adjB m c t0) (zArr m c) (k0_pay2 (F := F)) := by
  unfold sArr; rw [sAt, ← adjAt_of_lt m c t0]
theorem sArr_succ (c : Dev nD) (n : ℕ) (h : n + 1 < cfg0.N) :
    sArr m c (n + 1) = k0_pay5 (adjB m c ⟨n + 1, h⟩) (zArr m c) (sArr m c n) := by
  unfold sArr; rw [sAt, ← adjAt_of_lt m c ⟨n + 1, h⟩]
theorem qArr_zero (c : Dev nD) : qArr m c 0 = k0_pay6 (adjB m c t0) (zArr m c) (k0_pay3 (F := F)) := by
  unfold qArr; rw [ssAt, ← adjAt_of_lt m c t0]
theorem qArr_succ (c : Dev nD) (n : ℕ) (h : n + 1 < cfg0.N) :
    qArr m c (n + 1) = k0_pay6 (adjB m c ⟨n + 1, h⟩) (zArr m c) (qArr m c n) := by
  unfold qArr; rw [ssAt, ← adjAt_of_lt m c ⟨n + 1, h⟩]

end Cert.KernelIdeal.Hand

end
-- ==== Proof.KProofData.lean ====
/-
  The pipeline's proof data.

  The five input windows are named exactly (each holds its block at every point). The output window's staging
  buffer is carried across the 25 points without a write-back until the last, and each point overwrites only its own
  400 rows, so what it holds is CONSTRAINED, not named: if the rows of the points before hold their blocks of y, then
  after the point so do the rows up to and including its own; and after the last point the buffer holds the final
  array. The three scratch buffers are tracked by the region invariant: after point n they hold z and the sums after n.
-/
import proofs.«129174_g85255100825815_cont_sun_c4_478_8_alg».proof.Proof.KData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-! ## The scratch buffers, point by point -/

/-- The region invariant before point n: at the first point the class's (every scratch at anything); afterwards z and
    the two sums after the point before, and the generator register at some state. -/
def PhiS (c : Dev nD) : (n : ℕ) → n ≤ cfg0.N → sProp 𝕄
  | 0, _ => Pipeline.ΦA spec0 c
  | n + 1, _ => iprop(iprop(owns (c : Thread nD τ) scZ fullShare (zArr m c) ∗ owns (c : Thread nD τ) scS fullShare (sArr m c n) ∗ owns (c : Thread nD τ) scQ fullShare (qArr m c n)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n + 1 ≤ cfg0.N) :
    PhiS m c (n + 1) hn = iprop(iprop(owns (c : Thread nD τ) scZ fullShare (zArr m c) ∗ owns (c : Thread nD τ) scS fullShare (sArr m c n) ∗ owns (c : Thread nD τ) scQ fullShare (qArr m c n)) ∗ (∃ r, prngReg c r)) := rfl

theorem PhiS_pos (c : Dev nD) (n : ℕ) (h : n ≤ cfg0.N) (hz : n ≠ 0) :
    PhiS m c n h = iprop(iprop(owns (c : Thread nD τ) scZ fullShare (zArr m c) ∗ owns (c : Thread nD τ) scS fullShare (sArr m c (n - 1)) ∗ owns (c : Thread nD τ) scQ fullShare (qArr m c (n - 1))) ∗ (∃ r, prngReg c r)) := by
  cases n with
  | zero => exact absurd rfl hz
  | succ n => rfl

/-! ## The output buffer, point by point -/

/-- The rows of the points below n hold their blocks of y. -/
def RowsDone (c : Dev nD) (n : ℕ) (X : Vec F S10000x128 .f32) : Prop :=
  ∀ t : Fin cfg0.N, t.val < n → ∀ (j : S10000x128.Idx) (p : Fin 400) (q : Fin 128),
    (j 0).val = 400 * t.val + p.val → (j 1).val = q.val → X j = yBlk m c t (ix2 p q)

/-- What point t makes of the output buffer: handed a buffer whose rows below its own are done, it leaves one whose
    rows up to and including its own are done — and the last point leaves the final array. -/
def R5 (c : Dev nD) (t : Fin cfg0.N) (Y X : Vec F S10000x128 .f32) : Prop :=
  RowsDone m c t.val Y → if t.val = 24 then X = outArr m c else RowsDone m c (t.val + 1) X

/-! ## The data -/

/-- Exact data for the inputs (each window's buffer holds its block after the body as before it); the output's entry
    here is a placeholder the relation below replaces. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ t := PhiS m c t.val (Nat.le_of_lt_succ t.isLt)
  q _ := fullShare
  owed _ := 0

/-- The output window's relation; the inputs keep the exact data's. -/
def ovr (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => none
  | ⟨3, _⟩ => none
  | ⟨4, _⟩ => none
  | ⟨5, _⟩ => some (R5 m c)

/-- The relational data: the exact data read relationally, the output window constrained by `R5`. -/
def rdat (c : Dev nD) : RDat τ (Elt F) Unit ℕ (UR sig nD τ) ℕ cfg0 c := (dat m c).toR.override (ovr m c)

theorem A_eq (c : Dev nD) (w : Fin cfg0.W) : (rdat m c).A w = V m c (Pipeline.arrRef spec0 w) := by
  show (dat m c).A w = _; dsimp only [dat]

theorem datA_eq (c : Dev nD) (w : Fin cfg0.W) : (dat m c).A w = V m c (Pipeline.arrRef spec0 w) := by
  dsimp only [dat]

theorem Phi_castSucc (c : Dev nD) (t : Fin cfg0.N) :
    (rdat m c).Φ t.castSucc = PhiS m c t.val (Nat.le_of_lt t.isLt) := by
  show (dat m c).Φ t.castSucc = _; dsimp only [dat]; simp only [Fin.coe_castSucc]

theorem Phi_succ (c : Dev nD) (t : Fin cfg0.N) :
    (rdat m c).Φ t.succ = PhiS m c (t.val + 1) t.isLt := rfl

theorem after0 (c : Dev nD) (t : Fin cfg0.N) : (dat m c).after 0 t = iblk m c 0 t := by dsimp only [dat]
theorem after1 (c : Dev nD) (t : Fin cfg0.N) : (dat m c).after 1 t = iblk m c 1 t := by dsimp only [dat]
theorem after2 (c : Dev nD) (t : Fin cfg0.N) : (dat m c).after 2 t = iblk m c 2 t := by dsimp only [dat]
theorem after3 (c : Dev nD) (t : Fin cfg0.N) : (dat m c).after 3 t = iblk m c 3 t := by dsimp only [dat]
theorem after4 (c : Dev nD) (t : Fin cfg0.N) : (dat m c).after 4 t = iblk m c 4 t := by dsimp only [dat]

/-- Each input's current staging buffer holds its block at every point, fetched there or not. -/
theorem before0 (c : Dev nD) (t : Fin cfg0.N) (d) : (dat m c).before 0 t d = iblk m c 0 t :=
  before0_0_of m (dat m c) (datA_eq m c 0) (after0 m c) t d
theorem before1 (c : Dev nD) (t : Fin cfg0.N) (d) : (dat m c).before 1 t d = iblk m c 1 t :=
  before0_1_of m (dat m c) (datA_eq m c 1) (after1 m c) t d
theorem before2 (c : Dev nD) (t : Fin cfg0.N) (d) : (dat m c).before 2 t d = iblk m c 2 t :=
  before0_2_of m (dat m c) (datA_eq m c 2) (after2 m c) t d
theorem before3 (c : Dev nD) (t : Fin cfg0.N) (d) : (dat m c).before 3 t d = iblk m c 3 t :=
  before0_3_of m (dat m c) (datA_eq m c 3) (after3 m c) t d
theorem before4 (c : Dev nD) (t : Fin cfg0.N) (d) : (dat m c).before 4 t d = iblk m c 4 t :=
  before0_4_of m (dat m c) (datA_eq m c 4) (after4 m c) t d

/-! ## What the body finds and must leave, window by window -/

/-- An input window's buffer, as the body finds it: its block. -/
theorem finds_in (c : Dev nD) (w : Fin cfg0.W) (hw : ovr (F := F) m c w = none) (t : Fin cfg0.N) (Y) (h : (rdat m c).Finds w t Y) :
    ∃ d, Y = (dat m c).before w t d :=
  (dat m c).toR_finds w t Y (((dat m c).toR.override_finds hw t Y).mp h)

/-- What the relation asks of an input window's buffer after the body: that it hold its block. -/
theorem after_in (c : Dev nD) (w : Fin cfg0.W) (hw : ovr (F := F) m c w = none) (t : Fin cfg0.N) (Y X) (h : X = (dat m c).after w t) :
    (rdat m c).after w t Y X := by
  show ((dat m c).toR.override (ovr m c)).after w t Y X
  rw [(dat m c).toR.override_after_of_eq_none hw]
  show (dat m c).Leaves w t X
  exact (Dat.Leaves.live_iff (dat m c) (.inl rfl)).mpr h

/-- The output window's relation is `R5`. -/
theorem after_out (c : Dev nD) : (rdat m c).after 5 = R5 m c :=
  (dat m c).toR.override_after_of_eq_some rfl

/-- The output window is never fetched, -/
theorem fetch5 : ∀ t : Fin cfg0.N, (cfg0.win 5).fetch t = false :=
  (by decide +kernel : ∀ t : Fin grid0.N, win0_5.fetch t = false)

/-- and the body finds, at point t, a buffer whose rows below the point's own are done. -/
theorem finds_out (c : Dev nD) : ∀ (n : ℕ) (t : Fin cfg0.N), t.val = n → ∀ Y, (rdat m c).Finds 5 t Y → RowsDone m c t.val Y := by
  intro n
  induction n with
  | zero =>
    intro t ht Y _ t' ht'
    omega
  | succ n ih =>
    intro t ht Y hY
    have hN : t.val < 25 := lt_of_lt_of_eq t.isLt (show cfg0.N = 25 from N_0)
    rcases ((rdat m c).finds_of_pos (fetch5 t) (by omega) Y).mp hY with hfl | ⟨Y', hY', hR⟩
    · exfalso
      have := (flush0_5 ⟨t.val - 1, Nat.lt_of_le_of_lt (Nat.sub_le _ _) t.isLt⟩).mp hfl
      simp only at this; omega
    · have hprev := ih ⟨t.val - 1, Nat.lt_of_le_of_lt (Nat.sub_le _ _) t.isLt⟩ (by simp only; omega) Y' hY'
      rw [after_out] at hR
      have h1 := hR hprev
      simp only at h1
      rw [if_neg (by omega)] at h1
      have e : t.val - 1 + 1 = t.val := by omega
      rw [e] at h1
      exact h1

/-- After the last point the buffer holds the final array. -/
theorem leaves_out (c : Dev nD) (X) (h : (rdat m c).Leaves 5 tL X) : X = outArr m c := by
  obtain ⟨Y, hY, hR⟩ := h
  rw [after_out] at hR
  have h1 := hR (finds_out m c 24 tL rfl Y hY)
  rw [if_pos rfl] at h1
  exact h1

end Cert.KernelIdeal.Hand

end
-- ==== Proof.KSteps.lean ====
/-
  The pure steps behind the output buffer's relation: storing a point's block of y into its rows extends the rows that
  are done by that point's; and a buffer all of whose rows are done is all of y.
-/
import proofs.«129174_g85255100825815_cont_sun_c4_478_8_alg».proof.Proof.KProofData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- A buffer that holds point t's block of y in the point's rows and agrees elsewhere with one whose rows below are done
    has its rows done up to and including the point's. -/
theorem rows_step (c : Dev nD) (t : Fin cfg0.N) (y5 X : Vec F S10000x128 .f32) (h5 : RowsDone m c t.val y5)
    (hin : ∀ (j : S10000x128.Idx) (p : Fin 400) (q : Fin 128), (j 0).val = 400 * t.val + p.val → (j 1).val = q.val →
      X j = k0_pay4 (adjB m c t) (zArr m c) (ix2 p q))
    (hoff : ∀ j : S10000x128.Idx, ((j 0).val < 400 * t.val ∨ 400 * t.val + 400 ≤ (j 0).val) → X j = y5 j) :
    RowsDone m c (t.val + 1) X := by
  intro t' ht' j p q hj0 hj1
  by_cases h : t'.val = t.val
  · obtain rfl : t' = t := Fin.ext h
    exact hin j p q hj0 hj1
  · have hlt : t'.val < t.val := by omega
    rw [hoff j (Or.inl (by have := p.isLt; omega))]
    exact h5 t' hlt j p q hj0 hj1

/-- All of y, in the rows of point t: that point's block. -/
theorem yAll_in (c : Dev nD) (t : Fin cfg0.N) (j : S10000x128.Idx) (p : Fin 400) (q : Fin 128)
    (hj0 : (j 0).val = 400 * t.val + p.val) (hj1 : (j 1).val = q.val) :
    yAll (adjAt m c) (zArr m c) j = k0_pay4 (adjB m c t) (zArr m c) (ix2 p q) := by
  have hp := p.isLt
  have hd : (j 0).val / 400 = t.val := by omega
  have hm : (j 0).val % 400 = p.val := by omega
  unfold yAll
  have e1 : adjAt m c ((j 0).val / 400) = adjB m c t := by rw [hd]; exact adjAt_of_lt m c t
  have e2 : ix2 (⟨(j 0).val % 400, Nat.mod_lt _ (by decide)⟩ : Fin 400) (j 1) = ix2 p q :=
    congrArg₂ ix2 (Fin.ext hm) (Fin.ext hj1)
  rw [e1]
  exact congrArg (k0_pay4 (adjB m c t) (zArr m c)) e2

/-- All of y, outside the rows of the last point, agrees with any buffer whose rows below that point are done. -/
theorem yAll_off (c : Dev nD) (t : Fin cfg0.N) (ht : t.val = 24) (y5 : Vec F S10000x128 .f32) (h5 : RowsDone m c t.val y5)
    (j : S10000x128.Idx) (hj : (j 0).val < 400 * t.val ∨ 400 * t.val + 400 ≤ (j 0).val) :
    yAll (adjAt m c) (zArr m c) j = y5 j := by
  have hj0 : (j 0).val < 10000 := (j 0).isLt
  have hlt : (j 0).val < 400 * t.val := by omega
  have hN : (j 0).val / 400 < cfg0.N := by
    have : cfg0.N = 25 := N_0
    omega
  have hm := Nat.mod_lt (j 0).val (show 0 < 400 by decide)
  rw [h5 ⟨(j 0).val / 400, hN⟩ (by simp only; omega) j ⟨(j 0).val % 400, hm⟩ ⟨(j 1).val, (j 1).isLt⟩
    (by simp only; omega) rfl]
  unfold yAll yBlk
  have e1 : adjAt m c ((j 0).val / 400) = adjB m c ⟨(j 0).val / 400, hN⟩ := adjAt_of_lt m c ⟨(j 0).val / 400, hN⟩
  rw [e1]
  rfl

/-- The sums after the last point, from the sums after the point before it. -/
theorem sArr_last (c : Dev nD) : sArr m c 24 = k0_pay5 (adjB m c tL) (zArr m c) (sArr m c 23) :=
  sArr_succ m c 23 (by decide)
theorem qArr_last (c : Dev nD) : qArr m c 24 = k0_pay6 (adjB m c tL) (zArr m c) (qArr m c 23) :=
  qArr_succ m c 23 (by decide)

/-- The final array, spelt over the sums after the point before the last. -/
theorem outArr_last (c : Dev nD) :
    outArr m c = k0_pay7 (k0_pay5 (adjB m c tL) (zArr m c) (sArr m c 23)) (k0_pay6 (adjB m c tL) (zArr m c) (qArr m c 23))
      (gB m c tL) (bB m c tL) (yAll (adjAt m c) (zArr m c)) := by
  unfold outArr; rw [sArr_last, qArr_last]

/-- The same at a point known to be the last only through its number. -/
theorem outArr_at (c : Dev nD) (t : Fin cfg0.N) (n : ℕ) (hn : t.val = n + 1) (h24 : n + 1 = 24) :
    outArr m c = k0_pay7 (k0_pay5 (adjB m c t) (zArr m c) (sArr m c n)) (k0_pay6 (adjB m c t) (zArr m c) (qArr m c n))
      (gB m c t) (bB m c t) (yAll (adjAt m c) (zArr m c)) := by
  obtain rfl : n = 23 := by omega
  have e : t = tL := Fin.ext (by rw [hn])
  subst e
  exact outArr_last m c

end Cert.KernelIdeal.Hand

end
-- ==== Proof.KRunA.lean ====
/-
  The body at the first grid point, run on whole staging memrefs.

  At point 0 both the initialising branch and the main part run: z = x·W is stored over all of the z scratch,
  the two running sums are zeroed, the point's block of y is stored into its 400 rows of the output buffer, and
  the sums take the block's column sums. The output buffer keeps whatever it held outside those rows.
-/
import proofs.«129174_g85255100825815_cont_sun_c4_478_8_alg».proof.Proof.KShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

set_option maxHeartbeats 1000000 in
/-- The first point's run: the inputs come back as they were; the output buffer, handed over at contents y5, comes
    back with the listed pieces written over them; each scratch buffer, handed over at anything, comes back with
    the listed pieces written. The pieces are found by the run. -/
noncomputable def runA (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (hc0 : isFirst i) (hc1 : ¬isLast i)
    (x0 : Vec F S400x10000 .f32) (x1 : Vec F S10000x128 .f32) (x2 : Vec F S128x128 .f32) (x3 : Vec F S1x128 .f32) (x4 : Vec F S1x128 .f32) (y5 : Vec F S10000x128 .f32) :
    Σ' (L5 : List (View.Piece (Elt F) S10000x128 .f32)), Σ' (LS0 : List (View.Piece (Elt F) S10000x128 .f32)), Σ' (LS1 : List (View.Piece (Elt F) S1x128 .f32)), { LS2 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg6.view.loc (c : Thread nD τ) ↦[arg6.view.set]{fullShare} arg6.view.writes (Elt F) (harg6.unread y5) L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexact H5
    isplitl [HS0]; · iexists _; iexact HS0
    isplitl [HS1]; · iexists _; iexact HS1
    iexists _; iexact HS2

end Cert.KernelIdeal.Hand

end
-- ==== Proof.KPiecesA.lean ====
/-
  What the first point's run leaves, read back: the z scratch holds x·W; the two sums hold the block's column sums
  added to zero; the output buffer holds the point's block of y in its 400 rows and what it held elsewhere.
-/
import proofs.«129174_g85255100825815_cont_sun_c4_478_8_alg».proof.Proof.KRunA
import Idealize.ShloMosaic.Lib.WritesUnit
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

/-- The zero offsets of a rank-2 rectangle. -/
theorem hz2 : (![0, 0] : Fin 2 → ℕ) = fun _ => 0 := by funext a; fin_cases a <;> rfl

/-- A list of writes whose newest piece is a store over the whole shape reads back that piece's payload. -/
theorem read_whole_cons {Val : EltTy → Type} [∀ e, Nonempty (Val e)] {sig' : RefSig} {κ : Kind} {sp : Space} {S : Shape} {e : EltTy}
    (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

section A
variable (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (hc0 : isFirst i) (hc1 : ¬isLast i)
    (x0 : Vec F S400x10000 .f32) (x1 : Vec F S10000x128 .f32) (x2 : Vec F S128x128 .f32) (x3 : Vec F S1x128 .f32) (x4 : Vec F S1x128 .f32) (y5 : Vec F S10000x128 .f32)

/-- The z scratch after the first point: x·W. -/
theorem runA_z (f : arg7.view.ty.Contents (Elt F)) :
    arg7.view.read (Elt F) (arg7.view.writes (Elt F) f (runA c i arg1 harg1 arg2 harg2 arg3 harg3 arg4 harg4 arg5 harg5 arg6 harg6 arg7 harg7 arg8 harg8 arg9 harg9 hc0 hc1 x0 x1 x2 x3 x4 y5).2.1) = k0_pay1 x1 x2 := by
  unfold runA; dsimp only; sl_unfold_run_names
  rw [read_whole_cons _ _ hz2]
  simp only [View.readAt_eq_ld, harg2.read_unread, harg3.read_unread, View.ld_unit_zero (S := S10000x128) hz2, View.ld_unit_zero (S := S128x128) hz2]

/-- The column sums after the first point. -/
theorem runA_s (f : arg8.view.ty.Contents (Elt F)) :
    arg8.view.read (Elt F) (arg8.view.writes (Elt F) f (runA c i arg1 harg1 arg2 harg2 arg3 harg3 arg4 harg4 arg5 harg5 arg6 harg6 arg7 harg7 arg8 harg8 arg9 harg9 hc0 hc1 x0 x1 x2 x3 x4 y5).2.2.1) = k0_pay5 x0 (k0_pay1 x1 x2) (k0_pay2 (F := F)) := by
  unfold runA; dsimp only; sl_unfold_run_names
  rw [read_whole_cons _ _ hz2]
  simp only [View.readAt_eq_ld, harg1.read_unread, harg2.read_unread, harg3.read_unread, View.ld_unit_zero (S := S400x10000) hz2, View.ld_unit_zero (S := S10000x128) hz2, View.ld_unit_zero (S := S128x128) hz2,
    View.readCov_unit_zero (S := S10000x128) _ hz2, View.readCov_unit_zero (S := S1x128) _ hz2]

/-- The column sums of squares after the first point. -/
theorem runA_q (f : arg9.view.ty.Contents (Elt F)) :
    arg9.view.read (Elt F) (arg9.view.writes (Elt F) f (runA c i arg1 harg1 arg2 harg2 arg3 harg3 arg4 harg4 arg5 harg5 arg6 harg6 arg7 harg7 arg8 harg8 arg9 harg9 hc0 hc1 x0 x1 x2 x3 x4 y5).2.2.2.1) = k0_pay6 x0 (k0_pay1 x1 x2) (k0_pay3 (F := F)) := by
  unfold runA; dsimp only; sl_unfold_run_names
  rw [read_whole_cons _ _ hz2]
  simp only [View.readAt_eq_ld, harg1.read_unread, harg2.read_unread, harg3.read_unread, View.ld_unit_zero (S := S400x10000) hz2, View.ld_unit_zero (S := S10000x128) hz2, View.ld_unit_zero (S := S128x128) hz2,
    View.readCov_unit_zero (S := S10000x128) _ hz2, View.readCov_unit_zero (S := S1x128) _ hz2]

/-- The output buffer after the first point, inside the point's rows: the block of y. -/
theorem runA_out_in {o : ℕ} (ho : k0_off1 i = ![o, 0]) (j : S10000x128.Idx) (p : Fin 400) (q : Fin 128)
    (hj0 : (j 0).val = o + p.val) (hj1 : (j 1).val = q.val) :
    arg6.view.read (Elt F) (arg6.view.writes (Elt F) (harg6.unread y5) (runA c i arg1 harg1 arg2 harg2 arg3 harg3 arg4 harg4 arg5 harg5 arg6 harg6 arg7 harg7 arg8 harg8 arg9 harg9 hc0 hc1 x0 x1 x2 x3 x4 y5).1) j
      = k0_pay4 x0 (k0_pay1 x1 x2) (ValueIdx.ix2 p q) := by
  unfold runA; dsimp only; sl_unfold_run_names
  refine (View.read_writes_cons_rows_of_mem arg6.view (harg6.unread y5) (k0_off1_inb i) _ [] j (ValueIdx.ix2 p q) ho hj0 hj1).trans ?_
  simp only [View.readAt_eq_ld, harg1.read_unread, harg2.read_unread, harg3.read_unread, View.ld_unit_zero (S := S400x10000) hz2, View.ld_unit_zero (S := S10000x128) hz2, View.ld_unit_zero (S := S128x128) hz2,
    View.readCov_unit_zero (S := S10000x128) _ hz2]

/-- and outside them: what it held. -/
theorem runA_out_off {o : ℕ} (ho : k0_off1 i = ![o, 0]) (j : S10000x128.Idx)
    (hj : (j 0).val < o ∨ o + 400 ≤ (j 0).val) :
    arg6.view.read (Elt F) (arg6.view.writes (Elt F) (harg6.unread y5) (runA c i arg1 harg1 arg2 harg2 arg3 harg3 arg4 harg4 arg5 harg5 arg6 harg6 arg7 harg7 arg8 harg8 arg9 harg9 hc0 hc1 x0 x1 x2 x3 x4 y5).1) j
      = y5 j := by
  unfold runA; dsimp only; sl_unfold_run_names
  refine (View.read_writes_cons_rows_of_not_mem arg6.view (harg6.unread y5) (k0_off1_inb i) _ [] j ho rfl hj).trans ?_
  exact congrFun (harg6.read_unread y5) j

end A

end Cert.KernelIdeal.Hand

end
-- ==== Proof.KRunB.lean ====
/-
  The body at a middle grid point (neither the first nor the last), run on whole staging memrefs.

  Only the main part runs: the point's block of y = (adjacency block)·z is stored into its 400 rows of the output
  buffer, and the two running sums take the block's column sums and column sums of squares. The z scratch is read
  and left as it was.
-/
import proofs.«129174_g85255100825815_cont_sun_c4_478_8_alg».proof.Proof.KShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

set_option maxHeartbeats 1000000 in
/-- A middle point's run: the inputs and the z scratch come back as they were; the output buffer, handed over at
    contents y5, comes back with the listed pieces written over them; the two sums' buffers come back with the listed
    pieces written. The pieces are found by the run. -/
noncomputable def runB (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (hc0 : ¬isFirst i) (hc1 : ¬isLast i)
    (x0 : Vec F S400x10000 .f32) (x1 : Vec F S10000x128 .f32) (x2 : Vec F S128x128 .f32) (x3 : Vec F S1x128 .f32) (x4 : Vec F S1x128 .f32) (y5 : Vec F S10000x128 .f32)
    (xs0 : Vec F S10000x128 .f32) (xs1 : Vec F S1x128 .f32) (xs2 : Vec F S1x128 .f32) :
    Σ' (L5 : List (View.Piece (Elt F) S10000x128 .f32)), Σ' (LS1 : List (View.Piece (Elt F) S1x128 .f32)), { LS2 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ owns (c : Thread nD τ) arg7 fullShare xs0 ∗ owns (c : Thread nD τ) arg8 fullShare xs1 ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg6.view.loc (c : Thread nD τ) ↦[arg6.view.set]{fullShare} arg6.view.writes (Elt F) (harg6.unread y5) L5) ∗ owns (c : Thread nD τ) arg7 fullShare xs0 ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexact H5
    isplitl [HS0]
    · iexists _; isplitr; · ipureintro; exact harg7.read_unread _
      iexact HS0
    isplitl [HS1]; · iexists _; iexact HS1
    iexists _; iexact HS2

end Cert.KernelIdeal.Hand

end
-- ==== Proof.KPiecesB.lean ====
/-
  What a middle point's run leaves, read back: the two sums hold the block's column sums added to what they held;
  the output buffer holds the point's block of y in its 400 rows and what it held elsewhere.
-/
import proofs.«129174_g85255100825815_cont_sun_c4_478_8_alg».proof.Proof.KRunB
import proofs.«129174_g85255100825815_cont_sun_c4_478_8_alg».proof.Proof.KPiecesA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

section B
variable (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (hc0 : ¬isFirst i) (hc1 : ¬isLast i)
    (x0 : Vec F S400x10000 .f32) (x1 : Vec F S10000x128 .f32) (x2 : Vec F S128x128 .f32) (x3 : Vec F S1x128 .f32) (x4 : Vec F S1x128 .f32) (y5 : Vec F S10000x128 .f32)
    (xs0 : Vec F S10000x128 .f32) (xs1 : Vec F S1x128 .f32) (xs2 : Vec F S1x128 .f32)

/-- The column sums after a middle point. -/
theorem runB_s (f : arg8.view.ty.Contents (Elt F)) :
    arg8.view.read (Elt F) (arg8.view.writes (Elt F) f (runB c i arg1 harg1 arg2 harg2 arg3 harg3 arg4 harg4 arg5 harg5 arg6 harg6 arg7 harg7 arg8 harg8 arg9 harg9 hc0 hc1 x0 x1 x2 x3 x4 y5 xs0 xs1 xs2).2.1) = k0_pay5 x0 xs0 xs1 := by
  unfold runB; dsimp only; sl_unfold_run_names
  rw [read_whole_cons _ _ hz2]
  simp only [View.readAt_eq_ld, harg1.read_unread, harg7.read_unread, harg8.read_unread, View.ld_unit_zero (S := S400x10000) hz2, View.ld_unit_zero (S := S10000x128) hz2, View.ld_unit_zero (S := S1x128) hz2]

/-- The column sums of squares after a middle point. -/
theorem runB_q (f : arg9.view.ty.Contents (Elt F)) :
    arg9.view.read (Elt F) (arg9.view.writes (Elt F) f (runB c i arg1 harg1 arg2 harg2 arg3 harg3 arg4 harg4 arg5 harg5 arg6 harg6 arg7 harg7 arg8 harg8 arg9 harg9 hc0 hc1 x0 x1 x2 x3 x4 y5 xs0 xs1 xs2).2.2.1) = k0_pay6 x0 xs0 xs2 := by
  unfold runB; dsimp only; sl_unfold_run_names
  rw [read_whole_cons _ _ hz2]
  simp only [View.readAt_eq_ld, harg1.read_unread, harg7.read_unread, harg9.read_unread, View.ld_unit_zero (S := S400x10000) hz2, View.ld_unit_zero (S := S10000x128) hz2, View.ld_unit_zero (S := S1x128) hz2]

/-- The output buffer after a middle point, inside the point's rows: the block of y. -/
theorem runB_out_in {o : ℕ} (ho : k0_off1 i = ![o, 0]) (j : S10000x128.Idx) (p : Fin 400) (q : Fin 128)
    (hj0 : (j 0).val = o + p.val) (hj1 : (j 1).val = q.val) :
    arg6.view.read (Elt F) (arg6.view.writes (Elt F) (harg6.unread y5) (runB c i arg1 harg1 arg2 harg2 arg3 harg3 arg4 harg4 arg5 harg5 arg6 harg6 arg7 harg7 arg8 harg8 arg9 harg9 hc0 hc1 x0 x1 x2 x3 x4 y5 xs0 xs1 xs2).1) j
      = k0_pay4 x0 xs0 (ValueIdx.ix2 p q) := by
  unfold runB; dsimp only; sl_unfold_run_names
  refine (View.read_writes_cons_rows_of_mem arg6.view (harg6.unread y5) (k0_off1_inb i) _ [] j (ValueIdx.ix2 p q) ho hj0 hj1).trans ?_
  simp only [View.readAt_eq_ld, harg1.read_unread, harg7.read_unread, View.ld_unit_zero (S := S400x10000) hz2, View.ld_unit_zero (S := S10000x128) hz2]

/-- and outside them: what it held. -/
theorem runB_out_off {o : ℕ} (ho : k0_off1 i = ![o, 0]) (j : S10000x128.Idx)
    (hj : (j 0).val < o ∨ o + 400 ≤ (j 0).val) :
    arg6.view.read (Elt F) (arg6.view.writes (Elt F) (harg6.unread y5) (runB c i arg1 harg1 arg2 harg2 arg3 harg3 arg4 harg4 arg5 harg5 arg6 harg6 arg7 harg7 arg8 harg8 arg9 harg9 hc0 hc1 x0 x1 x2 x3 x4 y5 xs0 xs1 xs2).1) j = y5 j := by
  unfold runB; dsimp only; sl_unfold_run_names
  refine (View.read_writes_cons_rows_of_not_mem arg6.view (harg6.unread y5) (k0_off1_inb i) _ [] j ho rfl hj).trans ?_
  exact congrFun (harg6.read_unread y5) j

end B

end Cert.KernelIdeal.Hand

end
-- ==== Proof.KRunC.lean ====
/-
  The body at the last grid point, run on whole staging memrefs.

  The main part runs as at a middle point, then the finishing branch: from the completed sums it forms mean,
  variance, scale and shift, and overwrites the whole output buffer, which by now holds all of y, with
  max(y·scale + shift, 0).
-/
import proofs.«129174_g85255100825815_cont_sun_c4_478_8_alg».proof.Proof.KShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

set_option maxHeartbeats 1000000 in
/-- The last point's run: the inputs and the z scratch come back as they were; the output buffer, handed over at
    contents y5, comes back with the listed pieces written over them (the point's rows, then the whole buffer); the two
    sums' buffers come back with the listed pieces written. The pieces are found by the run. -/
noncomputable def runC (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (hc0 : ¬isFirst i) (hc1 : isLast i)
    (x0 : Vec F S400x10000 .f32) (x1 : Vec F S10000x128 .f32) (x2 : Vec F S128x128 .f32) (x3 : Vec F S1x128 .f32) (x4 : Vec F S1x128 .f32) (y5 : Vec F S10000x128 .f32)
    (xs0 : Vec F S10000x128 .f32) (xs1 : Vec F S1x128 .f32) (xs2 : Vec F S1x128 .f32) :
    Σ' (L5 : List (View.Piece (Elt F) S10000x128 .f32)), Σ' (LS1 : List (View.Piece (Elt F) S1x128 .f32)), { LS2 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ owns (c : Thread nD τ) arg7 fullShare xs0 ∗ owns (c : Thread nD τ) arg8 fullShare xs1 ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg6.view.loc (c : Thread nD τ) ↦[arg6.view.set]{fullShare} arg6.view.writes (Elt F) (harg6.unread y5) L5) ∗ owns (c : Thread nD τ) arg7 fullShare xs0 ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexact H5
    isplitl [HS0]
    · iexists _; isplitr; · ipureintro; exact harg7.read_unread _
      iexact HS0
    isplitl [HS1]; · iexists _; iexact HS1
    iexists _; iexact HS2

end Cert.KernelIdeal.Hand

end
-- ==== Proof.KPiecesC.lean ====
/-
  What the last point's run leaves, read back: the two sums hold the block's column sums added to what they held;
  the output buffer holds the final payload of those sums, γ, β and the buffer as it stood once the point's block of y
  had been stored into its 400 rows.
-/
import proofs.«129174_g85255100825815_cont_sun_c4_478_8_alg».proof.Proof.KRunC
import proofs.«129174_g85255100825815_cont_sun_c4_478_8_alg».proof.Proof.KPiecesA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

section C
variable (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (hc0 : ¬isFirst i) (hc1 : isLast i)
    (x0 : Vec F S400x10000 .f32) (x1 : Vec F S10000x128 .f32) (x2 : Vec F S128x128 .f32) (x3 : Vec F S1x128 .f32) (x4 : Vec F S1x128 .f32) (y5 : Vec F S10000x128 .f32)
    (xs0 : Vec F S10000x128 .f32) (xs1 : Vec F S1x128 .f32) (xs2 : Vec F S1x128 .f32)

/-- The column sums after the last point. -/
theorem runC_s (f : arg8.view.ty.Contents (Elt F)) :
    arg8.view.read (Elt F) (arg8.view.writes (Elt F) f (runC c i arg1 harg1 arg2 harg2 arg3 harg3 arg4 harg4 arg5 harg5 arg6 harg6 arg7 harg7 arg8 harg8 arg9 harg9 hc0 hc1 x0 x1 x2 x3 x4 y5 xs0 xs1 xs2).2.1) = k0_pay5 x0 xs0 xs1 := by
  unfold runC; dsimp only; sl_unfold_run_names
  rw [read_whole_cons _ _ hz2]
  simp only [View.readAt_eq_ld, harg1.read_unread, harg7.read_unread, harg8.read_unread, View.ld_unit_zero (S := S400x10000) hz2, View.ld_unit_zero (S := S10000x128) hz2, View.ld_unit_zero (S := S1x128) hz2]

/-- The column sums of squares after the last point. -/
theorem runC_q (f : arg9.view.ty.Contents (Elt F)) :
    arg9.view.read (Elt F) (arg9.view.writes (Elt F) f (runC c i arg1 harg1 arg2 harg2 arg3 harg3 arg4 harg4 arg5 harg5 arg6 harg6 arg7 harg7 arg8 harg8 arg9 harg9 hc0 hc1 x0 x1 x2 x3 x4 y5 xs0 xs1 xs2).2.2.1) = k0_pay6 x0 xs0 xs2 := by
  unfold runC; dsimp only; sl_unfold_run_names
  rw [read_whole_cons _ _ hz2]
  simp only [View.readAt_eq_ld, harg1.read_unread, harg7.read_unread, harg9.read_unread, View.ld_unit_zero (S := S400x10000) hz2, View.ld_unit_zero (S := S10000x128) hz2, View.ld_unit_zero (S := S1x128) hz2]

/-- The output buffer after the last point: the final payload applied to the completed sums, γ, β and the buffer
    Ymid that agrees with the point's block of y inside the point's rows and with what the buffer held outside them. -/
theorem runC_out {o : ℕ} (ho : k0_off1 i = ![o, 0]) (Ymid : Vec F S10000x128 .f32)
    (hin : ∀ (j : S10000x128.Idx) (p : Fin 400) (q : Fin 128), (j 0).val = o + p.val → (j 1).val = q.val →
      Ymid j = k0_pay4 x0 xs0 (ValueIdx.ix2 p q))
    (hoff : ∀ j : S10000x128.Idx, ((j 0).val < o ∨ o + 400 ≤ (j 0).val) → Ymid j = y5 j) :
    arg6.view.read (Elt F) (arg6.view.writes (Elt F) (harg6.unread y5) (runC c i arg1 harg1 arg2 harg2 arg3 harg3 arg4 harg4 arg5 harg5 arg6 harg6 arg7 harg7 arg8 harg8 arg9 harg9 hc0 hc1 x0 x1 x2 x3 x4 y5 xs0 xs1 xs2).1)
      = k0_pay7 (k0_pay5 x0 xs0 xs1) (k0_pay6 x0 xs0 xs2) x3 x4 Ymid := by
  unfold runC; dsimp only; sl_unfold_run_names
  rw [read_whole_cons _ _ hz2]
  simp only [View.readAt_eq_ld, harg1.read_unread, harg4.read_unread, harg5.read_unread, harg7.read_unread, harg8.read_unread, harg9.read_unread,
    View.ld_unit_zero (S := S400x10000) hz2, View.ld_unit_zero (S := S10000x128) hz2, View.ld_unit_zero (S := S1x128) hz2,
    View.readCov_unit_zero (S := S1x128) _ hz2]
  refine congrArg (k0_pay7 (k0_pay5 x0 xs0 xs1) (k0_pay6 x0 xs0 xs2) x3 x4) (funext fun j => ?_)
  by_cases hj : (j 0).val < o ∨ o + 400 ≤ (j 0).val
  · -- a row outside the point's block keeps what the buffer held
    rw [hoff j hj]
    refine (View.read_writes_cons_rows_of_not_mem arg6.view (harg6.unread y5) (k0_off1_inb i) _ [] j ho rfl hj).trans ?_
    exact congrFun (harg6.read_unread y5) j
  · -- a row inside it reads the block of y at its place in the block
    have hlo : o ≤ (j 0).val := by omega
    have hhi : (j 0).val - o < 400 := by omega
    rw [hin j ⟨(j 0).val - o, hhi⟩ ⟨(j 1).val, (j 1).isLt⟩ (by show (j 0).val = o + ((j 0).val - o); omega) rfl]
    exact View.read_writes_cons_rows_of_mem arg6.view (harg6.unread y5) (k0_off1_inb i) _ [] j
      (ValueIdx.ix2 (⟨(j 0).val - o, hhi⟩ : Fin 400) (⟨(j 1).val, (j 1).isLt⟩ : Fin 128)) ho
      (by show (j 0).val = o + ((j 0).val - o); omega) rfl

end C

end Cert.KernelIdeal.Hand

end
-- ==== Proof.KBody.lean ====
/-
  The body obligation: at every grid point the kernel's body, handed the region invariant and the six windows' staging
  buffers as the pipeline may hand them, runs to the invariant of the next point and buffers in the windows' relations.

  The point decides which of the three runs applies (first, middle, last). The inputs come back as they were. The
  scratch buffers go from the sums after the point before to the sums after this one (from anything, at the first point).
  The output buffer goes from "rows below done" to "rows up to here done", and at the last point to the final array.
-/
import proofs.«129174_g85255100825815_cont_sun_c4_478_8_alg».proof.Proof.KSteps
import proofs.«129174_g85255100825815_cont_sun_c4_478_8_alg».proof.Proof.KPiecesA
import proofs.«129174_g85255100825815_cont_sun_c4_478_8_alg».proof.Proof.KPiecesB
import proofs.«129174_g85255100825815_cont_sun_c4_478_8_alg».proof.Proof.KPiecesC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- What the body is called with at point t, the windows one by one: the inputs at their blocks, the output buffer at
    contents y5. -/
def bodyPre (c : Dev nD) (t : Fin cfg0.N) (y5 : Vec F S10000x128 .f32) : sProp 𝕄 :=
  iprop((rdat m c).Φ t.castSucc ∗ (rdat m c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ owns (c : Thread nD τ) (ms5 t) fullShare y5)

/-- and what it returns: each buffer at some contents in its window's relation to what was handed over. -/
def bodyPost (c : Dev nD) (t : Fin cfg0.N) (y5 : Vec F S10000x128 .f32) : sProp 𝕄 :=
  iprop((rdat m c).Φ t.succ ∗ (rdat m c).owesAt () t.succ
    ∗ (∃ X, ⌜(rdat m c).after 0 t (iblk m c 0 t) X⌝ ∗ owns (c : Thread nD τ) (ms0 t) fullShare X)
    ∗ (∃ X, ⌜(rdat m c).after 1 t (iblk m c 1 t) X⌝ ∗ owns (c : Thread nD τ) (ms1 t) fullShare X)
    ∗ (∃ X, ⌜(rdat m c).after 2 t (iblk m c 2 t) X⌝ ∗ owns (c : Thread nD τ) (ms2 t) fullShare X)
    ∗ (∃ X, ⌜(rdat m c).after 3 t (iblk m c 3 t) X⌝ ∗ owns (c : Thread nD τ) (ms3 t) fullShare X)
    ∗ (∃ X, ⌜(rdat m c).after 4 t (iblk m c 4 t) X⌝ ∗ owns (c : Thread nD τ) (ms4 t) fullShare X)
    ∗ (∃ X, ⌜(rdat m c).after 5 t y5 X⌝ ∗ owns (c : Thread nD τ) (ms5 t) fullShare X))

/-- The invariant before a point after the first: z and the sums after the point before. -/
theorem Phi_castSucc_succ (c : Dev nD) (n : ℕ) (htv : n + 1 < cfg0.N) :
    (rdat m c).Φ (⟨n + 1, htv⟩ : Fin cfg0.N).castSucc
      = iprop(iprop(owns (c : Thread nD τ) scZ fullShare (zArr m c) ∗ owns (c : Thread nD τ) scS fullShare (sArr m c n) ∗ owns (c : Thread nD τ) scQ fullShare (qArr m c n)) ∗ (∃ r, prngReg c r)) := rfl
set_option maxHeartbeats 4000000 in
/-- The first point. -/
theorem sound_first (c : Dev nD) (htv : 0 < cfg0.N) (y5 : Vec F S10000x128 .f32) :
    bodyPre m c ⟨0, htv⟩ y5 ⊢ wp frame (wpE (defs₀ (F := F)) Variants.none c none) Set.univ (bodyAt0 ⟨0, htv⟩) (fun _ => bodyPost m c ⟨0, htv⟩ y5) := by
  unfold bodyPre bodyPost bodyAt0
  rw [show (rdat m c).owesAt () (⟨0, htv⟩ : Fin cfg0.N).succ = (rdat m c).owesAt () (⟨0, htv⟩ : Fin cfg0.N).castSucc from rfl]
  rw [Phi_succ, PhiS_succ, Phi_castSucc, PhiS_zero m c _ _ rfl, PhiA_eq]
  have hc0 : isFirst (grid0.coords (⟨0, htv⟩ : Fin cfg0.N)) := (isFirst_iff ⟨0, htv⟩).mpr rfl
  have hc1 : ¬isLast (grid0.coords (⟨0, htv⟩ : Fin cfg0.N)) := fun h => absurd ((isLast_iff ⟨0, htv⟩).mp h) (by show ¬ (0 % 25 = 24); omega)
  iintro ⟨⟨⟨HS0, HS1, HS2⟩, Hg⟩, Ho, H0, H1, H2, H3, H4, H5⟩
  iapply ((runA c (grid0.coords ⟨0, htv⟩) (ms0 ⟨0, htv⟩) (hs0 ⟨0, htv⟩) (ms1 ⟨0, htv⟩) (hs1 ⟨0, htv⟩) (ms2 ⟨0, htv⟩) (hs2 ⟨0, htv⟩) (ms3 ⟨0, htv⟩) (hs3 ⟨0, htv⟩) (ms4 ⟨0, htv⟩) (hs4 ⟨0, htv⟩) (ms5 ⟨0, htv⟩) (hs5 ⟨0, htv⟩) scZ (Memref.isWhole_whole _) scS (Memref.isWhole_whole _) scQ (Memref.isWhole_whole _) hc0 hc1 (iblk m c 0 ⟨0, htv⟩) (iblk m c 1 ⟨0, htv⟩) (iblk m c 2 ⟨0, htv⟩) (iblk m c 3 ⟨0, htv⟩) (iblk m c 4 ⟨0, htv⟩) y5).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, ⟨%es0, HS0⟩, ⟨%es1, HS1⟩, ⟨%es2, HS2⟩⟩
  isplitl [HS0 HS1 HS2 Hg]
  · isplitl [HS0 HS1 HS2]
    · isplitl [HS0]
      · unfold owns; iexists _; isplitr; swap; · iexact HS0
        ipureintro; exact runA_z c _ (ms0 ⟨0, htv⟩) (hs0 ⟨0, htv⟩) (ms1 ⟨0, htv⟩) (hs1 ⟨0, htv⟩) (ms2 ⟨0, htv⟩) (hs2 ⟨0, htv⟩) (ms3 ⟨0, htv⟩) (hs3 ⟨0, htv⟩) (ms4 ⟨0, htv⟩) (hs4 ⟨0, htv⟩) (ms5 ⟨0, htv⟩) (hs5 ⟨0, htv⟩) scZ (Memref.isWhole_whole _) scS (Memref.isWhole_whole _) scQ (Memref.isWhole_whole _) hc0 hc1 _ _ _ _ _ _ es0
      isplitl [HS1]
      · unfold owns; iexists _; isplitr; swap; · iexact HS1
        ipureintro; exact (runA_s c _ (ms0 ⟨0, htv⟩) (hs0 ⟨0, htv⟩) (ms1 ⟨0, htv⟩) (hs1 ⟨0, htv⟩) (ms2 ⟨0, htv⟩) (hs2 ⟨0, htv⟩) (ms3 ⟨0, htv⟩) (hs3 ⟨0, htv⟩) (ms4 ⟨0, htv⟩) (hs4 ⟨0, htv⟩) (ms5 ⟨0, htv⟩) (hs5 ⟨0, htv⟩) scZ (Memref.isWhole_whole _) scS (Memref.isWhole_whole _) scQ (Memref.isWhole_whole _) hc0 hc1 _ _ _ _ _ _ es1).trans (sArr_zero m c).symm
      unfold owns; iexists _; isplitr; swap; · iexact HS2
      ipureintro; exact (runA_q c _ (ms0 ⟨0, htv⟩) (hs0 ⟨0, htv⟩) (ms1 ⟨0, htv⟩) (hs1 ⟨0, htv⟩) (ms2 ⟨0, htv⟩) (hs2 ⟨0, htv⟩) (ms3 ⟨0, htv⟩) (hs3 ⟨0, htv⟩) (ms4 ⟨0, htv⟩) (hs4 ⟨0, htv⟩) (ms5 ⟨0, htv⟩) (hs5 ⟨0, htv⟩) scZ (Memref.isWhole_whole _) scS (Memref.isWhole_whole _) scQ (Memref.isWhole_whole _) hc0 hc1 _ _ _ _ _ _ es2).trans (qArr_zero m c).symm
    iexact Hg
  isplitl [Ho]; · iexact Ho
  isplitl [H0]
  · iexists _; isplitr; swap; · iexact H0
    ipureintro; exact after_in m c 0 rfl ⟨0, htv⟩ _ _ (after0 m c ⟨0, htv⟩).symm
  isplitl [H1]
  · iexists _; isplitr; swap; · iexact H1
    ipureintro; exact after_in m c 1 rfl ⟨0, htv⟩ _ _ (after1 m c ⟨0, htv⟩).symm
  isplitl [H2]
  · iexists _; isplitr; swap; · iexact H2
    ipureintro; exact after_in m c 2 rfl ⟨0, htv⟩ _ _ (after2 m c ⟨0, htv⟩).symm
  isplitl [H3]
  · iexists _; isplitr; swap; · iexact H3
    ipureintro; exact after_in m c 3 rfl ⟨0, htv⟩ _ _ (after3 m c ⟨0, htv⟩).symm
  isplitl [H4]
  · iexists _; isplitr; swap; · iexact H4
    ipureintro; exact after_in m c 4 rfl ⟨0, htv⟩ _ _ (after4 m c ⟨0, htv⟩).symm
  iexists _; isplitr; swap
  · unfold owns; iexists _; isplitr; swap; · iexact H5
    ipureintro; rfl
  ipureintro
  rw [after_out]
  intro h5
  rw [if_neg (by show ¬ (0 = 24); omega)]
  refine rows_step m c ⟨0, htv⟩ y5 _ h5 (fun j p q hj0 hj1 => ?_) (fun j hj => ?_)
  · exact runA_out_in c _ (ms0 ⟨0, htv⟩) (hs0 ⟨0, htv⟩) (ms1 ⟨0, htv⟩) (hs1 ⟨0, htv⟩) (ms2 ⟨0, htv⟩) (hs2 ⟨0, htv⟩) (ms3 ⟨0, htv⟩) (hs3 ⟨0, htv⟩) (ms4 ⟨0, htv⟩) (hs4 ⟨0, htv⟩) (ms5 ⟨0, htv⟩) (hs5 ⟨0, htv⟩) scZ (Memref.isWhole_whole _) scS (Memref.isWhole_whole _) scQ (Memref.isWhole_whole _) hc0 hc1 _ _ _ _ _ _ (off_eq ⟨0, htv⟩) j p q hj0 hj1
  · exact runA_out_off c _ (ms0 ⟨0, htv⟩) (hs0 ⟨0, htv⟩) (ms1 ⟨0, htv⟩) (hs1 ⟨0, htv⟩) (ms2 ⟨0, htv⟩) (hs2 ⟨0, htv⟩) (ms3 ⟨0, htv⟩) (hs3 ⟨0, htv⟩) (ms4 ⟨0, htv⟩) (hs4 ⟨0, htv⟩) (ms5 ⟨0, htv⟩) (hs5 ⟨0, htv⟩) scZ (Memref.isWhole_whole _) scS (Memref.isWhole_whole _) scQ (Memref.isWhole_whole _) hc0 hc1 _ _ _ _ _ _ (off_eq ⟨0, htv⟩) j hj

set_option maxHeartbeats 4000000 in
/-- A middle point. -/
theorem sound_middle (c : Dev nD) (n : ℕ) (htv : n + 1 < cfg0.N) (hne : n + 1 ≠ 24) (y5 : Vec F S10000x128 .f32) :
    bodyPre m c ⟨n + 1, htv⟩ y5 ⊢ wp frame (wpE (defs₀ (F := F)) Variants.none c none) Set.univ (bodyAt0 ⟨n + 1, htv⟩) (fun _ => bodyPost m c ⟨n + 1, htv⟩ y5) := by
  unfold bodyPre bodyPost bodyAt0
  rw [show (rdat m c).owesAt () (⟨n + 1, htv⟩ : Fin cfg0.N).succ = (rdat m c).owesAt () (⟨n + 1, htv⟩ : Fin cfg0.N).castSucc from rfl]
  rw [Phi_succ, PhiS_succ, Phi_castSucc_succ]
  have hN : n + 1 < 25 := lt_of_lt_of_eq htv (show cfg0.N = 25 from N_0)
  have hc0 : ¬isFirst (grid0.coords (⟨n + 1, htv⟩ : Fin cfg0.N)) := fun h => absurd ((isFirst_iff ⟨n + 1, htv⟩).mp h) (by simp only; omega)
  have hc1 : ¬isLast (grid0.coords (⟨n + 1, htv⟩ : Fin cfg0.N)) := fun h => absurd ((isLast_iff ⟨n + 1, htv⟩).mp h) (by simp only; omega)
  iintro ⟨⟨⟨HS0, HS1, HS2⟩, Hg⟩, Ho, H0, H1, H2, H3, H4, H5⟩
  iapply ((runB c (grid0.coords ⟨n + 1, htv⟩) (ms0 ⟨n + 1, htv⟩) (hs0 ⟨n + 1, htv⟩) (ms1 ⟨n + 1, htv⟩) (hs1 ⟨n + 1, htv⟩) (ms2 ⟨n + 1, htv⟩) (hs2 ⟨n + 1, htv⟩) (ms3 ⟨n + 1, htv⟩) (hs3 ⟨n + 1, htv⟩) (ms4 ⟨n + 1, htv⟩) (hs4 ⟨n + 1, htv⟩) (ms5 ⟨n + 1, htv⟩) (hs5 ⟨n + 1, htv⟩) scZ (Memref.isWhole_whole _) scS (Memref.isWhole_whole _) scQ (Memref.isWhole_whole _) hc0 hc1 (iblk m c 0 ⟨n + 1, htv⟩) (iblk m c 1 ⟨n + 1, htv⟩) (iblk m c 2 ⟨n + 1, htv⟩) (iblk m c 3 ⟨n + 1, htv⟩) (iblk m c 4 ⟨n + 1, htv⟩) y5 (zArr m c) (sArr m c n) (qArr m c n)).2.2.2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, ⟨%es1, HS1⟩, ⟨%es2, HS2⟩⟩
  isplitl [HS0 HS1 HS2 Hg]
  · isplitl [HS0 HS1 HS2]
    · isplitl [HS0]; · iexact HS0
      isplitl [HS1]
      · unfold owns; iexists _; isplitr; swap; · iexact HS1
        ipureintro; exact (runB_s c _ (ms0 ⟨n + 1, htv⟩) (hs0 ⟨n + 1, htv⟩) (ms1 ⟨n + 1, htv⟩) (hs1 ⟨n + 1, htv⟩) (ms2 ⟨n + 1, htv⟩) (hs2 ⟨n + 1, htv⟩) (ms3 ⟨n + 1, htv⟩) (hs3 ⟨n + 1, htv⟩) (ms4 ⟨n + 1, htv⟩) (hs4 ⟨n + 1, htv⟩) (ms5 ⟨n + 1, htv⟩) (hs5 ⟨n + 1, htv⟩) scZ (Memref.isWhole_whole _) scS (Memref.isWhole_whole _) scQ (Memref.isWhole_whole _) hc0 hc1 _ _ _ _ _ _ _ _ _ es1).trans (sArr_succ m c n htv).symm
      unfold owns; iexists _; isplitr; swap; · iexact HS2
      ipureintro; exact (runB_q c _ (ms0 ⟨n + 1, htv⟩) (hs0 ⟨n + 1, htv⟩) (ms1 ⟨n + 1, htv⟩) (hs1 ⟨n + 1, htv⟩) (ms2 ⟨n + 1, htv⟩) (hs2 ⟨n + 1, htv⟩) (ms3 ⟨n + 1, htv⟩) (hs3 ⟨n + 1, htv⟩) (ms4 ⟨n + 1, htv⟩) (hs4 ⟨n + 1, htv⟩) (ms5 ⟨n + 1, htv⟩) (hs5 ⟨n + 1, htv⟩) scZ (Memref.isWhole_whole _) scS (Memref.isWhole_whole _) scQ (Memref.isWhole_whole _) hc0 hc1 _ _ _ _ _ _ _ _ _ es2).trans (qArr_succ m c n htv).symm
    iexact Hg
  isplitl [Ho]; · iexact Ho
  isplitl [H0]
  · iexists _; isplitr; swap; · iexact H0
    ipureintro; exact after_in m c 0 rfl ⟨n + 1, htv⟩ _ _ (after0 m c ⟨n + 1, htv⟩).symm
  isplitl [H1]
  · iexists _; isplitr; swap; · iexact H1
    ipureintro; exact after_in m c 1 rfl ⟨n + 1, htv⟩ _ _ (after1 m c ⟨n + 1, htv⟩).symm
  isplitl [H2]
  · iexists _; isplitr; swap; · iexact H2
    ipureintro; exact after_in m c 2 rfl ⟨n + 1, htv⟩ _ _ (after2 m c ⟨n + 1, htv⟩).symm
  isplitl [H3]
  · iexists _; isplitr; swap; · iexact H3
    ipureintro; exact after_in m c 3 rfl ⟨n + 1, htv⟩ _ _ (after3 m c ⟨n + 1, htv⟩).symm
  isplitl [H4]
  · iexists _; isplitr; swap; · iexact H4
    ipureintro; exact after_in m c 4 rfl ⟨n + 1, htv⟩ _ _ (after4 m c ⟨n + 1, htv⟩).symm
  iexists _; isplitr; swap
  · unfold owns; iexists _; isplitr; swap; · iexact H5
    ipureintro; rfl
  ipureintro
  rw [after_out]
  intro h5
  rw [if_neg hne]
  refine rows_step m c ⟨n + 1, htv⟩ y5 _ h5 (fun j p q hj0 hj1 => ?_) (fun j hj => ?_)
  · exact runB_out_in c _ (ms0 ⟨n + 1, htv⟩) (hs0 ⟨n + 1, htv⟩) (ms1 ⟨n + 1, htv⟩) (hs1 ⟨n + 1, htv⟩) (ms2 ⟨n + 1, htv⟩) (hs2 ⟨n + 1, htv⟩) (ms3 ⟨n + 1, htv⟩) (hs3 ⟨n + 1, htv⟩) (ms4 ⟨n + 1, htv⟩) (hs4 ⟨n + 1, htv⟩) (ms5 ⟨n + 1, htv⟩) (hs5 ⟨n + 1, htv⟩) scZ (Memref.isWhole_whole _) scS (Memref.isWhole_whole _) scQ (Memref.isWhole_whole _) hc0 hc1 _ _ _ _ _ _ _ _ _ (off_eq ⟨n + 1, htv⟩) j p q hj0 hj1
  · exact runB_out_off c _ (ms0 ⟨n + 1, htv⟩) (hs0 ⟨n + 1, htv⟩) (ms1 ⟨n + 1, htv⟩) (hs1 ⟨n + 1, htv⟩) (ms2 ⟨n + 1, htv⟩) (hs2 ⟨n + 1, htv⟩) (ms3 ⟨n + 1, htv⟩) (hs3 ⟨n + 1, htv⟩) (ms4 ⟨n + 1, htv⟩) (hs4 ⟨n + 1, htv⟩) (ms5 ⟨n + 1, htv⟩) (hs5 ⟨n + 1, htv⟩) scZ (Memref.isWhole_whole _) scS (Memref.isWhole_whole _) scQ (Memref.isWhole_whole _) hc0 hc1 _ _ _ _ _ _ _ _ _ (off_eq ⟨n + 1, htv⟩) j hj

set_option maxHeartbeats 4000000 in
/-- The last point, given through its number: the point n + 1 with n + 1 = 24. -/
theorem sound_last (c : Dev nD) (n : ℕ) (htv : n + 1 < cfg0.N) (h24 : n + 1 = 24) (y5 : Vec F S10000x128 .f32) :
    bodyPre m c ⟨n + 1, htv⟩ y5 ⊢ wp frame (wpE (defs₀ (F := F)) Variants.none c none) Set.univ (bodyAt0 ⟨n + 1, htv⟩) (fun _ => bodyPost m c ⟨n + 1, htv⟩ y5) := by
  unfold bodyPre bodyPost bodyAt0
  rw [show (rdat m c).owesAt () (⟨n + 1, htv⟩ : Fin cfg0.N).succ = (rdat m c).owesAt () (⟨n + 1, htv⟩ : Fin cfg0.N).castSucc from rfl]
  rw [Phi_succ, PhiS_succ, Phi_castSucc_succ]
  have hN : n + 1 < 25 := lt_of_lt_of_eq htv (show cfg0.N = 25 from N_0)
  have hc0 : ¬isFirst (grid0.coords (⟨n + 1, htv⟩ : Fin cfg0.N)) := fun h => absurd ((isFirst_iff ⟨n + 1, htv⟩).mp h) (by simp only; omega)
  have hc1 : isLast (grid0.coords (⟨n + 1, htv⟩ : Fin cfg0.N)) := (isLast_iff ⟨n + 1, htv⟩).mpr (show (n + 1) % 25 = 24 by omega)
  iintro ⟨⟨⟨HS0, HS1, HS2⟩, Hg⟩, Ho, H0, H1, H2, H3, H4, H5⟩
  iapply ((runC c (grid0.coords ⟨n + 1, htv⟩) (ms0 ⟨n + 1, htv⟩) (hs0 ⟨n + 1, htv⟩) (ms1 ⟨n + 1, htv⟩) (hs1 ⟨n + 1, htv⟩) (ms2 ⟨n + 1, htv⟩) (hs2 ⟨n + 1, htv⟩) (ms3 ⟨n + 1, htv⟩) (hs3 ⟨n + 1, htv⟩) (ms4 ⟨n + 1, htv⟩) (hs4 ⟨n + 1, htv⟩) (ms5 ⟨n + 1, htv⟩) (hs5 ⟨n + 1, htv⟩) scZ (Memref.isWhole_whole _) scS (Memref.isWhole_whole _) scQ (Memref.isWhole_whole _) hc0 hc1 (iblk m c 0 ⟨n + 1, htv⟩) (iblk m c 1 ⟨n + 1, htv⟩) (iblk m c 2 ⟨n + 1, htv⟩) (iblk m c 3 ⟨n + 1, htv⟩) (iblk m c 4 ⟨n + 1, htv⟩) y5 (zArr m c) (sArr m c n) (qArr m c n)).2.2.2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, ⟨%es1, HS1⟩, ⟨%es2, HS2⟩⟩
  isplitl [HS0 HS1 HS2 Hg]
  · isplitl [HS0 HS1 HS2]
    · isplitl [HS0]; · iexact HS0
      isplitl [HS1]
      · unfold owns; iexists _; isplitr; swap; · iexact HS1
        ipureintro; exact (runC_s c _ (ms0 ⟨n + 1, htv⟩) (hs0 ⟨n + 1, htv⟩) (ms1 ⟨n + 1, htv⟩) (hs1 ⟨n + 1, htv⟩) (ms2 ⟨n + 1, htv⟩) (hs2 ⟨n + 1, htv⟩) (ms3 ⟨n + 1, htv⟩) (hs3 ⟨n + 1, htv⟩) (ms4 ⟨n + 1, htv⟩) (hs4 ⟨n + 1, htv⟩) (ms5 ⟨n + 1, htv⟩) (hs5 ⟨n + 1, htv⟩) scZ (Memref.isWhole_whole _) scS (Memref.isWhole_whole _) scQ (Memref.isWhole_whole _) hc0 hc1 _ _ _ _ _ _ _ _ _ es1).trans (sArr_succ m c n htv).symm
      unfold owns; iexists _; isplitr; swap; · iexact HS2
      ipureintro; exact (runC_q c _ (ms0 ⟨n + 1, htv⟩) (hs0 ⟨n + 1, htv⟩) (ms1 ⟨n + 1, htv⟩) (hs1 ⟨n + 1, htv⟩) (ms2 ⟨n + 1, htv⟩) (hs2 ⟨n + 1, htv⟩) (ms3 ⟨n + 1, htv⟩) (hs3 ⟨n + 1, htv⟩) (ms4 ⟨n + 1, htv⟩) (hs4 ⟨n + 1, htv⟩) (ms5 ⟨n + 1, htv⟩) (hs5 ⟨n + 1, htv⟩) scZ (Memref.isWhole_whole _) scS (Memref.isWhole_whole _) scQ (Memref.isWhole_whole _) hc0 hc1 _ _ _ _ _ _ _ _ _ es2).trans (qArr_succ m c n htv).symm
    iexact Hg
  isplitl [Ho]; · iexact Ho
  isplitl [H0]
  · iexists _; isplitr; swap; · iexact H0
    ipureintro; exact after_in m c 0 rfl ⟨n + 1, htv⟩ _ _ (after0 m c ⟨n + 1, htv⟩).symm
  isplitl [H1]
  · iexists _; isplitr; swap; · iexact H1
    ipureintro; exact after_in m c 1 rfl ⟨n + 1, htv⟩ _ _ (after1 m c ⟨n + 1, htv⟩).symm
  isplitl [H2]
  · iexists _; isplitr; swap; · iexact H2
    ipureintro; exact after_in m c 2 rfl ⟨n + 1, htv⟩ _ _ (after2 m c ⟨n + 1, htv⟩).symm
  isplitl [H3]
  · iexists _; isplitr; swap; · iexact H3
    ipureintro; exact after_in m c 3 rfl ⟨n + 1, htv⟩ _ _ (after3 m c ⟨n + 1, htv⟩).symm
  isplitl [H4]
  · iexists _; isplitr; swap; · iexact H4
    ipureintro; exact after_in m c 4 rfl ⟨n + 1, htv⟩ _ _ (after4 m c ⟨n + 1, htv⟩).symm
  iexists _; isplitr; swap
  · unfold owns; iexists _; isplitr; swap; · iexact H5
    ipureintro; rfl
  ipureintro
  rw [after_out]
  intro h5
  rw [if_pos (show (⟨n + 1, htv⟩ : Fin cfg0.N).val = 24 from h24)]
  exact (runC_out c _ (ms0 ⟨n + 1, htv⟩) (hs0 ⟨n + 1, htv⟩) (ms1 ⟨n + 1, htv⟩) (hs1 ⟨n + 1, htv⟩) (ms2 ⟨n + 1, htv⟩) (hs2 ⟨n + 1, htv⟩) (ms3 ⟨n + 1, htv⟩) (hs3 ⟨n + 1, htv⟩) (ms4 ⟨n + 1, htv⟩) (hs4 ⟨n + 1, htv⟩) (ms5 ⟨n + 1, htv⟩) (hs5 ⟨n + 1, htv⟩) scZ (Memref.isWhole_whole _) scS (Memref.isWhole_whole _) scQ (Memref.isWhole_whole _) hc0 hc1 _ _ _ _ _ _ _ _ _ (off_eq ⟨n + 1, htv⟩) (yAll (adjAt m c) (zArr m c))
    (fun j p q hj0 hj1 => yAll_in m c ⟨n + 1, htv⟩ j p q hj0 hj1) (fun j hj => yAll_off m c ⟨n + 1, htv⟩ h24 y5 h5 j hj)).trans
    (outArr_at m c ⟨n + 1, htv⟩ n rfl h24).symm

/-- The body at any point. -/
theorem sound_body (c : Dev nD) (t : Fin cfg0.N) (y5 : Vec F S10000x128 .f32) :
    bodyPre m c t y5 ⊢ wp frame (wpE (defs₀ (F := F)) Variants.none c none) Set.univ (bodyAt0 t) (fun _ => bodyPost m c t y5) := by
  obtain ⟨tv, htv⟩ := t
  have hN : tv < 25 := lt_of_lt_of_eq htv (show cfg0.N = 25 from N_0)
  cases tv with
  | zero => exact sound_first m c htv y5
  | succ n =>
    by_cases h : n + 1 = 24
    · exact sound_last m c n htv h y5
    · exact sound_middle m c n htv h y5

/-- The library's body obligation, at every point: the inputs are found at their blocks, and the windows are conjoined
    one by one. -/
theorem body_obligation (c : Dev nD) : (rdat m c).BodyObligation (defs₀ (F := F)) Variants.none () Set.univ := fun t Y hY => by
  rw [bigSep_W0, bigSep_W0]
  obtain ⟨d0, e0⟩ := finds_in m c 0 rfl t (Y 0) (hY 0)
  obtain ⟨d1, e1⟩ := finds_in m c 1 rfl t (Y 1) (hY 1)
  obtain ⟨d2, e2⟩ := finds_in m c 2 rfl t (Y 2) (hY 2)
  obtain ⟨d3, e3⟩ := finds_in m c 3 rfl t (Y 3) (hY 3)
  obtain ⟨d4, e4⟩ := finds_in m c 4 rfl t (Y 4) (hY 4)
  rw [before0] at e0; rw [before1] at e1; rw [before2] at e2; rw [before3] at e3; rw [before4] at e4
  rw [e0, e1, e2, e3, e4]
  exact sound_body m c t (Y 5)

end Cert.KernelIdeal.Hand

end
-- ==== Proof.KFinal.lean ====
/-
  The write-back of the output window at the last point covers the whole result array: afterwards the array holds,
  index by index, what the body left in the staging buffer.
-/
import proofs.«129174_g85255100825815_cont_sun_c4_478_8_alg».proof.Proof.KData
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

open Idealize.ShloMosaic.ValueIdx

/-- The result array after the last point's write-back, read at an index: the staging buffer's contents there,
    whatever the array held before. -/
theorem writeback_apply (c : Dev nD) (G₀ : Buf (Elt F) ((cfg0.win 5).arr.view.loc (c.tc : Thread nD τ)))
    (X : (cfg0.win 5).block.Idx → Elt F (cfg0.win 5).elt) (j : S10000x128.Idx) :
    ((((cfg0.win 5).blk tL).view.write (Elt F) G₀ ((cfg0.win 5).cut (cfg0.grid.coords tL) X) Finset.univ
        : Buf (Elt F) ((cfg0.win 5).arr.view.loc (c.tc : Thread nD τ))) : Vec F S10000x128 .f32) j
      = (X : Vec F S10000x128 .f32) j := by
  -- the block is the whole array at offset zero: an array index is its own block coordinate
  have hi0 : win0_5.index tL (0 : Fin 2) = 0 := rfl
  have hi1 : win0_5.index tL (1 : Fin 2) = 0 := rfl
  have hemb : ((cfg0.win 5).blk tL).view.emb (j : ((cfg0.win 5).xblock (cfg0.grid.coords tL)).Idx) = j := by
    funext a
    apply Fin.ext
    match a with
    | ⟨0, _⟩ =>
      show win0_5.index tL (0 : Fin 2) * 10000 + 1 * (j 0).val = (j 0).val
      rw [hi0]; omega
    | ⟨1, _⟩ =>
      show win0_5.index tL (1 : Fin 2) * 128 + 1 * (j 1).val = (j 1).val
      rw [hi1]; omega
  have h := View.write_emb_of_mem (v := ((cfg0.win 5).blk tL).view) (Val := Elt F) G₀
    ((cfg0.win 5).cut (cfg0.grid.coords tL) X) (Finset.mem_univ (j : ((cfg0.win 5).xblock (cfg0.grid.coords tL)).Idx))
  rw [hemb] at h
  exact h.trans (cast_eq _ _)

/-- The output window's array is the result buffer. -/
theorem arr5_loc (c : Dev nD) : (cfg0.win 5).arr.view.loc (c.tc : Thread nD τ) = (c.tc : Thread nD τ).loc main_v0 := rfl

end Cert.KernelIdeal.Hand

end
-- ==== Proof.KLaunch.lean ====
/-
  The launch: from the body obligation, every weakly fair execution of @main terminates; the argument arrays end
  unchanged, and the result array ends at the kernel's value function of the input blocks.

  The output window is written back once, at the last point: until then the result array holds its entry contents,
  and the one write-back overwrites all of it with what the last point left in the staging buffer.
-/
import proofs.«129174_g85255100825815_cont_sun_c4_478_8_alg».proof.Proof.KBody
import proofs.«129174_g85255100825815_cont_sun_c4_478_8_alg».proof.Proof.KFinal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- What the launch hands the region (every scratch at anything) is the invariant before the first point. -/
theorem hin (c : Dev nD) : Pipeline.ΦA spec0 c ⊢ (rdat m c).Φ 0 := by
  rw [show (rdat m c).Φ 0 = PhiS m c 0 (Nat.zero_le _) from rfl, PhiS_zero m c 0 _ rfl]

/-- After the last point the invariant gives it back: the scratch buffers' named contents are forgotten. -/
theorem hout (c : Dev nD) : (rdat m c).Φ (Fin.last cfg0.N) ⊢ Pipeline.ΦA spec0 c := by
  rw [show (rdat m c).Φ (Fin.last cfg0.N) = PhiS m c (Fin.last cfg0.N).val (Nat.le_of_lt_succ (Fin.last cfg0.N).isLt) from rfl,
    PhiS_pos m c _ _ (by rw [Fin.val_last]; have : cfg0.N = 25 := N_0; omega), PhiA_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

set_option backward.isDefEq.respectTransparency.types false in
/-- Every weakly fair execution of @main terminates, each windowed array at some contents the relations allow after
    every write-back, every other unscoped buffer as the region found it. -/
theorem run_main : θ_run defs (onTc (τ := τ) (main (F := F))) (s₀ m ρ) (Pipeline.RDat.FramePost (cfgs 0) (fun c => rdat m c) (V m)) :=
  Pipeline.RDat.θ_run_frame_track cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := A_eq m) (hin := hin m) (hout := hout m)

/-- No write-back touches the result array before the last point. -/
theorem arrAt5 (c : Dev nD) : ∀ n : ℕ, n ≤ 24 → (rdat m c).ArrAt 5 n = fun G => G = (rdat m c).A 5
  | 0, _ => rfl
  | n + 1, h => by
    have hn : n < cfg0.N := by have : cfg0.N = 25 := N_0; omega
    have e := (rdat m c).ArrAt_succ 5 ⟨n, hn⟩
    rw [if_neg (fun hf => by have := (flush0_5 ⟨n, hn⟩).mp hf; simp only at this; omega)] at e
    exact e.trans (arrAt5 c n (by omega))

/-- After the run the result array holds, index by index, the final array. -/
theorem out_of_post (c : Dev nD) (G : Buf (Elt F) ((cfg0.win 5).arr.view.loc (c.tc : Thread nD τ)))
    (h : (rdat m c).ArrAt 5 cfg0.N G) (j : S10000x128.Idx) : (G : Vec F S10000x128 .f32) j = outArr m c j := by
  have h25 : (rdat m c).ArrAt 5 (tL.val + 1) G := h
  rw [(rdat m c).ArrAt_succ 5 tL, if_pos ((flush0_5 tL).mpr rfl), arrAt5 m c 24 le_rfl] at h25
  obtain ⟨G₀, X, -, hX, rfl⟩ := h25
  rw [writeback_apply c G₀ X j, leaves_out m c X hX]

/-- THE RUN: every weakly fair execution of @main terminates with the result array at the final array, index by
    index, and the five arguments unchanged. -/
theorem run_value : θ_run defs (onTc (τ := τ) (main (F := F))) ⟨m, fun _ => 0, ρ⟩ (fun r => ∀ c : Dev nD,
      (∀ j : S10000x128.Idx, (r.2.mem ((c.tc : Thread nD τ).loc main_v0) : Vec F S10000x128 .f32) j = outArr m c j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨fun j => out_of_post m c _ ((h c).1 5) j,
      (Pipeline.RDat.FramePost.arr_in h c 0 rfl).trans ((A_eq m c 0).trans (V_main_arg0 m c)),
      (Pipeline.RDat.FramePost.arr_in h c 1 rfl).trans ((A_eq m c 1).trans (V_main_arg1 m c)),
      (Pipeline.RDat.FramePost.arr_in h c 2 rfl).trans ((A_eq m c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

/-- THE FRAME: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_value m ρ)

end Cert.KernelIdeal.Hand

end
-- ==== Proof.KBlocks.lean ====
/-
  The input windows' blocks in terms of the launch memory.

  The adjacency block of point t is rows 400·t … 400·t + 399 of the adjacency argument; x and W are the arguments
  themselves at every point; γ and β, reshaped by the host from 128 entries to one row of 128, are the arguments read
  along that row.
-/
import proofs.«129174_g85255100825815_cont_sun_c4_478_8_alg».proof.Proof.KData
import Idealize.ShloMosaic.Lib.Pipeline.Value
import Idealize.ShloMosaic.Lib.ValueIdx
import Idealize.ShloMosaic.Lib.StableHlo.Run
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The adjacency window's block index at point t, decided once over the grid: block row t, block column 0. -/
theorem adj_index : ∀ t : Fin cfg0.N, win0_0.index t (0 : Fin 2) = t.val ∧ win0_0.index t (1 : Fin 2) = 0 :=
  (by decide +kernel : ∀ t : Fin grid0.N, _)

/-- The other four input windows' block index is (0, 0) at every point: their block is the whole array. -/
theorem whole_index : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

theorem adjB_apply (c : Dev nD) (t : Fin cfg0.N) (p : Fin 400) (k : Fin 10000) (r : Fin 10000) (hr : r.val = 400 * t.val + p.val) :
    adjB m c t (ix2 p k) = (m ((c.tc : Thread nD τ).loc main_arg0) : Vec F S10000x10000 .f32) (ix2 r k) := by
  obtain ⟨e0, e1⟩ := adj_index t
  show ((cfg0.win 0).blk t).view.read (Elt F) (V m c main_arg0) (ix2 p k) = _
  rw [V_main_arg0]
  -- a block read at an index is the array at that index embedded: block index × block size + the coordinate inside
  show (m ((c.tc : Thread nD τ).loc main_arg0) : Vec F S10000x10000 .f32) (((cfg0.win 0).blk t).view.emb (ix2 p k)) = _
  refine congrArg (m ((c.tc : Thread nD τ).loc main_arg0) : Vec F S10000x10000 .f32) ?_
  funext a; apply Fin.ext
  match a with
  | ⟨0, _⟩ => show win0_0.index t (0 : Fin 2) * 400 + 1 * p.val = r.val; omega
  | ⟨1, _⟩ => show win0_0.index t (1 : Fin 2) * 10000 + 1 * k.val = k.val; omega

theorem xB_apply (c : Dev nD) (t : Fin cfg0.N) (k : Fin 10000) (l : Fin 128) :
    xB m c t (ix2 k l) = (m ((c.tc : Thread nD τ).loc main_arg1) : Vec F S10000x128 .f32) (ix2 k l) := by
  obtain ⟨⟨e0, e1⟩, -, -, -⟩ := whole_index t
  show ((cfg0.win 1).blk t).view.read (Elt F) (V m c main_arg1) (ix2 k l) = _
  rw [V_main_arg1]
  show (m ((c.tc : Thread nD τ).loc main_arg1) : Vec F S10000x128 .f32) (((cfg0.win 1).blk t).view.emb (ix2 k l)) = _
  refine congrArg (m ((c.tc : Thread nD τ).loc main_arg1) : Vec F S10000x128 .f32) ?_
  funext a; apply Fin.ext
  match a with
  | ⟨0, _⟩ => show win0_1.index t (0 : Fin 2) * 10000 + 1 * k.val = k.val; omega
  | ⟨1, _⟩ => show win0_1.index t (1 : Fin 2) * 128 + 1 * l.val = l.val; omega

theorem wB_apply (c : Dev nD) (t : Fin cfg0.N) (l : Fin 128) (q : Fin 128) :
    wB m c t (ix2 l q) = (m ((c.tc : Thread nD τ).loc main_arg2) : Vec F S128x128 .f32) (ix2 l q) := by
  obtain ⟨-, ⟨e0, e1⟩, -, -⟩ := whole_index t
  show ((cfg0.win 2).blk t).view.read (Elt F) (V m c main_arg2) (ix2 l q) = _
  rw [V_main_arg2]
  show (m ((c.tc : Thread nD τ).loc main_arg2) : Vec F S128x128 .f32) (((cfg0.win 2).blk t).view.emb (ix2 l q)) = _
  refine congrArg (m ((c.tc : Thread nD τ).loc main_arg2) : Vec F S128x128 .f32) ?_
  funext a; apply Fin.ext
  match a with
  | ⟨0, _⟩ => show win0_2.index t (0 : Fin 2) * 128 + 1 * l.val = l.val; omega
  | ⟨1, _⟩ => show win0_2.index t (1 : Fin 2) * 128 + 1 * q.val = q.val; omega

theorem gB_apply (c : Dev nD) (t : Fin cfg0.N) (q : Fin 128) :
    gB m c t (ix2 (0 : Fin 1) q) = (m ((c.tc : Thread nD τ).loc main_arg3) : Vec F S128 .f32) (ix1 q) := by
  obtain ⟨-, -, ⟨e0, e1⟩, -⟩ := whole_index t
  -- the host's reshape wrote this window's array before the region: γ along one row of 128
  have e : (V m c main_call0_v0 : S1x128.Idx → Elt F .f32)
      = shapeCast S1x128 (m ((c.tc : Thread nD τ).loc main_arg3) : Vec F S128 .f32) shapeCasts_S128_S1x128 := by
    dsimp only [Gen.V, Gen.hostOps0]; after_results; rfl
  show (V m c main_call0_v0 : S1x128.Idx → Elt F .f32) (((cfg0.win 3).blk t).view.emb (ix2 (0 : Fin 1) q)) = _
  have hi : ((cfg0.win 3).blk t).view.emb (ix2 (0 : Fin 1) q) = ix2 (0 : Fin 1) q := by
    funext a; apply Fin.ext
    match a with
    | ⟨0, _⟩ => show win0_3.index t (0 : Fin 2) * 1 + 1 * (0 : Fin 1).val = (0 : Fin 1).val; omega
    | ⟨1, _⟩ => show win0_3.index t (1 : Fin 2) * 128 + 1 * q.val = q.val; omega
  rw [hi, e]
  exact shapeCast_a_1a_apply _ _ (0 : Fin 1) q

theorem bB_apply (c : Dev nD) (t : Fin cfg0.N) (q : Fin 128) :
    bB m c t (ix2 (0 : Fin 1) q) = (m ((c.tc : Thread nD τ).loc main_arg4) : Vec F S128 .f32) (ix1 q) := by
  obtain ⟨-, -, -, ⟨e0, e1⟩⟩ := whole_index t
  -- the host's reshape wrote this window's array before the region: β along one row of 128
  have e : (V m c main_call0_v1 : S1x128.Idx → Elt F .f32)
      = shapeCast S1x128 (m ((c.tc : Thread nD τ).loc main_arg4) : Vec F S128 .f32) shapeCasts_S128_S1x128 := by
    dsimp only [Gen.V, Gen.hostOps0]; after_results; rfl
  show (V m c main_call0_v1 : S1x128.Idx → Elt F .f32) (((cfg0.win 4).blk t).view.emb (ix2 (0 : Fin 1) q)) = _
  have hi : ((cfg0.win 4).blk t).view.emb (ix2 (0 : Fin 1) q) = ix2 (0 : Fin 1) q := by
    funext a; apply Fin.ext
    match a with
    | ⟨0, _⟩ => show win0_4.index t (0 : Fin 2) * 1 + 1 * (0 : Fin 1).val = (0 : Fin 1).val; omega
    | ⟨1, _⟩ => show win0_4.index t (1 : Fin 2) * 128 + 1 * q.val = q.val; omega
  rw [hi, e]
  exact shapeCast_a_1a_apply _ _ (0 : Fin 1) q

end Cert.KernelIdeal.Hand

end
-- ==== Proof.Spec.lean ====
/-
  The mathematics of the layer, over the reals.

  z = x·W, y = adj·z, then per output feature q the batch statistics of column q of y and the affine map
  followed by the positive part. Two arrangements are stated. The accumulating one takes the column sum and the
  column sum of squares block of rows by block of rows (25 blocks of 400 rows), forms the variance as
  E[y²] − (E[y])² cut off below at zero, and applies y·scale + shift with scale = γ/√(var+ε), shift = β − mean·scale.
  The direct one takes the mean, then the mean of the squared deviations, and applies γ·((y − mean)/√(var+ε)) + β.
  Over the reals they agree: the cut-off is idle because E[y²] − (E[y])² is the mean squared deviation, which is
  nonnegative, and the two affine forms differ by distributing γ/√(var+ε) over y − mean.
-/
import Idealize.ShloMosaic.PureOps.Ideal
import Idealize.ShloMosaic.Lib.ValueIdx

noncomputable section

open scoped BigOperators
open Idealize.ShloMosaic

namespace Cert.Gcn

variable (a : Fin 10000 → Fin 10000 → ℝ) (x : Fin 10000 → Fin 128 → ℝ) (w : Fin 128 → Fin 128 → ℝ) (g b : Fin 128 → ℝ)

/-- z = x·W. -/
def zR (k : Fin 10000) (q : Fin 128) : ℝ := ∑ l : Fin 128, x k l * w l q
/-- y = adj·z. -/
def yR (r : Fin 10000) (q : Fin 128) : ℝ := ∑ k : Fin 10000, a r k * zR x w k q
/-- Row p of block t of the 25 blocks of 400 rows. -/
def rowOf (t : Fin 25) (p : Fin 400) : Fin 10000 := ⟨400 * t.val + p.val, by have := t.isLt; have := p.isLt; omega⟩
/-- The real number the word 0x3727C5AC denotes (the f32 nearest 1e-5). -/
def epsR : ℝ := EReal.toReal (Ideal.ofBits .f32 0x3727C5AC#32)

/-! ### The accumulating arrangement -/
def sumK (q : Fin 128) : ℝ := ∑ t : Fin 25, ∑ p : Fin 400, yR a x w (rowOf t p) q
def sqK (q : Fin 128) : ℝ := ∑ t : Fin 25, ∑ p : Fin 400, yR a x w (rowOf t p) q * yR a x w (rowOf t p) q
def meanK (q : Fin 128) : ℝ := sumK a x w q / 10000
def varK (q : Fin 128) : ℝ := max (sqK a x w q / 10000 - meanK a x w q * meanK a x w q) 0
def scaleK (q : Fin 128) : ℝ := g q * (Real.sqrt (varK a x w q + epsR))⁻¹
def shiftK (q : Fin 128) : ℝ := b q - meanK a x w q * scaleK a x w g q
def outK (r : Fin 10000) (q : Fin 128) : ℝ := max (yR a x w r q * scaleK a x w g q + shiftK a x w g b q) 0

/-! ### The direct arrangement -/
def meanF (q : Fin 128) : ℝ := (∑ i : Fin 10000, yR a x w i q) / 10000
def varF (q : Fin 128) : ℝ :=
  (∑ i : Fin 10000, (yR a x w i q - meanF a x w q) * (yR a x w i q - meanF a x w q)) / 10000
def outF (r : Fin 10000) (q : Fin 128) : ℝ :=
  max (g q * ((yR a x w r q - meanF a x w q) / Real.sqrt (varF a x w q + epsR)) + b q) 0

/-! ### The constants -/
/-- The word 0x3727C5AC has sign bit 0, exponent field 110 and fraction field 2606508, so it denotes
    (2^23 + 2606508) · 2^(110 − 127 − 23) = 10995116 · 2^(−40). -/
theorem epsE_val : Ideal.ofBits .f32 0x3727C5AC#32 = (((10995116 : ℝ) * (2 : ℝ) ^ (-40 : ℤ) : ℝ) : EReal) := by
  simp [Ideal.ofBits, Ideal.ieee, -EReal.coe_mul]
/-- The word 0x3727C5AC denotes a real number, -/
theorem epsE_eq : Ideal.ofBits .f32 0x3727C5AC#32 = ((epsR : ℝ) : EReal) := by
  rw [epsR, epsE_val, EReal.toReal_coe]
/-- a positive one. -/
theorem epsR_pos : 0 < epsR := by
  rw [epsR, epsE_val, EReal.toReal_coe]; positivity
/-- The word 0x461C4000 denotes 10000. -/
theorem nE_eq : Ideal.ofBits .f32 0x461C4000#32 = ((10000 : ℝ) : EReal) := by
  simp [Ideal.ofBits, Ideal.ieee, -EReal.coe_mul]; norm_num
/-- The zero word denotes 0. -/
theorem zeroE_eq : Ideal.ofBits .f32 0x00000000#32 = ((0 : ℝ) : EReal) := by
  simp [Ideal.ofBits, Ideal.ieee]

/-! ### The extended-real operations on real numbers -/
theorem div_coe_coe (p q : ℝ) (hq : q ≠ 0) : Ideal.div (p : EReal) (q : EReal) = ((p / q : ℝ) : EReal) := by
  rw [Ideal.div, if_neg (by exact_mod_cast hq), ← EReal.coe_inv, ← EReal.coe_mul, div_eq_mul_inv]
theorem sqrt_coe (p : ℝ) (hp : 0 ≤ p) : Ideal.sqrt (p : EReal) = ((Real.sqrt p : ℝ) : EReal) := by
  rw [Ideal.sqrt_coe, if_neg (not_lt.mpr hp)]
theorem rsqrt_coe (p : ℝ) (hp : 0 < p) : Ideal.rsqrt (p : EReal) = (((Real.sqrt p)⁻¹ : ℝ) : EReal) := by
  rw [Ideal.rsqrt_coe, if_neg (not_lt.mpr hp.le), if_neg hp.ne']
theorem coe_sum {ι : Type} (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-! ### Positivity under the square roots -/
theorem varK_nonneg (q : Fin 128) : 0 ≤ varK a x w q := le_max_right _ _
theorem varF_nonneg (q : Fin 128) : 0 ≤ varF a x w q :=
  div_nonneg (Finset.sum_nonneg fun i _ => mul_self_nonneg _) (by norm_num)

/-! ### The two arrangements agree -/
/-- Summing block by block is summing over all rows: (t, p) ↦ 400·t + p is a bijection of
    Fin 25 × Fin 400 with Fin 10000. -/
theorem sum_blocks (f : Fin 10000 → ℝ) :
    ∑ t : Fin 25, ∑ p : Fin 400, f (rowOf t p) = ∑ i : Fin 10000, f i := by
  rw [← Fintype.sum_prod_type']
  refine Fintype.sum_equiv (finProdFinEquiv (m := 25) (n := 400)) _ _ ?_
  rintro ⟨t, p⟩
  congr 1
  apply Fin.ext
  simp only [rowOf, finProdFinEquiv_apply_val]
  omega

theorem sumK_eq (q : Fin 128) : sumK a x w q = ∑ i : Fin 10000, yR a x w i q :=
  sum_blocks (fun i => yR a x w i q)
theorem sqK_eq (q : Fin 128) : sqK a x w q = ∑ i : Fin 10000, yR a x w i q * yR a x w i q :=
  sum_blocks (fun i => yR a x w i q * yR a x w i q)

theorem meanK_eq_meanF (q : Fin 128) : meanK a x w q = meanF a x w q := by
  rw [meanK, meanF, sumK_eq]

/-- The mean squared deviation is the mean square less the squared mean:
    Σ(y − μ)² = Σy² − 2μ·Σy + n·μ², and Σy = n·μ. -/
theorem varF_eq_sq_sub (q : Fin 128) :
    varF a x w q = (∑ i : Fin 10000, yR a x w i q * yR a x w i q) / 10000 - meanF a x w q * meanF a x w q := by
  have hS : ∑ i : Fin 10000, yR a x w i q = 10000 * meanF a x w q := by
    rw [meanF]; ring
  have hexp : ∀ i : Fin 10000, (yR a x w i q - meanF a x w q) * (yR a x w i q - meanF a x w q)
      = yR a x w i q * yR a x w i q - 2 * meanF a x w q * yR a x w i q + meanF a x w q * meanF a x w q :=
    fun i => by ring
  rw [varF, Finset.sum_congr rfl (fun i _ => hexp i), Finset.sum_add_distrib, Finset.sum_sub_distrib,
    ← Finset.mul_sum, hS, Finset.sum_const, Finset.card_univ, Fintype.card_fin, nsmul_eq_mul]
  push_cast
  ring

theorem varK_eq_varF (q : Fin 128) : varK a x w q = varF a x w q := by
  rw [varK, sqK_eq, meanK_eq_meanF, ← varF_eq_sq_sub]
  exact max_eq_left (varF_nonneg a x w q)

theorem outK_eq_outF (r : Fin 10000) (q : Fin 128) : outK a x w g b r q = outF a x w g b r q := by
  rw [outK, outF, shiftK, scaleK, varK_eq_varF, meanK_eq_meanF, div_eq_mul_inv]
  congr 1
  ring

end Cert.Gcn

end
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.KValue.lean ====
/-
  The kernel's output array on real inputs, index by index.
-/
import proofs.«129174_g85255100825815_cont_sun_c4_478_8_alg».proof.Proof.KFun
import proofs.«129174_g85255100825815_cont_sun_c4_478_8_alg».proof.Proof.Spec
import proofs.«129174_g85255100825815_cont_sun_c4_478_8_alg».proof.Proof.LibPlainDot
import Idealize.ShloMosaic.PureOps.Ideal.Laws
import Idealize.ShloMosaic.Lib.Pipeline.Value
import Idealize.ShloMosaic.Lib.ValueLayout

set_option maxRecDepth 16384

noncomputable section

open scoped BigOperators

namespace Cert.KernelIdeal.HandValue

open Idealize.ShloMosaic Idealize.ShloMosaic.ValueIdx Cert.KernelIdeal Cert.KernelIdeal.Gen Cert.KernelIdeal.Hand

/-! ### The two matrix products contract one axis, rows against columns -/

theorem plain_xw : PlainDot.IsPlain (M := 10000) (K := 128) (N := 128) dot_S10000x128_S128x128_S10000x128_1_0_0_1_n_n :=
  ⟨rfl, rfl, rfl, rfl, rfl, rfl⟩

theorem plain_az : PlainDot.IsPlain (M := 400) (K := 10000) (N := 128) dot_S400x10000_S10000x128_S400x128_1_0_0_1_n_n :=
  ⟨rfl, rfl, rfl, rfl, rfl, rfl⟩

/-! ### Each payload read at an index -/

/-- z at (k, q): the sum over l of x (k, l) · W (l, q). -/
theorem pay1_apply (x : Vec Ideal S10000x128 .f32) (w : Vec Ideal S128x128 .f32) (k : Fin 10000) (q : Fin 128) :
    k0_pay1 (F := Ideal) x w (ix2 k q) = ∑ l : Fin 128, x (ix2 k l) * w (ix2 l q) := by
  unfold k0_pay1
  simp only [shapeCast_self]
  exact PlainDot.matmul_zero_plain (M := 10000) (K := 128) (N := 128) _ plain_xw none x w k q

/-- A block of y at (p, q): the sum over k of the block's (p, k) · z (k, q). -/
theorem pay4_apply (a : Vec Ideal S400x10000 .f32) (z : Vec Ideal S10000x128 .f32) (p : Fin 400) (q : Fin 128) :
    k0_pay4 (F := Ideal) a z (ix2 p q) = ∑ k : Fin 10000, a (ix2 p k) * z (ix2 k q) := by
  unfold k0_pay4
  exact PlainDot.matmul_zero_plain (M := 400) (K := 10000) (N := 128) _ plain_az none a z p q

/-- The initial column sums are zero. -/
theorem pay2_apply (q : Fin 128) : k0_pay2 (F := Ideal) (ix2 (0 : Fin 1) q) = 0 := by
  unfold k0_pay2
  simp only [shapeCast_self]
  exact Ideal.ofBits_zero_f32

/-- The initial column sums of squares are zero. -/
theorem pay3_apply (q : Fin 128) : k0_pay3 (F := Ideal) (ix2 (0 : Fin 1) q) = 0 := by
  unfold k0_pay3
  simp only [shapeCast_self]
  exact Ideal.ofBits_zero_f32

/-- The reduced index (q) with the row p put back on the dropped axis is (p, q). -/
theorem lift_rows (h : S400x128.Reduces [0] S128) (q : Fin 128) (p : Fin 400) :
    h.lift (ix1 q) p = ix2 p q := by
  funext a
  match a with
  | ⟨0, _⟩ => exact Fin.ext rfl
  | ⟨1, _⟩ => exact Fin.ext rfl

/-- The column sums of a 400×128 array, kept as one row, at (0, q): the sum over the 400 rows. -/
theorem colsum_apply (v : Vec Ideal S400x128 .f32) (h : S400x128.Reduces [0] S128) (hc : S128.ShapeCasts S1x128)
    (hφ : FKind.Formats .f32) (hacc : (0x00000000#32 : BitVec 32) = FKind.add.neutral .f32 hφ) (q : Fin 128) :
    shapeCast S1x128 (multiReduction (F := Ideal) .add [0] S128 v 0x00000000#32 h hφ hacc) hc (ix2 (0 : Fin 1) q)
      = ∑ p : Fin 400, v (ix2 p q) := by
  rw [shapeCast_a_1a_apply, Ideal.multiReduction_add_single]
  exact Finset.sum_congr rfl fun p _ => congrArg v (lift_rows h q p)

/-- The column sums after one more block, at (0, q). -/
theorem pay5_apply (a : Vec Ideal S400x10000 .f32) (z : Vec Ideal S10000x128 .f32) (s : Vec Ideal S1x128 .f32) (q : Fin 128) :
    k0_pay5 (F := Ideal) a z s (ix2 (0 : Fin 1) q) = s (ix2 (0 : Fin 1) q) + ∑ p : Fin 400, k0_pay4 (F := Ideal) a z (ix2 p q) := by
  unfold k0_pay5
  simp only [shapeCast_self]
  rw [addf_apply]
  exact congrArg (s (ix2 (0 : Fin 1) q) + ·) (colsum_apply (k0_pay4 (F := Ideal) a z) _ _ _ _ q)

/-- The column sums of squares after one more block, at (0, q). -/
theorem pay6_apply (a : Vec Ideal S400x10000 .f32) (z : Vec Ideal S10000x128 .f32) (s : Vec Ideal S1x128 .f32) (q : Fin 128) :
    k0_pay6 (F := Ideal) a z s (ix2 (0 : Fin 1) q)
      = s (ix2 (0 : Fin 1) q) + ∑ p : Fin 400, k0_pay4 (F := Ideal) a z (ix2 p q) * k0_pay4 (F := Ideal) a z (ix2 p q) := by
  unfold k0_pay6
  simp only [shapeCast_self]
  rw [addf_apply]
  exact congrArg (s (ix2 (0 : Fin 1) q) + ·)
    (colsum_apply (mulf (k0_pay4 (F := Ideal) a z) (k0_pay4 (F := Ideal) a z)) _ _ _ _ q)

/-- The reciprocal square root read at an index. -/
theorem rsqrt_apply {s : Shape} {φ : FTy} (a : FVec Ideal s φ) (i : s.Idx) : rsqrt a i = Ideal.rsqrt (a i) := rfl

/-- The mean of a column from its sum: the sum divided by the number the word 0x461C4000 denotes. -/
def meanE (s : EReal) : EReal := Ideal.div s (Ideal.ofBits .f32 0x461C4000#32)

/-- The scale of a column from its sum, its sum of squares and γ: γ over the square root of the variance, cut off below
    at the zero word's value, plus the number the word 0x3727C5AC denotes. -/
def scaleE (s ss g : EReal) : EReal :=
  g * Ideal.rsqrt (max (Ideal.div ss (Ideal.ofBits .f32 0x461C4000#32) - meanE s * meanE s) (Ideal.ofBits .f32 0x00000000#32)
    + Ideal.ofBits .f32 0x3727C5AC#32)

/-- The final normalisation at (r, q): y (r, q) · scale + (β − mean · scale), cut off below at the zero word's value,
    the scale and the mean being those of column q. -/
theorem pay7_apply (s ss g b : Vec Ideal S1x128 .f32) (y : Vec Ideal S10000x128 .f32) (r : Fin 10000) (q : Fin 128) :
    k0_pay7 (F := Ideal) s ss g b y (ix2 r q)
      = max (y (ix2 r q) * scaleE (s (ix2 (0 : Fin 1) q)) (ss (ix2 (0 : Fin 1) q)) (g (ix2 (0 : Fin 1) q))
          + (b (ix2 (0 : Fin 1) q)
              - meanE (s (ix2 (0 : Fin 1) q)) * scaleE (s (ix2 (0 : Fin 1) q)) (ss (ix2 (0 : Fin 1) q)) (g (ix2 (0 : Fin 1) q))))
          (Ideal.ofBits .f32 0x00000000#32) := by
  unfold k0_pay7
  simp only [shapeCast_self]
  rw [maximumf_apply, addf_apply, mulf_apply, broadcastTo_1b_ab_apply, broadcastTo_1b_ab_apply]
  rfl

/-! ### Real inputs give real values -/

/-- The coercion of the reals into the extended reals keeps maxima. -/
theorem coe_max (p q : ℝ) : ((max p q : ℝ) : EReal) = max (p : EReal) (q : EReal) :=
  EReal.coe_strictMono.monotone.map_max

/-- The mean of a real column sum. -/
theorem meanE_coe (s : ℝ) : meanE (s : EReal) = ((s / 10000 : ℝ) : EReal) := by
  unfold meanE
  rw [Cert.Gcn.nE_eq]
  exact Cert.Gcn.div_coe_coe s 10000 (by norm_num)

/-- The scale from real sums and a real γ. -/
theorem scaleE_coe (s ss g : ℝ) :
    scaleE (s : EReal) (ss : EReal) (g : EReal)
      = ((g * (Real.sqrt (max (ss / 10000 - s / 10000 * (s / 10000)) 0 + Cert.Gcn.epsR))⁻¹ : ℝ) : EReal) := by
  have hpos : 0 < max (ss / 10000 - s / 10000 * (s / 10000)) 0 + Cert.Gcn.epsR :=
    add_pos_of_nonneg_of_pos (le_max_right _ _) Cert.Gcn.epsR_pos
  unfold scaleE
  rw [meanE_coe, Cert.Gcn.nE_eq, Cert.Gcn.div_coe_coe ss 10000 (by norm_num), Cert.Gcn.zeroE_eq, Cert.Gcn.epsE_eq,
    ← EReal.coe_mul, ← EReal.coe_sub, ← coe_max, ← EReal.coe_add, Cert.Gcn.rsqrt_coe _ hpos, ← EReal.coe_mul]

/-- A product of real matrices, entry by entry: real operands give the real sum of products. -/
theorem pay1_coe (xR : Fin 10000 → Fin 128 → ℝ) (wR : Fin 128 → Fin 128 → ℝ)
    (x : Vec Ideal S10000x128 .f32) (w : Vec Ideal S128x128 .f32)
    (hx : ∀ (k : Fin 10000) (l : Fin 128), x (ix2 k l) = ((xR k l : ℝ) : EReal))
    (hw : ∀ (l : Fin 128) (q : Fin 128), w (ix2 l q) = ((wR l q : ℝ) : EReal)) (k : Fin 10000) (q : Fin 128) :
    k0_pay1 (F := Ideal) x w (ix2 k q) = ((Cert.Gcn.zR xR wR k q : ℝ) : EReal) := by
  rw [pay1_apply]
  simp only [hx, hw, ← EReal.coe_mul]
  exact Cert.Gcn.coe_sum _ _

/-- A block of y from a real block of the adjacency and a real z. -/
theorem pay4_coe (aB : Fin 400 → Fin 10000 → ℝ) (zB : Fin 10000 → Fin 128 → ℝ)
    (a : Vec Ideal S400x10000 .f32) (z : Vec Ideal S10000x128 .f32)
    (ha : ∀ (p : Fin 400) (k : Fin 10000), a (ix2 p k) = ((aB p k : ℝ) : EReal))
    (hz : ∀ (k : Fin 10000) (q : Fin 128), z (ix2 k q) = ((zB k q : ℝ) : EReal)) (p : Fin 400) (q : Fin 128) :
    k0_pay4 (F := Ideal) a z (ix2 p q) = ((∑ k : Fin 10000, aB p k * zB k q : ℝ) : EReal) := by
  rw [pay4_apply]
  simp only [ha, hz, ← EReal.coe_mul]
  exact Cert.Gcn.coe_sum _ _

/-- The column sums after point n, when the blocks up to point N are real: the real sum over the points up to n and
    the 400 rows of each. -/
theorem sAt_coe (A : ℕ → Vec Ideal S400x10000 .f32) (z : Vec Ideal S10000x128 .f32) (Y : ℕ → Fin 400 → Fin 128 → ℝ) (N : ℕ)
    (hY : ∀ t, t ≤ N → ∀ (p : Fin 400) (q : Fin 128), k0_pay4 (F := Ideal) (A t) z (ix2 p q) = ((Y t p q : ℝ) : EReal)) :
    ∀ n, n ≤ N → ∀ q : Fin 128,
      sAt (F := Ideal) A z n (ix2 (0 : Fin 1) q) = ((∑ t ∈ Finset.range (n + 1), ∑ p : Fin 400, Y t p q : ℝ) : EReal) := by
  intro n
  induction n with
  | zero =>
    intro hn q
    show k0_pay5 (F := Ideal) (A 0) z (k0_pay2 (F := Ideal)) (ix2 (0 : Fin 1) q) = _
    rw [pay5_apply, pay2_apply, zero_add, Finset.sum_range_one]
    simp only [hY 0 hn]
    exact Cert.Gcn.coe_sum _ _
  | succ n ih =>
    intro hn q
    show k0_pay5 (F := Ideal) (A (n + 1)) z (sAt (F := Ideal) A z n) (ix2 (0 : Fin 1) q) = _
    rw [pay5_apply, ih (Nat.le_of_succ_le hn) q, Finset.sum_range_succ _ (n + 1), EReal.coe_add]
    refine congrArg (_ + ·) ?_
    simp only [hY (n + 1) hn]
    exact Cert.Gcn.coe_sum _ _

/-- The column sums of squares after point n, likewise. -/
theorem ssAt_coe (A : ℕ → Vec Ideal S400x10000 .f32) (z : Vec Ideal S10000x128 .f32) (Y : ℕ → Fin 400 → Fin 128 → ℝ) (N : ℕ)
    (hY : ∀ t, t ≤ N → ∀ (p : Fin 400) (q : Fin 128), k0_pay4 (F := Ideal) (A t) z (ix2 p q) = ((Y t p q : ℝ) : EReal)) :
    ∀ n, n ≤ N → ∀ q : Fin 128,
      ssAt (F := Ideal) A z n (ix2 (0 : Fin 1) q)
        = ((∑ t ∈ Finset.range (n + 1), ∑ p : Fin 400, Y t p q * Y t p q : ℝ) : EReal) := by
  intro n
  induction n with
  | zero =>
    intro hn q
    show k0_pay6 (F := Ideal) (A 0) z (k0_pay3 (F := Ideal)) (ix2 (0 : Fin 1) q) = _
    rw [pay6_apply, pay3_apply, zero_add, Finset.sum_range_one]
    simp only [hY 0 hn, ← EReal.coe_mul]
    exact Cert.Gcn.coe_sum _ _
  | succ n ih =>
    intro hn q
    show k0_pay6 (F := Ideal) (A (n + 1)) z (ssAt (F := Ideal) A z n) (ix2 (0 : Fin 1) q) = _
    rw [pay6_apply, ih (Nat.le_of_succ_le hn) q, Finset.sum_range_succ _ (n + 1), EReal.coe_add]
    refine congrArg (_ + ·) ?_
    simp only [hY (n + 1) hn, ← EReal.coe_mul]
    exact Cert.Gcn.coe_sum _ _

/-! ### The 25 blocks of rows -/

/-- Row p of block t of y over the reals, for every natural t (zero past the last block). -/
def yBlk (aR : Fin 10000 → Fin 10000 → ℝ) (xR : Fin 10000 → Fin 128 → ℝ) (wR : Fin 128 → Fin 128 → ℝ)
    (t : ℕ) (p : Fin 400) (q : Fin 128) : ℝ :=
  if h : t < 25 then Cert.Gcn.yR aR xR wR (Cert.Gcn.rowOf ⟨t, h⟩ p) q else 0

/-- Block t of y, computed from block t of the adjacency and z. -/
theorem pay4_block (aR : Fin 10000 → Fin 10000 → ℝ) (xR : Fin 10000 → Fin 128 → ℝ) (wR : Fin 128 → Fin 128 → ℝ)
    (A : ℕ → Vec Ideal S400x10000 .f32) (z : Vec Ideal S10000x128 .f32)
    (hA : ∀ (t : Fin 25) (p : Fin 400) (k : Fin 10000), A t.val (ix2 p k) = ((aR (Cert.Gcn.rowOf t p) k : ℝ) : EReal))
    (hz : ∀ (k : Fin 10000) (q : Fin 128), z (ix2 k q) = ((Cert.Gcn.zR xR wR k q : ℝ) : EReal))
    (t : Fin 25) (p : Fin 400) (q : Fin 128) :
    k0_pay4 (F := Ideal) (A t.val) z (ix2 p q) = ((Cert.Gcn.yR aR xR wR (Cert.Gcn.rowOf t p) q : ℝ) : EReal) :=
  pay4_coe (fun p k => aR (Cert.Gcn.rowOf t p) k) (Cert.Gcn.zR xR wR) (A t.val) z (hA t) hz p q

/-- The same for a natural t up to 24. -/
theorem pay4_yBlk (aR : Fin 10000 → Fin 10000 → ℝ) (xR : Fin 10000 → Fin 128 → ℝ) (wR : Fin 128 → Fin 128 → ℝ)
    (A : ℕ → Vec Ideal S400x10000 .f32) (z : Vec Ideal S10000x128 .f32)
    (hA : ∀ (t : Fin 25) (p : Fin 400) (k : Fin 10000), A t.val (ix2 p k) = ((aR (Cert.Gcn.rowOf t p) k : ℝ) : EReal))
    (hz : ∀ (k : Fin 10000) (q : Fin 128), z (ix2 k q) = ((Cert.Gcn.zR xR wR k q : ℝ) : EReal))
    (t : ℕ) (ht : t ≤ 24) (p : Fin 400) (q : Fin 128) :
    k0_pay4 (F := Ideal) (A t) z (ix2 p q) = ((yBlk aR xR wR t p q : ℝ) : EReal) := by
  have h : t < 25 := Nat.lt_succ_of_le ht
  unfold yBlk
  rw [dif_pos h]
  exact pay4_block aR xR wR A z hA hz ⟨t, h⟩ p q

/-- The sum over the 25 blocks and their rows is the accumulated column sum. -/
theorem sum_yBlk (aR : Fin 10000 → Fin 10000 → ℝ) (xR : Fin 10000 → Fin 128 → ℝ) (wR : Fin 128 → Fin 128 → ℝ) (q : Fin 128) :
    ∑ t ∈ Finset.range (24 + 1), ∑ p : Fin 400, yBlk aR xR wR t p q = Cert.Gcn.sumK aR xR wR q := by
  unfold Cert.Gcn.sumK
  rw [Finset.sum_range]
  refine Finset.sum_congr rfl fun t _ => Finset.sum_congr rfl fun p _ => ?_
  unfold yBlk
  rw [dif_pos t.isLt]

/-- The sum of squares over the 25 blocks and their rows is the accumulated column sum of squares. -/
theorem sum_sq_yBlk (aR : Fin 10000 → Fin 10000 → ℝ) (xR : Fin 10000 → Fin 128 → ℝ) (wR : Fin 128 → Fin 128 → ℝ) (q : Fin 128) :
    ∑ t ∈ Finset.range (24 + 1), ∑ p : Fin 400, yBlk aR xR wR t p q * yBlk aR xR wR t p q = Cert.Gcn.sqK aR xR wR q := by
  unfold Cert.Gcn.sqK
  rw [Finset.sum_range]
  refine Finset.sum_congr rfl fun t _ => Finset.sum_congr rfl fun p _ => ?_
  unfold yBlk
  rw [dif_pos t.isLt]

/-- All of y at (r, q): row r is row r % 400 of block r / 400. -/
theorem yAll_coe (aR : Fin 10000 → Fin 10000 → ℝ) (xR : Fin 10000 → Fin 128 → ℝ) (wR : Fin 128 → Fin 128 → ℝ)
    (A : ℕ → Vec Ideal S400x10000 .f32) (z : Vec Ideal S10000x128 .f32)
    (hA : ∀ (t : Fin 25) (p : Fin 400) (k : Fin 10000), A t.val (ix2 p k) = ((aR (Cert.Gcn.rowOf t p) k : ℝ) : EReal))
    (hz : ∀ (k : Fin 10000) (q : Fin 128), z (ix2 k q) = ((Cert.Gcn.zR xR wR k q : ℝ) : EReal))
    (r : Fin 10000) (q : Fin 128) :
    yAll (F := Ideal) A z (ix2 r q) = ((Cert.Gcn.yR aR xR wR r q : ℝ) : EReal) := by
  have hr : r.val / 400 < 25 := by have := r.isLt; omega
  have hrow : Cert.Gcn.rowOf ⟨r.val / 400, hr⟩ ⟨r.val % 400, Nat.mod_lt _ (by decide)⟩ = r :=
    Fin.ext (Nat.div_add_mod r.val 400)
  have h := pay4_block aR xR wR A z hA hz ⟨r.val / 400, hr⟩ ⟨r.val % 400, Nat.mod_lt _ (by decide)⟩ q
  rw [hrow] at h
  exact h

/-! ### The output -/
/-- On adjacency blocks, x, W, γ and β whose entries are real numbers, the array the kernel leaves is, entry by
    entry, the accumulating arrangement of the layer over the reals. -/
theorem finalOut_coe (aR : Fin 10000 → Fin 10000 → ℝ) (xR : Fin 10000 → Fin 128 → ℝ) (wR : Fin 128 → Fin 128 → ℝ)
    (gR bR : Fin 128 → ℝ)
    (A : ℕ → Vec Ideal S400x10000 .f32) (x : Vec Ideal S10000x128 .f32) (w : Vec Ideal S128x128 .f32)
    (g b : Vec Ideal S1x128 .f32)
    (hA : ∀ (t : Fin 25) (p : Fin 400) (k : Fin 10000), A t.val (ix2 p k) = ((aR (Cert.Gcn.rowOf t p) k : ℝ) : EReal))
    (hx : ∀ (k : Fin 10000) (l : Fin 128), x (ix2 k l) = ((xR k l : ℝ) : EReal))
    (hw : ∀ (l : Fin 128) (q : Fin 128), w (ix2 l q) = ((wR l q : ℝ) : EReal))
    (hg : ∀ q : Fin 128, g (ix2 (0 : Fin 1) q) = ((gR q : ℝ) : EReal))
    (hb : ∀ q : Fin 128, b (ix2 (0 : Fin 1) q) = ((bR q : ℝ) : EReal))
    (r : Fin 10000) (q : Fin 128) :
    finalOut (F := Ideal) A x w g b (ix2 r q) = ((Cert.Gcn.outK aR xR wR gR bR r q : ℝ) : EReal) := by
  have hz : ∀ (k : Fin 10000) (q : Fin 128),
      k0_pay1 (F := Ideal) x w (ix2 k q) = ((Cert.Gcn.zR xR wR k q : ℝ) : EReal) := pay1_coe xR wR x w hx hw
  have hY := pay4_yBlk aR xR wR A (k0_pay1 (F := Ideal) x w) hA hz
  have hs := sAt_coe A (k0_pay1 (F := Ideal) x w) (yBlk aR xR wR) 24 hY 24 le_rfl q
  have hss := ssAt_coe A (k0_pay1 (F := Ideal) x w) (yBlk aR xR wR) 24 hY 24 le_rfl q
  rw [sum_yBlk] at hs
  rw [sum_sq_yBlk] at hss
  unfold finalOut
  rw [pay7_apply, hs, hss, hg, hb, yAll_coe aR xR wR A _ hA hz r q, meanE_coe, scaleE_coe, Cert.Gcn.zeroE_eq,
    ← EReal.coe_mul, ← EReal.coe_mul, ← EReal.coe_sub, ← EReal.coe_add, ← coe_max]
  rfl

end Cert.KernelIdeal.HandValue

end
-- ==== Proof.RefValue.lean ====
/-
  The reference's result on real inputs, index by index, read off its run one operation at a time.
-/
import proofs.«129174_g85255100825815_cont_sun_c4_478_8_alg».proof.Proof.Gen.ReferenceIdeal.Run
import proofs.«129174_g85255100825815_cont_sun_c4_478_8_alg».proof.Proof.Gen.ReferenceIdeal.Read
import proofs.«129174_g85255100825815_cont_sun_c4_478_8_alg».proof.Proof.LibPlainDot
import proofs.«129174_g85255100825815_cont_sun_c4_478_8_alg».proof.Proof.Spec

set_option maxRecDepth 16384

noncomputable section

open scoped BigOperators

namespace Cert.ReferenceIdeal.RefValue

open Idealize.ShloMosaic Idealize.ShloMosaic.ValueIdx Cert.ReferenceIdeal Cert.ReferenceIdeal.Gen

/-! ### Where each operation reads its operands -/

theorem lidx0 (k : Fin 10000) (q l : Fin 128) : Read.lidx_main_v0 (ix2 k q) l = ix2 k l :=
  funext fun a => Fin.ext (by match a with | ⟨0, _⟩ => rfl | ⟨1, _⟩ => rfl)
theorem ridx0 (k : Fin 10000) (q l : Fin 128) : Read.ridx_main_v0 (ix2 k q) l = ix2 l q :=
  funext fun a => Fin.ext (by match a with | ⟨0, _⟩ => rfl | ⟨1, _⟩ => rfl)
theorem lidx1 (r k : Fin 10000) (q : Fin 128) : Read.lidx_main_v1 (ix2 r q) k = ix2 r k :=
  funext fun a => Fin.ext (by match a with | ⟨0, _⟩ => rfl | ⟨1, _⟩ => rfl)
theorem ridx1 (r k : Fin 10000) (q : Fin 128) : Read.ridx_main_v1 (ix2 r q) k = ix2 k q :=
  funext fun a => Fin.ext (by match a with | ⟨0, _⟩ => rfl | ⟨1, _⟩ => rfl)
/-- A column sum reads column q row by row. -/
theorem idx2 (k : Fin 10000) (q : Fin 128) : Read.idx_main_v2 (ix1 q) k = ix2 k q :=
  funext fun a => Fin.ext (by match a with | ⟨0, _⟩ => rfl | ⟨1, _⟩ => rfl)
theorem idx9 (k : Fin 10000) (q : Fin 128) : Read.idx_main_v9 (ix1 q) k = ix2 k q :=
  funext fun a => Fin.ext (by match a with | ⟨0, _⟩ => rfl | ⟨1, _⟩ => rfl)
/-- A per-feature vector laid out as one row reads feature q. -/
theorem idxRow (q : Fin 128) : Read.idx_main_v5 (ix2 (0 : Fin 1) q) = ix1 q :=
  funext fun a => Fin.ext (by match a with | ⟨0, _⟩ => rfl)
/-- The row repeated down the 10000 rows reads its only row. -/
theorem idxRep (r : Fin 10000) (q : Fin 128) : Read.idx_main_v6 (ix2 r q) = ix2 (0 : Fin 1) q :=
  funext fun a => Fin.ext (by match a with | ⟨0, _⟩ => rfl | ⟨1, _⟩ => rfl)

theorem idxRow12 (q : Fin 128) : Read.idx_main_v12 (ix2 (0 : Fin 1) q) = ix1 q := idxRow q
theorem idxRow18 (q : Fin 128) : Read.idx_main_v18 (ix2 (0 : Fin 1) q) = ix1 q := idxRow q
theorem idxRow21 (q : Fin 128) : Read.idx_main_v21 (ix2 (0 : Fin 1) q) = ix1 q := idxRow q
theorem idxRow24 (q : Fin 128) : Read.idx_main_v24 (ix2 (0 : Fin 1) q) = ix1 q := idxRow q
theorem idxRep13 (r : Fin 10000) (q : Fin 128) : Read.idx_main_v13 (ix2 r q) = ix2 (0 : Fin 1) q := idxRep r q
theorem idxRep19 (r : Fin 10000) (q : Fin 128) : Read.idx_main_v19 (ix2 r q) = ix2 (0 : Fin 1) q := idxRep r q
theorem idxRep22 (r : Fin 10000) (q : Fin 128) : Read.idx_main_v22 (ix2 r q) = ix2 (0 : Fin 1) q := idxRep r q
theorem idxRep25 (r : Fin 10000) (q : Fin 128) : Read.idx_main_v25 (ix2 r q) = ix2 (0 : Fin 1) q := idxRep r q

/-- The larger of two real numbers, in the extended reals. -/
theorem coe_max (p q : ℝ) : max (p : EReal) (q : EReal) = ((max p q : ℝ) : EReal) :=
  (EReal.coe_strictMono.monotone.map_max).symm

/-! ### The stages, bottom up -/

section stages

variable {aR : Fin 10000 → Fin 10000 → ℝ} {xR : Fin 10000 → Fin 128 → ℝ} {wR : Fin 128 → Fin 128 → ℝ}
  {gR bR : Fin 128 → ℝ}
  {x0 : (⟨S10000x10000, .f32⟩ : BufTy).Contents (Elt Ideal)} {x1 : (⟨S10000x128, .f32⟩ : BufTy).Contents (Elt Ideal)}
  {x2 : (⟨S128x128, .f32⟩ : BufTy).Contents (Elt Ideal)} {x3 x4 : (⟨S128, .f32⟩ : BufTy).Contents (Elt Ideal)}
  (h0 : ∀ (r k : Fin 10000), x0 (ix2 r k) = ((aR r k : ℝ) : EReal))
  (h1 : ∀ (k : Fin 10000) (l : Fin 128), x1 (ix2 k l) = ((xR k l : ℝ) : EReal))
  (h2 : ∀ (l q : Fin 128), x2 (ix2 l q) = ((wR l q : ℝ) : EReal))
  (h3 : ∀ q : Fin 128, x3 (ix1 q) = ((gR q : ℝ) : EReal))
  (h4 : ∀ q : Fin 128, x4 (ix1 q) = ((bR q : ℝ) : EReal))

include h1 h2 in
/-- z = x·W. -/
theorem v0_coe (k : Fin 10000) (q : Fin 128) :
    Read.val_main_v0 (F := Ideal) x1 x2 (ix2 k q) = ((Cert.Gcn.zR xR wR k q : ℝ) : EReal) := by
  rw [Read.val_main_v0_apply]
  simp only [lidx0, ridx0, h1, h2, ← EReal.coe_mul]
  rw [Cert.Gcn.coe_sum]; rfl

include h0 h1 h2 in
/-- y = adj·z. -/
theorem v1_coe (r : Fin 10000) (q : Fin 128) :
    Read.val_main_v1 (F := Ideal) x0 x1 x2 (ix2 r q) = ((Cert.Gcn.yR aR xR wR r q : ℝ) : EReal) := by
  rw [Read.val_main_v1_apply]
  simp only [lidx1, ridx1, h0, v0_coe h1 h2, ← EReal.coe_mul]
  rw [Cert.Gcn.coe_sum]; rfl

include h0 h1 h2 in
/-- The column sums of y. -/
theorem v2_coe (q : Fin 128) :
    Read.val_main_v2 (F := Ideal) x0 x1 x2 (ix1 q) = ((∑ i : Fin 10000, Cert.Gcn.yR aR xR wR i q : ℝ) : EReal) := by
  rw [Read.val_main_v2_apply, Read.val_main_cst_apply]
  simp only [idx2, v1_coe h0 h1 h2, Ideal.ofBits_def]
  rw [Cert.Gcn.zeroE_eq, Cert.Gcn.coe_sum, EReal.coe_zero, zero_add]

/-- The row count. -/
theorem v3_coe (q : Fin 128) : Read.val_main_v3 (F := Ideal) (ix1 q) = ((10000 : ℝ) : EReal) := by
  rw [Read.val_main_v3_apply, Read.val_main_cst_0_apply, Ideal.ofBits_def, Cert.Gcn.nE_eq]

include h0 h1 h2 in
/-- The column means. -/
theorem v4_coe (q : Fin 128) :
    Read.val_main_v4 (F := Ideal) x0 x1 x2 (ix1 q) = ((Cert.Gcn.meanF aR xR wR q : ℝ) : EReal) := by
  rw [Read.val_main_v4_apply, v2_coe h0 h1 h2, v3_coe, Ideal.hostDivf_def,
    Cert.Gcn.div_coe_coe _ _ (by norm_num)]
  rfl

include h0 h1 h2 in
/-- The means as one row, -/
theorem v5_coe (q : Fin 128) :
    Read.val_main_v5 (F := Ideal) x0 x1 x2 (ix2 (0 : Fin 1) q) = ((Cert.Gcn.meanF aR xR wR q : ℝ) : EReal) := by
  rw [Read.val_main_v5_apply, idxRow, v4_coe h0 h1 h2]

include h0 h1 h2 in
/-- repeated down the rows. -/
theorem v6_coe (r : Fin 10000) (q : Fin 128) :
    Read.val_main_v6 (F := Ideal) x0 x1 x2 (ix2 r q) = ((Cert.Gcn.meanF aR xR wR q : ℝ) : EReal) := by
  rw [Read.val_main_v6_apply, idxRep, v5_coe h0 h1 h2]

include h0 h1 h2 in
/-- The deviations from the column mean, -/
theorem v7_coe (r : Fin 10000) (q : Fin 128) :
    Read.val_main_v7 (F := Ideal) x0 x1 x2 (ix2 r q)
      = ((Cert.Gcn.yR aR xR wR r q - Cert.Gcn.meanF aR xR wR q : ℝ) : EReal) := by
  rw [Read.val_main_v7_apply, v1_coe h0 h1 h2, v6_coe h0 h1 h2, Ideal.subf_def, EReal.coe_sub]

include h0 h1 h2 in
/-- squared, -/
theorem v8_coe (r : Fin 10000) (q : Fin 128) :
    Read.val_main_v8 (F := Ideal) x0 x1 x2 (ix2 r q)
      = (((Cert.Gcn.yR aR xR wR r q - Cert.Gcn.meanF aR xR wR q)
          * (Cert.Gcn.yR aR xR wR r q - Cert.Gcn.meanF aR xR wR q) : ℝ) : EReal) := by
  rw [Read.val_main_v8_apply, v7_coe h0 h1 h2, Ideal.mulf_def, EReal.coe_mul]

include h0 h1 h2 in
/-- summed down each column, -/
theorem v9_coe (q : Fin 128) :
    Read.val_main_v9 (F := Ideal) x0 x1 x2 (ix1 q)
      = ((∑ i : Fin 10000, (Cert.Gcn.yR aR xR wR i q - Cert.Gcn.meanF aR xR wR q)
          * (Cert.Gcn.yR aR xR wR i q - Cert.Gcn.meanF aR xR wR q) : ℝ) : EReal) := by
  rw [Read.val_main_v9_apply, Read.val_main_cst_1_apply]
  simp only [idx9, v8_coe h0 h1 h2, Ideal.ofBits_def]
  rw [Cert.Gcn.zeroE_eq, Cert.Gcn.coe_sum, EReal.coe_zero, zero_add]

theorem v10_coe (q : Fin 128) : Read.val_main_v10 (F := Ideal) (ix1 q) = ((10000 : ℝ) : EReal) := by
  rw [Read.val_main_v10_apply, Read.val_main_cst_2_apply, Ideal.ofBits_def, Cert.Gcn.nE_eq]

include h0 h1 h2 in
/-- and divided by the row count: the column variances. -/
theorem v11_coe (q : Fin 128) :
    Read.val_main_v11 (F := Ideal) x0 x1 x2 (ix1 q) = ((Cert.Gcn.varF aR xR wR q : ℝ) : EReal) := by
  rw [Read.val_main_v11_apply, v9_coe h0 h1 h2, v10_coe, Ideal.hostDivf_def,
    Cert.Gcn.div_coe_coe _ _ (by norm_num)]
  rfl

include h0 h1 h2 in
theorem v12_coe (q : Fin 128) :
    Read.val_main_v12 (F := Ideal) x0 x1 x2 (ix2 (0 : Fin 1) q) = ((Cert.Gcn.meanF aR xR wR q : ℝ) : EReal) := by
  rw [Read.val_main_v12_apply, idxRow12, v4_coe h0 h1 h2]

include h0 h1 h2 in
theorem v13_coe (r : Fin 10000) (q : Fin 128) :
    Read.val_main_v13 (F := Ideal) x0 x1 x2 (ix2 r q) = ((Cert.Gcn.meanF aR xR wR q : ℝ) : EReal) := by
  rw [Read.val_main_v13_apply, idxRep13, v12_coe h0 h1 h2]

include h0 h1 h2 in
/-- The deviations again. -/
theorem v14_coe (r : Fin 10000) (q : Fin 128) :
    Read.val_main_v14 (F := Ideal) x0 x1 x2 (ix2 r q)
      = ((Cert.Gcn.yR aR xR wR r q - Cert.Gcn.meanF aR xR wR q : ℝ) : EReal) := by
  rw [Read.val_main_v14_apply, v1_coe h0 h1 h2, v13_coe h0 h1 h2, Ideal.subf_def, EReal.coe_sub]

theorem v15_coe (q : Fin 128) : Read.val_main_v15 (F := Ideal) (ix1 q) = ((Cert.Gcn.epsR : ℝ) : EReal) := by
  rw [Read.val_main_v15_apply, Read.val_main_cst_3_apply, Ideal.ofBits_def, Cert.Gcn.epsE_eq]

include h0 h1 h2 in
/-- The variance plus ε, -/
theorem v16_coe (q : Fin 128) :
    Read.val_main_v16 (F := Ideal) x0 x1 x2 (ix1 q)
      = ((Cert.Gcn.varF aR xR wR q + Cert.Gcn.epsR : ℝ) : EReal) := by
  rw [Read.val_main_v16_apply, v11_coe h0 h1 h2, v15_coe, Ideal.addf_def, EReal.coe_add]

/-- which is positive, -/
theorem var_eps_pos (q : Fin 128) : 0 < Cert.Gcn.varF aR xR wR q + Cert.Gcn.epsR :=
  add_pos_of_nonneg_of_pos (Cert.Gcn.varF_nonneg aR xR wR q) Cert.Gcn.epsR_pos

include h0 h1 h2 in
/-- and its square root. -/
theorem v17_coe (q : Fin 128) :
    Read.val_main_v17 (F := Ideal) x0 x1 x2 (ix1 q)
      = ((Real.sqrt (Cert.Gcn.varF aR xR wR q + Cert.Gcn.epsR) : ℝ) : EReal) := by
  rw [Read.val_main_v17_apply, v16_coe h0 h1 h2, Ideal.hostUnary_sqrt_def,
    Cert.Gcn.sqrt_coe _ (var_eps_pos q).le]

include h0 h1 h2 in
theorem v18_coe (q : Fin 128) :
    Read.val_main_v18 (F := Ideal) x0 x1 x2 (ix2 (0 : Fin 1) q)
      = ((Real.sqrt (Cert.Gcn.varF aR xR wR q + Cert.Gcn.epsR) : ℝ) : EReal) := by
  rw [Read.val_main_v18_apply, idxRow18, v17_coe h0 h1 h2]

include h0 h1 h2 in
theorem v19_coe (r : Fin 10000) (q : Fin 128) :
    Read.val_main_v19 (F := Ideal) x0 x1 x2 (ix2 r q)
      = ((Real.sqrt (Cert.Gcn.varF aR xR wR q + Cert.Gcn.epsR) : ℝ) : EReal) := by
  rw [Read.val_main_v19_apply, idxRep19, v18_coe h0 h1 h2]

include h0 h1 h2 in
/-- The normalized entry. -/
theorem v20_coe (r : Fin 10000) (q : Fin 128) :
    Read.val_main_v20 (F := Ideal) x0 x1 x2 (ix2 r q)
      = (((Cert.Gcn.yR aR xR wR r q - Cert.Gcn.meanF aR xR wR q)
          / Real.sqrt (Cert.Gcn.varF aR xR wR q + Cert.Gcn.epsR) : ℝ) : EReal) := by
  rw [Read.val_main_v20_apply, v14_coe h0 h1 h2, v19_coe h0 h1 h2, Ideal.hostDivf_def,
    Cert.Gcn.div_coe_coe _ _ (Real.sqrt_pos.mpr (var_eps_pos q)).ne']

include h3 in
theorem v21_coe (q : Fin 128) :
    Read.val_main_v21 (F := Ideal) x3 (ix2 (0 : Fin 1) q) = ((gR q : ℝ) : EReal) := by
  rw [Read.val_main_v21_apply, idxRow21, h3]

include h3 in
/-- γ at every row. -/
theorem v22_coe (r : Fin 10000) (q : Fin 128) :
    Read.val_main_v22 (F := Ideal) x3 (ix2 r q) = ((gR q : ℝ) : EReal) := by
  rw [Read.val_main_v22_apply, idxRep22, v21_coe h3]

include h0 h1 h2 h3 in
theorem v23_coe (r : Fin 10000) (q : Fin 128) :
    Read.val_main_v23 (F := Ideal) x0 x1 x2 x3 (ix2 r q)
      = ((gR q * ((Cert.Gcn.yR aR xR wR r q - Cert.Gcn.meanF aR xR wR q)
          / Real.sqrt (Cert.Gcn.varF aR xR wR q + Cert.Gcn.epsR)) : ℝ) : EReal) := by
  rw [Read.val_main_v23_apply, v22_coe h3, v20_coe h0 h1 h2, Ideal.mulf_def, EReal.coe_mul]

include h4 in
theorem v24_coe (q : Fin 128) :
    Read.val_main_v24 (F := Ideal) x4 (ix2 (0 : Fin 1) q) = ((bR q : ℝ) : EReal) := by
  rw [Read.val_main_v24_apply, idxRow24, h4]

include h4 in
/-- β at every row. -/
theorem v25_coe (r : Fin 10000) (q : Fin 128) :
    Read.val_main_v25 (F := Ideal) x4 (ix2 r q) = ((bR q : ℝ) : EReal) := by
  rw [Read.val_main_v25_apply, idxRep25, v24_coe h4]

include h0 h1 h2 h3 h4 in
/-- The affine map of the normalized entry. -/
theorem v26_coe (r : Fin 10000) (q : Fin 128) :
    Read.val_main_v26 (F := Ideal) x0 x1 x2 x3 x4 (ix2 r q)
      = ((gR q * ((Cert.Gcn.yR aR xR wR r q - Cert.Gcn.meanF aR xR wR q)
          / Real.sqrt (Cert.Gcn.varF aR xR wR q + Cert.Gcn.epsR)) + bR q : ℝ) : EReal) := by
  rw [Read.val_main_v26_apply, v23_coe h0 h1 h2 h3, v25_coe h4, Ideal.addf_def, EReal.coe_add]

/-- The zero the positive part compares against. -/
theorem relu0_coe (r : Fin 10000) (q : Fin 128) :
    Read.val_main_call0_v0 (F := Ideal) (ix2 r q) = ((0 : ℝ) : EReal) := by
  rw [Read.val_main_call0_v0_apply, Read.val_main_call0_cst_apply, Ideal.ofBits_def, Cert.Gcn.zeroE_eq]

end stages

/-- On arguments whose entries are real numbers, the reference's result is, entry by entry, the direct arrangement of
    the layer over the reals. -/
theorem ref_coe (aR : Fin 10000 → Fin 10000 → ℝ) (xR : Fin 10000 → Fin 128 → ℝ) (wR : Fin 128 → Fin 128 → ℝ)
    (gR bR : Fin 128 → ℝ)
    (x0 : (⟨S10000x10000, .f32⟩ : BufTy).Contents (Elt Ideal)) (x1 : (⟨S10000x128, .f32⟩ : BufTy).Contents (Elt Ideal))
    (x2 : (⟨S128x128, .f32⟩ : BufTy).Contents (Elt Ideal)) (x3 x4 : (⟨S128, .f32⟩ : BufTy).Contents (Elt Ideal))
    (h0 : ∀ (r k : Fin 10000), x0 (ix2 r k) = ((aR r k : ℝ) : EReal))
    (h1 : ∀ (k : Fin 10000) (l : Fin 128), x1 (ix2 k l) = ((xR k l : ℝ) : EReal))
    (h2 : ∀ (l q : Fin 128), x2 (ix2 l q) = ((wR l q : ℝ) : EReal))
    (h3 : ∀ q : Fin 128, x3 (ix1 q) = ((gR q : ℝ) : EReal))
    (h4 : ∀ q : Fin 128, x4 (ix1 q) = ((bR q : ℝ) : EReal))
    (r : Fin 10000) (q : Fin 128) :
    Cert.ReferenceIdeal.Read.val_main_v27 (F := Ideal) x0 x1 x2 x3 x4 (ix2 r q)
      = ((Cert.Gcn.outF aR xR wR gR bR r q : ℝ) : EReal) := by
  rw [Read.val_main_v27_apply, v26_coe h0 h1 h2 h3 h4, relu0_coe, Ideal.maximumf_def, coe_max]
  rfl

end Cert.ReferenceIdeal.RefValue

end
-- ==== Proof.Finite.lean ====
/-
  The precondition, decoded: every entry of every argument is a real number.
-/
import proofs.«129174_g85255100825815_cont_sun_c4_478_8_alg».proof.Proof.Gen.Pre_finite_inputs
import Idealize.ShloMosaic.PureOps.Ideal
import Idealize.ShloMosaic.Lib.ReduceAll
import Idealize.ShloMosaic.Lib.ValueIdx

noncomputable section

namespace Cert.Pre_finite_inputs.Decode

open Idealize.ShloMosaic Cert.Pre_finite_inputs

/-- The result shape of a reduction over all axes has exactly one index. -/
local instance : Subsingleton S_.Idx := ⟨fun a b => funext fun d => d.elim0⟩

/-- The pattern the predicate compares against denotes `+∞`. -/
theorem ofBits_inf : Ideal.ofBits .f32 0x7F800000#32 = ⊤ := by simp [Ideal.ofBits, Ideal.ieee]

/-- An extended real whose absolute value `max x (-x)` is strictly below `+∞` is a real number:
    at `⊥` and at `⊤` the absolute value is `⊤`, which is not below itself. -/
theorem real_of_abs_lt_top (x : EReal)
    (h : Ideal.cmp .olt (max x (-x)) (Ideal.ofBits .f32 0x7F800000#32) = 1#1) : ∃ v : ℝ, x = ((v : ℝ) : EReal) := by
  rw [ofBits_inf] at h
  induction x using EReal.rec with
  | bot => simp [Ideal.cmp] at h
  | coe r => exact ⟨r, rfl⟩
  | top => simp [Ideal.cmp] at h

/-- One argument: if the conjunction over all entries of `|a i| < +∞` is true, every entry of `a` is a real number.
    Generic in the argument's shape and in the axes reduced, as long as the result has a single index. -/
theorem all_real {s : Shape} {axes : List (Fin s.rank)} (hb : S_.BroadcastsInDim s (![] : Fin 0 → Fin s.rank))
    (hr : s.ReducesTo axes S_) (hu : 0 < S_.numel) (a : FVec Ideal s .f32) (init : IVec S_ 1)
    (e : Host.reduce IntOp.andi (cmpf .olt (Host.absf a) (broadcastInDim s ![] hb (constant S_ .f32 0x7F800000#32)))
      init hr hu ValueIdx.ix0 = 1#1) (i : s.Idx) : ∃ v : ℝ, a i = ((v : ℝ) : EReal) :=
  real_of_abs_lt_top (a i) (Host.reduce_andi_all _ init hr hu ValueIdx.ix0 e i)

/-- If the printed predicate (each argument's absolute values all below +inf) holds, every entry of every argument is a
    real number. -/
theorem real_of_pre [Cert.Pre_finite_inputs.Facts]
    (a0 : FVec Ideal S10000x10000 .f32) (a1 : FVec Ideal S10000x128 .f32) (a2 : FVec Ideal S128x128 .f32)
    (a3 a4 : FVec Ideal S128 .f32)
    (h : Cert.Pre_finite_inputs.fn (F := Ideal) a0 a1 a2 a3 a4 = fun _ => 1#1) :
    (∀ i, ∃ v : ℝ, a0 i = ((v : ℝ) : EReal)) ∧ (∀ i, ∃ v : ℝ, a1 i = ((v : ℝ) : EReal))
      ∧ (∀ i, ∃ v : ℝ, a2 i = ((v : ℝ) : EReal)) ∧ (∀ i, ∃ v : ℝ, a3 i = ((v : ℝ) : EReal))
      ∧ (∀ i, ∃ v : ℝ, a4 i = ((v : ℝ) : EReal)) := by
  -- the scalar result, read at its one index, with the printed chain of operations in view
  have h0 := congrFun h ValueIdx.ix0
  dsimp only [fn, fn_part1] at h0
  -- a conjunction of five bits is 1 exactly when each of the five is
  simp only [Idealize.ShloMosaic.andi, IntOp.andi_eq_one] at h0
  obtain ⟨⟨⟨⟨e0, e1⟩, e2⟩, e3⟩, e4⟩ := h0
  exact ⟨all_real _ _ _ a0 _ e0, all_real _ _ _ a1 _ e1, all_real _ _ _ a2 _ e2, all_real _ _ _ a3 _ e3,
    all_real _ _ _ a4 _ e4⟩

end Cert.Pre_finite_inputs.Decode

end
-- ==== Proof.Bridge.lean ====
/-
  Joining the two sides. Under the precondition every entry of every argument is a real number; on real inputs the
  kernel's final array is the accumulating arrangement of the layer and the reference's result the direct one, and over
  the reals the two arrangements agree.
-/
import proofs.«129174_g85255100825815_cont_sun_c4_478_8_alg».proof.Proof.KBlocks
import proofs.«129174_g85255100825815_cont_sun_c4_478_8_alg».proof.Proof.KValue
import proofs.«129174_g85255100825815_cont_sun_c4_478_8_alg».proof.Proof.RefValue
import proofs.«129174_g85255100825815_cont_sun_c4_478_8_alg».proof.Proof.Finite
import proofs.«129174_g85255100825815_cont_sun_c4_478_8_alg».proof.Proof.Spec

set_option maxRecDepth 16384

noncomputable section

namespace Cert.Proof.Bridge

open Idealize.ShloMosaic Idealize.ShloMosaic.TcCoe Idealize.ShloMosaic.ValueIdx Idealize.SL.Sem
open Cert.KernelIdeal.Hand

/-- On a memory whose arguments satisfy the precondition, the reference's result stage of the arguments is, index by
    index, the array the kernel leaves. -/
theorem kernel_eq_ref [Cert.Pre_finite_inputs.Facts]
    (m : (ℓ : Loc Cert.KernelIdeal.nD Cert.KernelIdeal.τ Cert.KernelIdeal.sig) → Buf (Elt Ideal) ℓ) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) = fun _ => 1#1)
    (j : Cert.KernelIdeal.S10000x128.Idx) :
    Cert.ReferenceIdeal.Read.val_main_v27 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) j
      = outArr (F := Ideal) m c j := by
  obtain ⟨h0, h1, h2, h3, h4⟩ := Cert.Pre_finite_inputs.Decode.real_of_pre _ _ _ _ _ hpre
  choose a0 ha0 using h0
  choose a1 ha1 using h1
  choose a2 ha2 using h2
  choose a3 ha3 using h3
  choose a4 ha4 using h4
  obtain ⟨r, q, rfl⟩ : ∃ (r : Fin 10000) (q : Fin 128), j = ix2 r q := ⟨j 0, j 1, eq_ix2 j⟩
  rw [Cert.ReferenceIdeal.RefValue.ref_coe (fun r k => a0 (ix2 r k)) (fun k l => a1 (ix2 k l)) (fun l q => a2 (ix2 l q))
    (fun q => a3 (ix1 q)) (fun q => a4 (ix1 q)) _ _ _ _ _ (fun r k => ha0 _) (fun k l => ha1 _) (fun l q => ha2 _)
    (fun q => ha3 _) (fun q => ha4 _) r q]
  rw [outArr_eq, Cert.KernelIdeal.HandValue.finalOut_coe (fun r k => a0 (ix2 r k)) (fun k l => a1 (ix2 k l)) (fun l q => a2 (ix2 l q))
    (fun q => a3 (ix1 q)) (fun q => a4 (ix1 q)) _ _ _ _ _
    (fun t p k => by
      have ht : t.val < Cert.KernelIdeal.cfg0.N := lt_of_lt_of_eq t.isLt Cert.KernelIdeal.Gen.N_0.symm
      rw [adjAt_of_lt m c ⟨t.val, ht⟩, adjB_apply m c ⟨t.val, ht⟩ p k (Cert.Gcn.rowOf t p) rfl]
      exact ha0 _)
    (fun k l => (xB_apply m c t0 k l).trans (ha1 _))
    (fun l q => (wB_apply m c t0 l q).trans (ha2 _))
    (fun q => (gB_apply m c tL q).trans (ha3 _))
    (fun q => (bB_apply m c tL q).trans (ha4 _)) r q,
    Cert.Gcn.outK_eq_outF]

end Cert.Proof.Bridge

end
-- ==== Proof.lean ====
/-
  The certificate of one graph-convolution layer with batch normalisation and ReLU: a fused accelerator kernel against
  the plain reference.

  The layer computes z = x·W, y = adj·z, then for each of the 128 output features the mean and variance of that
  column of y over the 10000 rows, and max(γ·(y − mean)/√(var + ε) + β, 0). The kernel streams the adjacency matrix in
  25 blocks of 400 rows: the first grid point computes z into a scratch buffer and zeroes two running sums; every
  point stores its block of y into its rows of the output buffer and adds the block's column sums and column sums of
  squares; the last point forms the variance as E[y²] − (E[y])² cut off below at zero, scale = γ/√(var + ε) and
  shift = β − mean·scale, and overwrites the whole output with max(y·scale + shift, 0).

  The frames of the two kernel programs come from one run of the body obligation at every grid point (the scratch
  buffers tracked point by point, the output buffer constrained by "the rows of the points so far hold their blocks of
  y"), the reference's from its run. Over the extended reals, under the precondition that every input entry is
  finite, every quantity is a real number; there E[y²] − (E[y])² is the mean squared deviation (so the cut-off is
  idle) and the two affine forms differ by distributing γ/√(var + ε) over y − mean, so the two results are equal
  entry by entry.
-/
import proofs.«129174_g85255100825815_cont_sun_c4_478_8_alg».proof.Defs
import proofs.«129174_g85255100825815_cont_sun_c4_478_8_alg».proof.Proof.Gen.Kernel
import proofs.«129174_g85255100825815_cont_sun_c4_478_8_alg».proof.Proof.Gen.KernelIdeal
import proofs.«129174_g85255100825815_cont_sun_c4_478_8_alg».proof.Proof.Gen.ReferenceIdeal
import proofs.«129174_g85255100825815_cont_sun_c4_478_8_alg».proof.Proof.Gen.Pre_finite_inputs
import proofs.«129174_g85255100825815_cont_sun_c4_478_8_alg».proof.Proof.Gen.ReferenceIdeal.Run
import proofs.«129174_g85255100825815_cont_sun_c4_478_8_alg».proof.Proof.Gen.ReferenceIdeal.Read
import proofs.«129174_g85255100825815_cont_sun_c4_478_8_alg».proof.Proof.BLaunch
import proofs.«129174_g85255100825815_cont_sun_c4_478_8_alg».proof.Proof.KLaunch
import proofs.«129174_g85255100825815_cont_sun_c4_478_8_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Hand.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference runs and leaves its arguments unchanged: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments, both idealized programs end with the same result array: the kernel's
    final array, which on finite inputs is the reference's result entry by entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.outArr (F := Ideal) m c, ?_, ?_⟩
  · exact (θ_run Cert.KernelIdeal.defs _ _).mono (fun r h c => ⟨funext (h c).1, (h c).2⟩)
      (Cert.KernelIdeal.Hand.run_value (F := Ideal) m ρ)
  · refine (θ_run Cert.ReferenceIdeal.defs _ _).mono (fun r h c => ⟨?_, (h c).2⟩)
      (Cert.ReferenceIdeal.Value.run (F := Ideal) m' ρ')
    rw [(h c).1, (hagree c).1, (hagree c).2.1, (hagree c).2.2.1, (hagree c).2.2.2.1, (hagree c).2.2.2.2,
      Cert.ReferenceIdeal.Read.val_main_v27_eq]
    exact funext fun j => Cert.Proof.Bridge.kernel_eq_ref m c (hpre c) j

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
